-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S12288x768 : Shape := ⟨2, ![12288, 768]⟩
abbrev S_ : Shape := ⟨0, ![]⟩

class Facts : Prop where
  bcast_S_S12288x768 : S_.BroadcastsInDim S12288x768 (![] : Fin 0 → Fin S12288x768.rank)
  reducesTo_S12288x768_S_d0_1 : S12288x768.ReducesTo [0, 1] S_
  h_S_ : 0 < S_.numel

variable [Facts]

def fn {F : FTy → Type} [FloatOps F] (main_arg0 : FVec F S12288x768 .f32) : IVec S_ 1 :=
  let main_v0 : FVec F S12288x768 .f32 := Host.absf main_arg0
  let main_cst : FVec F S_ .f32 := constant S_ .f32 0x7F800000#32
  let main_v1 : FVec F S12288x768 .f32 := broadcastInDim S12288x768 ![] bcast_S_S12288x768 main_cst
  let main_v2 : IVec S12288x768 1 := cmpf .olt main_v0 main_v1
  let main_c : IVec S_ 1 := constantI S_ 1 1#1
  let main_v3 : IVec S_ 1 := (fun x v => Host.reduce IntOp.andi x v reducesTo_S12288x768_S_d0_1 h_S_) main_v2 main_c
  main_v3
-- ==== Kernel.lean ====
abbrev S1536x768 : Shape := ⟨2, ![1536, 768]⟩
abbrev S1x768 : Shape := ⟨2, ![1, 768]⟩
abbrev S8x1x768 : Shape := ⟨3, ![8, 1, 768]⟩
abbrev S8 : Shape := ⟨1, ![8]⟩
abbrev S_ : Shape := ⟨0, ![]⟩
abbrev S768 : Shape := ⟨1, ![768]⟩
abbrev S1x1x768 : Shape := ⟨3, ![1, 1, 768]⟩
abbrev S1 : Shape := ⟨1, ![1]⟩
abbrev S8x768 : Shape := ⟨2, ![8, 768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S8x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_54 : BitVec 32 := 0#32
  let c0_i32_52 : BitVec 32 := 0#32
  let c1_i32_53 : BitVec 32 := 1#32
  let v89 : BitVec 32 := Scalar.muli c0_i32_52 c1_i32_53
  let v90 : BitVec 32 := Scalar.addi c0_i32_54 v89
  v90.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_54 : BitVec 32 := 0#32
  let c1_i32_52 : BitVec 32 := 1#32
  let c1_i32_53 : BitVec 32 := 1#32
  let v89 : BitVec 32 := Scalar.muli c1_i32_52 c1_i32_53
  let v90 : BitVec 32 := Scalar.addi c0_i32_54 v89
  v90.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_54 : BitVec 32 := 0#32
  let c2_i32_52 : BitVec 32 := 2#32
  let c1_i32_53 : BitVec 32 := 1#32
  let v89 : BitVec 32 := Scalar.muli c2_i32_52 c1_i32_53
  let v90 : BitVec 32 := Scalar.addi c0_i32_54 v89
  v90.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_54 : BitVec 32 := 0#32
  let c3_i32_52 : BitVec 32 := 3#32
  let c1_i32_53 : BitVec 32 := 1#32
  let v89 : BitVec 32 := Scalar.muli c3_i32_52 c1_i32_53
  let v90 : BitVec 32 := Scalar.addi c0_i32_54 v89
  v90.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_54 : BitVec 32 := 0#32
  let c4_i32_52 : BitVec 32 := 4#32
  let c1_i32_53 : BitVec 32 := 1#32
  let v89 : BitVec 32 := Scalar.muli c4_i32_52 c1_i32_53
  let v90 : BitVec 32 := Scalar.addi c0_i32_54 v89
  v90.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_54 : BitVec 32 := 0#32
  let c5_i32_52 : BitVec 32 := 5#32
  let c1_i32_53 : BitVec 32 := 1#32
  let v89 : BitVec 32 := Scalar.muli c5_i32_52 c1_i32_53
  let v90 : BitVec 32 := Scalar.addi c0_i32_54 v89
  v90.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_54 : BitVec 32 := 0#32
  let c6_i32_52 : BitVec 32 := 6#32
  let c1_i32_53 : BitVec 32 := 1#32
  let v89 : BitVec 32 := Scalar.muli c6_i32_52 c1_i32_53
  let v90 : BitVec 32 := Scalar.addi c0_i32_54 v89
  v90.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_54 : BitVec 32 := 0#32
  let c7_i32_52 : BitVec 32 := 7#32
  let c1_i32_53 : BitVec 32 := 1#32
  let v89 : BitVec 32 := Scalar.muli c7_i32_52 c1_i32_53
  let v90 : BitVec 32 := Scalar.addi c0_i32_54 v89
  v90.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_10 : Index := 0#32
  let c0_11 : Index := 0#32
  ![v32.toNat, 0, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v36 : BitVec 1 := Scalar.cmpi .ne v2 c0_i32_13
  let v37 : BitVec 32 := Scalar.extui v36
  let c0_i32_14 : BitVec 32 := 0#32
  let v38 : BitVec 1 := Scalar.cmpi .ne v37 c0_i32_14
  v38

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev9 : Nat :=
  let c0_i32_54 : BitVec 32 := 0#32
  let c0_i32_52 : BitVec 32 := 0#32
  let c1_i32_53 : BitVec 32 := 1#32
  let v89 : BitVec 32 := Scalar.muli c0_i32_52 c1_i32_53
  let v90 : BitVec 32 := Scalar.addi c0_i32_54 v89
  v90.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v39 : BitVec 1 := Scalar.cmpi .ne v2 c1_i32_15
  let v40 : BitVec 32 := Scalar.extui v39
  let c0_i32_16 : BitVec 32 := 0#32
  let v41 : BitVec 1 := Scalar.cmpi .ne v40 c0_i32_16
  v41

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev10 : Nat :=
  let c0_i32_54 : BitVec 32 := 0#32
  let c1_i32_52 : BitVec 32 := 1#32
  let c1_i32_53 : BitVec 32 := 1#32
  let v89 : BitVec 32 := Scalar.muli c1_i32_52 c1_i32_53
  let v90 : BitVec 32 := Scalar.addi c0_i32_54 v89
  v90.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17 : BitVec 32 := 2#32
  let v42 : BitVec 1 := Scalar.cmpi .ne v2 c2_i32_17
  let v43 : BitVec 32 := Scalar.extui v42
  let c0_i32_18 : BitVec 32 := 0#32
  let v44 : BitVec 1 := Scalar.cmpi .ne v43 c0_i32_18
  v44

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev11 : Nat :=
  let c0_i32_54 : BitVec 32 := 0#32
  let c2_i32_52 : BitVec 32 := 2#32
  let c1_i32_53 : BitVec 32 := 1#32
  let v89 : BitVec 32 := Scalar.muli c2_i32_52 c1_i32_53
  let v90 : BitVec 32 := Scalar.addi c0_i32_54 v89
  v90.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v45 : BitVec 1 := Scalar.cmpi .ne v2 c3_i32_19
  let v46 : BitVec 32 := Scalar.extui v45
  let c0_i32_20 : BitVec 32 := 0#32
  let v47 : BitVec 1 := Scalar.cmpi .ne v46 c0_i32_20
  v47

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev12 : Nat :=
  let c0_i32_54 : BitVec 32 := 0#32
  let c3_i32_52 : BitVec 32 := 3#32
  let c1_i32_53 : BitVec 32 := 1#32
  let v89 : BitVec 32 := Scalar.muli c3_i32_52 c1_i32_53
  let v90 : BitVec 32 := Scalar.addi c0_i32_54 v89
  v90.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v48 : BitVec 1 := Scalar.cmpi .ne v2 c4_i32_21
  let v49 : BitVec 32 := Scalar.extui v48
  let c0_i32_22 : BitVec 32 := 0#32
  let v50 : BitVec 1 := Scalar.cmpi .ne v49 c0_i32_22
  v50

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev13 : Nat :=
  let c0_i32_54 : BitVec 32 := 0#32
  let c4_i32_52 : BitVec 32 := 4#32
  let c1_i32_53 : BitVec 32 := 1#32
  let v89 : BitVec 32 := Scalar.muli c4_i32_52 c1_i32_53
  let v90 : BitVec 32 := Scalar.addi c0_i32_54 v89
  v90.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_23 : BitVec 32 := 5#32
  let v51 : BitVec 1 := Scalar.cmpi .ne v2 c5_i32_23
  let v52 : BitVec 32 := Scalar.extui v51
  let c0_i32_24 : BitVec 32 := 0#32
  let v53 : BitVec 1 := Scalar.cmpi .ne v52 c0_i32_24
  v53

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev14 : Nat :=
  let c0_i32_54 : BitVec 32 := 0#32
  let c5_i32_52 : BitVec 32 := 5#32
  let c1_i32_53 : BitVec 32 := 1#32
  let v89 : BitVec 32 := Scalar.muli c5_i32_52 c1_i32_53
  let v90 : BitVec 32 := Scalar.addi c0_i32_54 v89
  v90.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_25 : BitVec 32 := 6#32
  let v54 : BitVec 1 := Scalar.cmpi .ne v2 c6_i32_25
  let v55 : BitVec 32 := Scalar.extui v54
  let c0_i32_26 : BitVec 32 := 0#32
  let v56 : BitVec 1 := Scalar.cmpi .ne v55 c0_i32_26
  v56

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev15 : Nat :=
  let c0_i32_54 : BitVec 32 := 0#32
  let c6_i32_52 : BitVec 32 := 6#32
  let c1_i32_53 : BitVec 32 := 1#32
  let v89 : BitVec 32 := Scalar.muli c6_i32_52 c1_i32_53
  let v90 : BitVec 32 := Scalar.addi c0_i32_54 v89
  v90.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_27 : BitVec 32 := 7#32
  let v57 : BitVec 1 := Scalar.cmpi .ne v2 c7_i32_27
  let v58 : BitVec 32 := Scalar.extui v57
  let c0_i32_28 : BitVec 32 := 0#32
  let v59 : BitVec 1 := Scalar.cmpi .ne v58 c0_i32_28
  v59

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_dev16 : Nat :=
  let c0_i32_54 : BitVec 32 := 0#32
  let c7_i32_52 : BitVec 32 := 7#32
  let c1_i32_53 : BitVec 32 := 1#32
  let v89 : BitVec 32 := Scalar.muli c7_i32_52 c1_i32_53
  let v90 : BitVec 32 := Scalar.addi c0_i32_54 v89
  v90.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  h_S1x1x768 : 0 < S1x1x768.numel
  shapeCasts_S1x1x768_S1x768 : S1x1x768.ShapeCasts S1x768
  shapeCasts_S1x768_S1x1x768 : S1x768.ShapeCasts S1x1x768
  hamt_7 : (7#32 : BitVec 32).msb = false
  inb_S8_S1_0 : ∀ a, (![0] : Fin 1 → Nat) a + S1.size a ≤ S8.size a
  squeezes_S1_S_ : S1.Squeezes S_
  squeezes_S1x1x768_S1x768 : S1x1x768.Squeezes S1x768
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x1x768_S1x1x768_0_0_0 : ∀ a, (![0, 0, 0] : Fin 3 → Nat) a + S1x1x768.size a ≤ S8x1x768.size a
  inb_S8x1x768_S1x1x768_1_0_0 : ∀ a, (![1, 0, 0] : Fin 3 → Nat) a + S1x1x768.size a ≤ S8x1x768.size a
  inb_S8x1x768_S1x1x768_2_0_0 : ∀ a, (![2, 0, 0] : Fin 3 → Nat) a + S1x1x768.size a ≤ S8x1x768.size a
  inb_S8x1x768_S1x1x768_3_0_0 : ∀ a, (![3, 0, 0] : Fin 3 → Nat) a + S1x1x768.size a ≤ S8x1x768.size a
  inb_S8x1x768_S1x1x768_4_0_0 : ∀ a, (![4, 0, 0] : Fin 3 → Nat) a + S1x1x768.size a ≤ S8x1x768.size a
  inb_S8x1x768_S1x1x768_5_0_0 : ∀ a, (![5, 0, 0] : Fin 3 → Nat) a + S1x1x768.size a ≤ S8x1x768.size a
  inb_S8x1x768_S1x1x768_6_0_0 : ∀ a, (![6, 0, 0] : Fin 3 → Nat) a + S1x1x768.size a ≤ S8x1x768.size a
  inb_S8x1x768_S1x1x768_7_0_0 : ∀ a, (![7, 0, 0] : Fin 3 → Nat) a + S1x1x768.size a ≤ S8x1x768.size a
  inb_S8x1x768_S8x1x768_0_0_0 : ∀ a, (![0, 0, 0] : Fin 3 → Nat) a + S8x1x768.size a ≤ S8x1x768.size a
  h_S8x1x768 : 0 < S8x1x768.numel
  shapeCasts_S8x1x768_S8x768 : S8x1x768.ShapeCasts S8x768
  reduces_S8x768_S768 : S8x768.Reduces [0] S768
  inb_S1x768_S1x768_0_0 : ∀ a, (![0, 0] : Fin 2 → Nat) a + S1x768.size a ≤ S1x768.size a
  h_S1x768 : 0 < S1x768.numel
  hcc0_scratch1 : 2 + S8.numel ≤ 18
  hcc0_scratch2 : 10 + S8.numel ≤ 18
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_off1_inb : ∀ d0 : Dev nD, ∀ a, (k0_off1 d0) a + S1x1x768.size a ≤ S8x1x768.size a
  k0_off2_inb : ∀ d0 : Dev nD, ∀ (k0_h9 : k0_cond9 d0 = 1#1), ∀ a, (k0_off2 d0) a + S1.size a ≤ S8.size a
  k0_off3_inb : ∀ d0 : Dev nD, ∀ (k0_h9 : k0_cond9 d0 = 1#1), ∀ a, (k0_off3 d0) a + S1x1x768.size a ≤ S8x1x768.size a
  k0_dev9_lt : ∀ d0 : Dev nD, ∀ (k0_h9 : k0_cond9 d0 = 1#1), k0_dev9 < nD
  k0_off4_inb : ∀ d0 : Dev nD, ∀ (k0_h10 : k0_cond10 d0 = 1#1), ∀ a, (k0_off4 d0) a + S1.size a ≤ S8.size a
  k0_off5_inb : ∀ d0 : Dev nD, ∀ (k0_h10 : k0_cond10 d0 = 1#1), ∀ a, (k0_off5 d0) a + S1x1x768.size a ≤ S8x1x768.size a
  k0_dev10_lt : ∀ d0 : Dev nD, ∀ (k0_h10 : k0_cond10 d0 = 1#1), k0_dev10 < nD
  k0_off6_inb : ∀ d0 : Dev nD, ∀ (k0_h11 : k0_cond11 d0 = 1#1), ∀ a, (k0_off6 d0) a + S1.size a ≤ S8.size a
  k0_off7_inb : ∀ d0 : Dev nD, ∀ (k0_h11 : k0_cond11 d0 = 1#1), ∀ a, (k0_off7 d0) a + S1x1x768.size a ≤ S8x1x768.size a
  k0_dev11_lt : ∀ d0 : Dev nD, ∀ (k0_h11 : k0_cond11 d0 = 1#1), k0_dev11 < nD
  k0_off8_inb : ∀ d0 : Dev nD, ∀ (k0_h12 : k0_cond12 d0 = 1#1), ∀ a, (k0_off8 d0) a + S1.size a ≤ S8.size a
  k0_off9_inb : ∀ d0 : Dev nD, ∀ (k0_h12 : k0_cond12 d0 = 1#1), ∀ a, (k0_off9 d0) a + S1x1x768.size a ≤ S8x1x768.size a
  k0_dev12_lt : ∀ d0 : Dev nD, ∀ (k0_h12 : k0_cond12 d0 = 1#1), k0_dev12 < nD
  k0_off10_inb : ∀ d0 : Dev nD, ∀ (k0_h13 : k0_cond13 d0 = 1#1), ∀ a, (k0_off10 d0) a + S1.size a ≤ S8.size a
  k0_off11_inb : ∀ d0 : Dev nD, ∀ (k0_h13 : k0_cond13 d0 = 1#1), ∀ a, (k0_off11 d0) a + S1x1x768.size a ≤ S8x1x768.size a
  k0_dev13_lt : ∀ d0 : Dev nD, ∀ (k0_h13 : k0_cond13 d0 = 1#1), k0_dev13 < nD
  k0_off12_inb : ∀ d0 : Dev nD, ∀ (k0_h14 : k0_cond14 d0 = 1#1), ∀ a, (k0_off12 d0) a + S1.size a ≤ S8.size a
  k0_off13_inb : ∀ d0 : Dev nD, ∀ (k0_h14 : k0_cond14 d0 = 1#1), ∀ a, (k0_off13 d0) a + S1x1x768.size a ≤ S8x1x768.size a
  k0_dev14_lt : ∀ d0 : Dev nD, ∀ (k0_h14 : k0_cond14 d0 = 1#1), k0_dev14 < nD
  k0_off14_inb : ∀ d0 : Dev nD, ∀ (k0_h15 : k0_cond15 d0 = 1#1), ∀ a, (k0_off14 d0) a + S1.size a ≤ S8.size a
  k0_off15_inb : ∀ d0 : Dev nD, ∀ (k0_h15 : k0_cond15 d0 = 1#1), ∀ a, (k0_off15 d0) a + S1x1x768.size a ≤ S8x1x768.size a
  k0_dev15_lt : ∀ d0 : Dev nD, ∀ (k0_h15 : k0_cond15 d0 = 1#1), k0_dev15 < nD
  k0_off16_inb : ∀ d0 : Dev nD, ∀ (k0_h16 : k0_cond16 d0 = 1#1), ∀ a, (k0_off16 d0) a + S1.size a ≤ S8.size a
  k0_off17_inb : ∀ d0 : Dev nD, ∀ (k0_h16 : k0_cond16 d0 = 1#1), ∀ a, (k0_off17 d0) a + S1x1x768.size a ≤ S8x1x768.size a
  k0_dev16_lt : ∀ d0 : Dev nD, ∀ (k0_h16 : k0_cond16 d0 = 1#1), k0_dev16 < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S12288x768 : Shape := ⟨2, ![12288, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S_, .f32⟩
  | .hbm, ⟨2, _⟩ => ⟨S768, .f32⟩
  | .hbm, ⟨3, _⟩ => ⟨S1x768, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S12288x768_S768_d0 : S12288x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Spec.lean ====
/-
  What the all-devices sum computes, as pure functions of the devices' blocks.

  Every device reduces its own block of `x` over the rows (`part`), the eight partial sums are gathered in one
  buffer of eight rows, row `k` holding device `k`'s partial sum (`gath`), and every device reduces that buffer
  over its rows (`outv`): the sum of all the rows of all the blocks, the same on every device.
-/
import proofs.«901082_g7700000000001083_dist_sum_ax0_shard0_i_m1536_n768_v7x_i8_f32_1_alg».proof.Proof.Gen.KernelIdeal.Skeleton

noncomputable section

namespace Cert.KernelIdeal.AllSum

open Cert.KernelIdeal Cert.KernelIdeal.Gen
open Idealize.ShloMosaic

variable {F : FTy → Type} [FloatOps F]

/-- A device's partial sum: its block reduced over the rows, as a one-row piece of the gathered buffer. -/
def part (x : Vec F S1536x768 .f32) : FVec F S1x1x768 .f32 := k0_pay2 (k0_pay1 x)

/-- The row of the gathered buffer an index lies in. -/
def rowOf (i : S8x1x768.Idx) : Dev nD := ⟨(i 0).val, (i 0).isLt⟩

/-- An index of the gathered buffer, inside its row. -/
def inRow (i : S8x1x768.Idx) : S1x1x768.Idx := fun a =>
  match a with
  | ⟨0, _⟩ => ⟨0, (Nat.one_pos : 0 < 1)⟩
  | ⟨1, _⟩ => ⟨0, (Nat.one_pos : 0 < 1)⟩
  | ⟨2, _⟩ => ⟨(i 2).val, (i 2).isLt⟩

/-- The gathered buffer: row `k` holds device `k`'s partial sum. -/
def gath (xs : Dev nD → Vec F S1536x768 .f32) : Vec F S8x1x768 .f32 :=
  fun i => part (xs (rowOf i)) (inRow i)

/-- Every device's result: the gathered buffer reduced over its rows. -/
def outv (xs : Dev nD → Vec F S1536x768 .f32) : FVec F S1x768 .f32 := k0_pay3 (gath xs)

end Cert.KernelIdeal.AllSum

end
-- ==== Proof.Proto.lean ====
/-
  The exchange protocol of the all-devices sum, under the rounds discipline.

  Eight devices. Device `c` (1) signals the barrier semaphore of every other device, (2) stores its partial sum in
  row `c` of its gathered buffer, (3) waits for seven units on its own barrier semaphore, (4) copies its row `c`
  into row `c` of every other device's buffer, (5) for every other device `p` waits for `p`'s row to land and for
  its own copy to `p` to have been read out, (6) reduces the gathered buffer over its rows.

  The cells: a device's barrier cell has one duty per other device `d`, of one unit, paid by `d`'s signal, which
  hands over row `c` of `d`'s buffer (where `c` will write) and that `d`'s receive cell for `c` stands at round 0.
  Send cell `(c, p)` has one duty of the row's credit, paid when the copy to `p` has been read out of `c`'s row; it
  gives back the share of row `c` the copy read through. Receive cell `(c, p)` has one duty of the row's credit,
  paid when `p`'s copy has landed in row `p` of `c`'s buffer; it gives `c` that row, holding `p`'s partial sum.
-/
import proofs.«901082_g7700000000001083_dist_sum_ax0_shard0_i_m1536_n768_v7x_i8_f32_1_alg».proof.Proof.Spec
import proofs.«901082_g7700000000001083_dist_sum_ax0_shard0_i_m1536_n768_v7x_i8_f32_1_alg».proof.Proof.Gen.KernelIdeal
import proofs.«901082_g7700000000001083_dist_sum_ax0_shard0_i_m1536_n768_v7x_i8_f32_1_alg».proof.Proof.Gen.KernelIdeal.Skeleton
import proofs.«901082_g7700000000001083_dist_sum_ax0_shard0_i_m1536_n768_v7x_i8_f32_1_alg».proof.Proof.Gen.KernelIdeal.Launch
import proofs.«901082_g7700000000001083_dist_sum_ax0_shard0_i_m1536_n768_v7x_i8_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs and cells -/

abbrev xM : Memref sig .tc .vmem S1536x768 .f32 := Memref.whole cc0_stg0_0
abbrev oM : Memref sig .tc .vmem S1x768 .f32 := Memref.whole cc0_stg1_0
abbrev rM : Memref sig .tc .vmem S8x1x768 .f32 := Memref.whole cc0_scratch0

theorem row_inb (k : Dev nD) : ∀ a, (![k.val, 0, 0] : Fin 3 → Nat) a + S1x1x768.size a ≤ S8x1x768.size a := by
  intro a; have h : k.val < 8 := k.isLt
  fin_cases a
  · show k.val + 1 ≤ 8; omega
  · show 0 + 1 ≤ 1; omega
  · show 0 + 768 ≤ 768; omega

/-- Row `k` of the gathered buffer, as a rectangle of it, -/
abbrev rowR (k : Dev nD) : Rect S8x1x768 := Rect.unit (s := S8x1x768) ![k.val, 0, 0] S1x1x768.size (row_inb k)
/-- and as the one-row memref the copies move. -/
abbrev rowM (k : Dev nD) : Memref sig .tc .vmem S1x768 .f32 :=
  ((rM : Memref sig .tc .vmem S8x1x768 .f32).slice (rowR k) (fun _ => rfl)).squeeze S1x768 squeezes_S1x1x768_S1x768

abbrev barS : Sem sig := (SemArray.scalar (sig.barrier 0 rfl) : Sems sig S_).sem
/-- The send semaphore for the copy to device `j`, and the receive semaphore for the copy from device `j`. -/
def sendS (j : Dev nD) : DmaSem sig := ⟨2 + j.val, by have h : j.val < 8 := j.isLt; show 2 + j.val < 18; omega⟩
def recvS (j : Dev nD) : DmaSem sig := ⟨10 + j.val, by have h : j.val < 8 := j.isLt; show 10 + j.val < 18; omega⟩

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The row's credit: what a copy of one row adds to a DMA semaphore. -/
abbrev N : ℕ := 768

theorem sendS_inj {i j : Dev nD} (h : sendS i = sendS j) : i = j := by
  have := congrArg Fin.val h; simp only [sendS] at this; exact Fin.ext (by omega)
theorem recvS_inj {i j : Dev nD} (h : recvS i = recvS j) : i = j := by
  have := congrArg Fin.val h; simp only [recvS] at this; exact Fin.ext (by omega)
theorem sendS_ne_recvS (i j : Dev nD) : sendS i ≠ recvS j := by
  intro h; have := congrArg Fin.val h; simp only [sendS, recvS] at this; have := i.isLt; have h8 : i.val < 8 := i.isLt; omega

/-! ## Contents -/

/-- Device `c`'s block of `x`, as its staging buffer holds it. -/
def xstg (c : Dev nD) : (cc0_stg0_0 : Ref sig .tc).ty.Contents (Elt F) :=
  (win0_0.blk t0_0).view.read (Elt F) ((s₀ m ρ).mem ((c : Thread nD τ).loc main_arg0))

/-- The devices' blocks. -/
def xs : Dev nD → Vec F S1536x768 .f32 := fun k => xstg m ρ k

/-- The gathered buffer, as device `c`'s scratch contents: row `k` holds device `k`'s partial sum. -/
def gathered (c : Dev nD) : Buf (Elt F) ((c : Thread nD τ).loc cc0_scratch0) := gath (xs m ρ)

/-- Every device's result. -/
def outAt (c : Dev nD) : (cc0_stg1_0 : Ref sig .tc).ty.Contents (Elt F) := outv (xs m ρ)

/-- Row `k` of device `c`'s gathered buffer, held at share `q` with contents `f` (only `f`'s values on the row matter). -/
def rowPts (c k : Dev nD) (q : PosShare TreeShare) (f : Buf (Elt F) ((c : Thread nD τ).loc cc0_scratch0)) : sProp 𝕄 :=
  (rowM k).view.loc (c : Thread nD τ) ↦[(rowM k).view.set]{q} f
def xPts (c : Dev nD) : sProp 𝕄 :=
  (xM : Memref sig .tc .vmem S1536x768 .f32).view.loc (c : Thread nD τ) ↦[(xM : Memref sig .tc .vmem S1536x768 .f32).view.set]{fullShare} xstg m ρ c

omit [FloatOps F] in
instance rowPts_storable (c k : Dev nD) (q) (f) : BI.Storable (upEmb : UEmb _ 𝕄) (rowPts (F := F) c k q f) := by unfold rowPts; infer_instance

/-! ## Eight shares of one row: one per destination of the copies -/

def half (b : Bool) (q : PosShare TreeShare) : PosShare TreeShare := if b then q.right else q.left
/-- The share of its own row device `c`'s copy to device `j` reads through: by the three bits of `j`. -/
def sh (j : Dev nD) : PosShare TreeShare := half (j.val.testBit 0) (half (j.val.testBit 1) (half (j.val.testBit 2) fullShare))

/-! ## The schedule -/

/-- Which send semaphore a semaphore is, if any; which receive semaphore. -/
def sendOf : SemLoc sig → Option (Dev nD)
  | .dma s => if h : 2 ≤ s.val ∧ s.val < 10 then some ⟨s.val - 2, by show s.val - 2 < 8; omega⟩ else none
  | _ => none
def recvOf : SemLoc sig → Option (Dev nD)
  | .dma s => if h : 10 ≤ s.val then some ⟨s.val - 10, by have h18 : s.val < 18 := s.isLt; show s.val - 10 < 8; omega⟩ else none
  | _ => none

theorem sendS_val (j : Dev nD) : (sendS j).val = 2 + j.val := rfl
theorem recvS_val (j : Dev nD) : (recvS j).val = 10 + j.val := rfl
theorem sendOf_send (j : Dev nD) : sendOf (.dma (sendS j)) = some j := by
  have h8 : j.val < 8 := j.isLt
  simp only [sendOf]
  rw [dif_pos (by rw [sendS_val]; omega)]
  exact congrArg some (Fin.ext (by show (sendS j).val - 2 = j.val; rw [sendS_val]; omega))
theorem sendOf_recv (j : Dev nD) : sendOf (.dma (recvS j)) = none := by
  simp only [sendOf]
  rw [dif_neg (by rw [recvS_val]; omega)]
theorem recvOf_recv (j : Dev nD) : recvOf (.dma (recvS j)) = some j := by
  simp only [recvOf]
  rw [dif_pos (by rw [recvS_val]; omega)]
  exact congrArg some (Fin.ext (by show (recvS j).val - 10 = j.val; rw [recvS_val]; omega))
theorem recvOf_send (j : Dev nD) : recvOf (.dma (sendS j)) = none := by
  have h8 : j.val < 8 := j.isLt
  simp only [recvOf]
  rw [dif_neg (by rw [sendS_val]; omega)]

/-- What device `d`'s signal hands device `c`: row `c` of `d`'s buffer, and that `d`'s receive cell for `c` is at round 0. -/
def barPay (c d : Dev nD) : sProp 𝕄 := iprop((∃ f, rowPts d c fullShare f) ∗ reached ER (recvCell d c) 0)
/-- What the copy to `j`, read out, gives back: the share of the own row it read through. -/
def sendPay (c j : Dev nD) : sProp 𝕄 := rowPts c c (sh j) (gathered m ρ c)
/-- What `j`'s copy, landed, gives: row `j`, holding `j`'s partial sum. -/
def recvPay (c j : Dev nD) : sProp 𝕄 := rowPts c j fullShare (gathered m ρ c)

/-- One round, round 0. -/
def rd : Rounds.Schedule (GSem nD τ sig) (Dev nD) 𝕄 where
  duties g r :=
    if r = 0 ∧ g.1.2 = .tc then
      (if g.2 = .reg barS then Finset.univ.erase g.1.1
       else match sendOf g.2 with
        | some j => if j = g.1.1 then ∅ else {0}
        | none => match recvOf g.2 with
          | some j => if j = g.1.1 then ∅ else {0}
          | none => ∅)
    else ∅
  unitless _ := False
  amount g _ _ := if g.2 = .reg barS then 1 else N
  payload g _ d :=
    if g.2 = .reg barS then barPay g.1.1 d
    else match sendOf g.2 with
      | some j => sendPay m ρ g.1.1 j
      | none => match recvOf g.2 with
        | some j => recvPay m ρ g.1.1 j
        | none => iprop(emp)
  amount_pos g _ _ _ := by
    by_cases h : g.2 = .reg barS
    · rw [if_pos h]; exact Nat.one_pos
    · rw [if_neg h]; decide

instance rd_payload_storable (g : GSem nD τ sig) (r : ℕ) (d : Dev nD) :
    BI.Storable (upEmb : UEmb _ 𝕄) ((rd (F := F) m ρ).payload g r d) := by
  show BI.Storable upEmb (if g.2 = .reg barS then barPay g.1.1 d
    else match sendOf g.2 with
      | some j => sendPay m ρ g.1.1 j
      | none => match recvOf g.2 with
        | some j => recvPay m ρ g.1.1 j
        | none => iprop(emp))
  unfold barPay sendPay recvPay
  (repeat' split) <;> infer_instance

section Sched
variable (c j : Dev nD)

theorem send_ne_bar : (SemLoc.dma (sendS j) : SemLoc sig) ≠ .reg barS := fun h => by cases h
theorem recv_ne_bar : (SemLoc.dma (recvS j) : SemLoc sig) ≠ .reg barS := fun h => by cases h

theorem duties_bar : (rd (F := F) m ρ).duties (barCell c) 0 = Finset.univ.erase c := by
  dsimp only [rd]; rw [if_pos ⟨rfl, rfl⟩, if_pos rfl]
theorem duties_send (h : j ≠ c) : (rd (F := F) m ρ).duties (sendCell c j) 0 = {0} := by
  dsimp only [rd]; rw [if_pos ⟨rfl, rfl⟩, if_neg (send_ne_bar j)]; simp only [sendOf_send]; exact if_neg h
theorem duties_send_self : (rd (F := F) m ρ).duties (sendCell c c) 0 = ∅ := by
  dsimp only [rd]; rw [if_pos ⟨rfl, rfl⟩, if_neg (send_ne_bar c)]; simp only [sendOf_send]; first | rfl | exact if_pos rfl
theorem duties_recv (h : j ≠ c) : (rd (F := F) m ρ).duties (recvCell c j) 0 = {0} := by
  dsimp only [rd]; rw [if_pos ⟨rfl, rfl⟩, if_neg (recv_ne_bar j)]; simp only [sendOf_recv, recvOf_recv]; exact if_neg h
theorem duties_recv_self : (rd (F := F) m ρ).duties (recvCell c c) 0 = ∅ := by
  dsimp only [rd]; rw [if_pos ⟨rfl, rfl⟩, if_neg (recv_ne_bar c)]; simp only [sendOf_recv, recvOf_recv]; first | rfl | exact if_pos rfl
theorem duties_later (g : GSem nD τ sig) : ∀ r, 1 ≤ r → (rd (F := F) m ρ).duties g r = ∅ :=
  fun r hr => by dsimp only [rd]; rw [if_neg fun h => by omega]

theorem amount_bar (d : Dev nD) : (rd (F := F) m ρ).amount (barCell c) 0 d = 1 := by dsimp only [rd]; exact if_pos rfl
theorem amount_send (d : Dev nD) : (rd (F := F) m ρ).amount (sendCell c j) 0 d = N := by dsimp only [rd]; exact if_neg (send_ne_bar j)
theorem amount_recv (d : Dev nD) : (rd (F := F) m ρ).amount (recvCell c j) 0 d = N := by dsimp only [rd]; exact if_neg (recv_ne_bar j)

theorem expect_bar : (rd (F := F) m ρ).expect (barCell c) 0 = 7 := by
  unfold Schedule.expect Schedule.amountOf
  rw [duties_bar, Finset.sum_congr rfl fun d _ => amount_bar m ρ c d, Finset.sum_const, Finset.card_erase_of_mem (Finset.mem_univ c),
    Finset.card_univ, Fintype.card_fin, smul_eq_mul]
  rfl
theorem expect_send (h : j ≠ c) : (rd (F := F) m ρ).expect (sendCell c j) 0 = N := by
  unfold Schedule.expect Schedule.amountOf; rw [duties_send m ρ c j h, Finset.sum_singleton, amount_send]
theorem expect_recv (h : j ≠ c) : (rd (F := F) m ρ).expect (recvCell c j) 0 = N := by
  unfold Schedule.expect Schedule.amountOf; rw [duties_recv m ρ c j h, Finset.sum_singleton, amount_recv]

theorem payload_bar (d : Dev nD) : (rd (F := F) m ρ).payload (barCell c) 0 d = barPay c d := by dsimp only [rd]; rw [if_pos rfl]
theorem payload_send (d : Dev nD) : (rd (F := F) m ρ).payload (sendCell c j) 0 d = sendPay m ρ c j := by
  dsimp only [rd]; rw [if_neg (send_ne_bar j)]; simp only [sendOf_send]
theorem payload_recv (d : Dev nD) : (rd (F := F) m ρ).payload (recvCell c j) 0 d = recvPay m ρ c j := by
  dsimp only [rd]; rw [if_neg (recv_ne_bar j)]; simp only [sendOf_recv, recvOf_recv]

/-- The whole of the barrier cell's round: every other device's payload. -/
theorem rest_bar : bigSep ((rd (F := F) m ρ).duties (barCell c) 0 \ ∅) (fun d => (rd (F := F) m ρ).payload (barCell c) 0 d)
    = bigSep (Finset.univ.erase c) (fun d => barPay (F := F) c d) := by
  rw [Finset.sdiff_empty, duties_bar]
  exact bigSep_congr fun d _ => payload_bar m ρ c d
theorem rest_send (h : j ≠ c) : bigSep ((rd (F := F) m ρ).duties (sendCell c j) 0 \ ∅) (fun d => (rd (F := F) m ρ).payload (sendCell c j) 0 d) = sendPay m ρ c j := by
  rw [Finset.sdiff_empty, duties_send m ρ c j h, bigSep_singleton, payload_send]
theorem rest_recv (h : j ≠ c) : bigSep ((rd (F := F) m ρ).duties (recvCell c j) 0 \ ∅) (fun d => (rd (F := F) m ρ).payload (recvCell c j) 0 d) = recvPay m ρ c j := by
  rw [Finset.sdiff_empty, duties_recv m ρ c j h, bigSep_singleton, payload_recv]

end Sched

/-! ## What each device owes at launch; the levels -/

section StepSum
variable {M : Type} [AddCommMonoid M]

/-- A sum over the other devices from position `n` on: what is still to do when the devices below `n` are done. -/
def stepSum (f : Dev nD → M) (c : Dev nD) (n : ℕ) : M := ∑ p : Dev nD, if p ≠ c ∧ n ≤ p.val then f p else 0

theorem stepSum_succ (f : Dev nD → M) (c p : Dev nD) :
    stepSum f c p.val = stepSum f c (p.val + 1) + (if p ≠ c then f p else 0) := by
  unfold stepSum
  rw [← Finset.add_sum_erase Finset.univ _ (Finset.mem_univ p),
    ← Finset.add_sum_erase Finset.univ (fun q => if q ≠ c ∧ p.val + 1 ≤ q.val then f q else 0) (Finset.mem_univ p)]
  have e : ∀ q ∈ Finset.univ.erase p, (if q ≠ c ∧ p.val ≤ q.val then f q else 0) = (if q ≠ c ∧ p.val + 1 ≤ q.val then f q else 0) := by
    intro q hq
    have hne : q.val ≠ p.val := fun h => (Finset.ne_of_mem_erase hq) (Fin.ext h)
    exact if_congr ⟨fun ⟨a, b⟩ => ⟨a, by omega⟩, fun ⟨a, b⟩ => ⟨a, by omega⟩⟩ rfl rfl
  rw [Finset.sum_congr rfl e, if_neg (fun h => by omega : ¬ (p ≠ c ∧ p.val + 1 ≤ p.val)), zero_add, add_comm]
  congr 1
  by_cases h : p ≠ c
  · rw [if_pos h, if_pos ⟨h, le_rfl⟩]
  · rw [if_neg h, if_neg (fun h' => h h'.1)]

theorem stepSum_step (f : Dev nD → M) {c p : Dev nD} (h : p ≠ c) : stepSum f c p.val = stepSum f c (p.val + 1) + f p := by
  rw [stepSum_succ, if_pos h]
theorem stepSum_skip (f : Dev nD → M) (c : Dev nD) : stepSum f c c.val = stepSum f c (c.val + 1) := by
  rw [stepSum_succ, if_neg (fun h => h rfl), add_zero]
theorem stepSum_end (f : Dev nD → M) (c : Dev nD) : stepSum f c 8 = 0 :=
  Finset.sum_eq_zero fun p _ => if_neg fun h => by have h8 : p.val < 8 := p.isLt; omega
theorem stepSum_zero (f : Dev nD → M) (c : Dev nD) : stepSum f c 0 = ∑ p ∈ Finset.univ.erase c, f p := by
  unfold stepSum
  rw [← Finset.sum_filter]
  refine Finset.sum_congr (Finset.ext fun p => ?_) fun _ _ => rfl
  simp only [Finset.mem_filter, Finset.mem_univ, true_and, Finset.mem_erase, Nat.zero_le, and_true]

end StepSum

/-- What device `c` still owes the others' barrier cells when its signals to the devices below `n` are out, -/
def Osig (c : Dev nD) (n : ℕ) : CellTallies nD τ sig Unit := stepSum (fun p => tallyAt (barCell p) () 1) c n
/-- and their receive cells for `c` when its copies to the devices below `n` are out. -/
def Orcv (c : Dev nD) (n : ℕ) : CellTallies nD τ sig Unit := stepSum (fun p => tallyAt (recvCell p c) () N) c n
/-- At launch: a unit to every other device's barrier cell, a row's credit to every other device's receive cell for `c`. -/
def O₀ (c : Dev nD) : CellTallies nD τ sig Unit := Orcv c 0 + Osig c 0

theorem Osig_pos {c : Dev nD} {n : ℕ} {g : GSem nD τ sig} {u : Unit} (h : 0 < Osig c n g u) : ∃ p, p ≠ c ∧ g = barCell p := by
  unfold Osig stepSum at h
  obtain ⟨p, -, hp⟩ := Pipeline.sum_pos_exists h
  by_cases hc : p ≠ c ∧ n ≤ p.val
  · rw [if_pos hc, tallyAt_apply] at hp
    by_cases hg : g = barCell p ∧ u = ()
    · exact ⟨p, hc.1, hg.1⟩
    · rw [if_neg hg] at hp; exact absurd hp (Nat.lt_irrefl 0)
  · rw [if_neg hc] at hp; exact absurd hp (Nat.lt_irrefl 0)
theorem Orcv_pos {c : Dev nD} {n : ℕ} {g : GSem nD τ sig} {u : Unit} (h : 0 < Orcv c n g u) : ∃ p, p ≠ c ∧ g = recvCell p c := by
  unfold Orcv stepSum at h
  obtain ⟨p, -, hp⟩ := Pipeline.sum_pos_exists h
  by_cases hc : p ≠ c ∧ n ≤ p.val
  · rw [if_pos hc, tallyAt_apply] at hp
    by_cases hg : g = recvCell p c ∧ u = ()
    · exact ⟨p, hc.1, hg.1⟩
    · rw [if_neg hg] at hp; exact absurd hp (Nat.lt_irrefl 0)
  · rw [if_neg hc] at hp; exact absurd hp (Nat.lt_irrefl 0)

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvOf g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c j : Dev nD) : lv (recvCell c j) () = 2 := by
  unfold lv; rw [if_neg (recv_ne_bar j), recvOf_recv]; rfl
theorem lv_send (c j : Dev nD) : lv (sendCell c j) () = 0 := by
  unfold lv; rw [if_neg (send_ne_bar j), recvOf_send]; rfl

/-- A wait on a cell at level 0 is allowed while the device owes barrier and receive cells only. -/
theorem mayWait_low (c : Dev nD) (sm : SemLoc sig) (hsm : lv ((c : Thread nD τ), sm) () = 0) (O : CellTallies nD τ sig Unit)
    (hO : ∀ g u, 0 < O g u → (∃ p, g = barCell p) ∨ (∃ p q, g = recvCell p q)) :
    (levAts L lv : sProp 𝕄) ⊢ MayWait (c : Thread nD τ) sm () O :=
  Pipeline.mayWait_of_levAts (by rw [L_tc]; exact Finset.mem_singleton_self _) fun g u hg => by
    rcases hO g u hg with ⟨p, rfl⟩ | ⟨p, q, rfl⟩
    · exact ⟨by rw [L_tc]; exact Finset.mem_singleton_self _, by rw [hsm, lv_bar]; decide⟩
    · exact ⟨by rw [L_tc]; exact Finset.mem_singleton_self _, by rw [hsm, lv_recv]; decide⟩

/-- At its barrier wait a device owes receive cells only: above its barrier cell. -/
theorem mayWait_bar (c : Dev nD) (n : ℕ) :
    (levAts L lv : sProp 𝕄) ⊢ MayWait (c : Thread nD τ) (.reg barS) () (Orcv c n) :=
  Pipeline.mayWait_of_levAts (by rw [L_tc]; exact Finset.mem_singleton_self _) fun g u hg => by
    obtain ⟨p, -, rfl⟩ := Orcv_pos hg
    exact ⟨by rw [L_tc]; exact Finset.mem_singleton_self _, by rw [lv_bar, lv_recv]; decide⟩

/-! ## The cells of one device, and the pipeline's proof data -/

/-- A device's cells: its barrier cell (`none`), its send cells (`false`) and its receive cells (`true`), one per device. -/
abbrev CK : Type := Option (Bool × Dev nD)
def csem : CK → SemLoc sig
  | none => .reg barS
  | some (false, j) => .dma (sendS j)
  | some (true, j) => .dma (recvS j)
abbrev kcell (ck : Dev nD × CK) : GSem nD τ sig := ((ck.1 : Thread nD τ), csem ck.2)
/-- The kernel's own (scoped) semaphores: the sixteen DMA semaphores of its two scratch arrays. -/
def osem : Bool × Dev nD → SemLoc sig := fun bj => csem (some bj)

/-- Every cell's invariant and that every cell stands at round 0: persistent, so every device holds them all. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

/-- The tokens of the three duties device `c` pays towards device `p`: `p`'s barrier duty `c`, `p`'s receive duty for
    `c`'s row, and its own send duty for the copy to `p`. -/
def payToks (c p : Dev nD) : sProp 𝕄 :=
  iprop(dutyTok ER (barCell p) 0 c ∗ dutyTok ER (recvCell p c) 0 0 ∗ dutyTok ER (sendCell c p) 0 0)
/-- What stays with device `c`: its positions in its seventeen cells, and the tokens of the duties it pays. -/
def linear (c : Dev nD) : sProp 𝕄 :=
  iprop((bigSep Finset.univ fun k : CK => atPos ER (kcell (c, k)) 0 ∅ 0) ∗ bigSep (Finset.univ.erase c) (payToks (F := F) c))
def ghost (K : Dev nD × CK → ℕ) (c : Dev nD) : sProp 𝕄 := iprop(records m ρ K ∗ linear c)

/-- What device `c`'s body starts from besides its buffers: the ghost state at some names, the credit tokens of its
    barrier cell (seven units) and of its receive cells (a row's credit each), and the level facts. -/
def start (c : Dev nD) : sProp 𝕄 :=
  iprop((∃ K, ghost m ρ K c) ∗ cred (tallyAt (barCell c) () 7)
    ∗ (bigSep (Finset.univ.erase c) fun p => cred (tallyAt (recvCell c p) () N)) ∗ levAts L lv)

def Φ₀ (c : Dev nD) : sProp 𝕄 := iprop(start m ρ c ∗ ∃ f, (((c : Thread nD τ).loc cc0_scratch0) ↦{fullShare} f))
/-- After the point: the gathered buffer, and the sixteen own cells closed, their counters at zero. -/
def Φ₁ (c : Dev nD) : sProp 𝕄 :=
  iprop((((c : Thread nD τ).loc cc0_scratch0) ↦{fullShare} gathered m ρ c)
    ∗ bigSep Finset.univ fun bj : Bool × Dev nD => semVal ((c : Thread nD τ), osem bj) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- info: 'Cert.KernelIdeal.Proto.rest_bar' depends on axioms: [propext, Classical.choice, Quot.sound] -/
#guard_msgs in #print axioms rest_bar

/-- info: 'Cert.KernelIdeal.Proto.rest_send' depends on axioms: [propext, Classical.choice, Quot.sound] -/
#guard_msgs in #print axioms rest_send

/-- info: 'Cert.KernelIdeal.Proto.rest_recv' depends on axioms: [propext, Classical.choice, Quot.sound] -/
#guard_msgs in #print axioms rest_recv

/-- info: 'Cert.KernelIdeal.Proto.mayWait_low' depends on axioms: [propext, Classical.choice, Quot.sound] -/
#guard_msgs in #print axioms mayWait_low

/-- info: 'Cert.KernelIdeal.Proto.mayWait_bar' depends on axioms: [propext, Classical.choice, Quot.sound] -/
#guard_msgs in #print axioms mayWait_bar

/-- info: 'Cert.KernelIdeal.Proto.stepSum_succ' depends on axioms: [propext, Classical.choice, Quot.sound] -/
#guard_msgs in #print axioms stepSum_succ

end Cert.KernelIdeal.Proto

end
-- ==== Proof.BodyDefs.lean ====
/-
  One device's body in three stretches: what holds between them.

  The body is run in three stretches: the signals and the load of the block; the store of the partial sum, the
  barrier wait and the copies; the waits, the load of the gathered buffer and the store of the result.
-/
import proofs.«901082_g7700000000001083_dist_sum_ax0_shard0_i_m1536_n768_v7x_i8_f32_1_alg».proof.Proof.Proto

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The device's position on the mesh axis, as the word the kernel computes. -/
abbrev posWord (c : Dev nD) : BitVec 32 := Scalar.remsi (Scalar.divsi (Dev.word c) 1#32) 8#32
/-- The barrier semaphore, as the kernel names it. -/
abbrev barSems : Sems sig S_ := SemArray.scalar (sig.barrier 0 rfl)

/-- Before the first stretch: the positions in the seventeen cells, the tokens of the duties the device pays, the
    credit tokens of its barrier cell and its receive cells, its whole gathered buffer at any contents, what it owes,
    its block of `x` staged, the result's staging buffer at any contents. -/
def pre1 (c : Dev nD) : sProp 𝕄 :=
  iprop((bigSep Finset.univ fun k : CK => atPos ER (kcell (c, k)) 0 ∅ 0)
    ∗ bigSep (Finset.univ.erase c) (payToks (F := F) c)
    ∗ cred (tallyAt (barCell c) () 7)
    ∗ (bigSep (Finset.univ.erase c) fun p => cred (tallyAt (recvCell c p) () N))
    ∗ (∃ f, (((c : Thread nD τ).loc cc0_scratch0) ↦{fullShare} f))
    ∗ (∃ W, owes (c : Thread nD τ) (O₀ c) W)
    ∗ stg c cc0_stg0_0 (xstg m ρ c)
    ∗ (∃ g, stg c cc0_stg1_0 g))

/-- After the signals and the load: the other rows of the buffer have gone with the signals, the barrier duties'
    tokens are spent, the device owes the receive cells only. -/
def mid1 (c : Dev nD) : sProp 𝕄 :=
  iprop((bigSep Finset.univ fun k : CK => atPos ER (kcell (c, k)) 0 ∅ 0)
    ∗ (bigSep (Finset.univ.erase c) fun p => iprop(dutyTok ER (recvCell p c) 0 0 ∗ dutyTok ER (sendCell c p) 0 0))
    ∗ cred (tallyAt (barCell c) () 7)
    ∗ (bigSep (Finset.univ.erase c) fun p => cred (tallyAt (recvCell c p) () N))
    ∗ (∃ f, rowPts c c fullShare f)
    ∗ (∃ W, owes (c : Thread nD τ) (Orcv c 0) W)
    ∗ stg c cc0_stg0_0 (xstg m ρ c)
    ∗ (∃ g, stg c cc0_stg1_0 g))

/-- After the copies are out: per other device the credit tokens of the send and the receive cell; of its own row,
    holding its partial sum, the one share no copy reads through; nothing owed. -/
def mid2 (c : Dev nD) : sProp 𝕄 :=
  iprop((bigSep Finset.univ fun bj : Bool × Dev nD => atPos ER (kcell (c, some bj)) 0 ∅ 0)
    ∗ (bigSep (Finset.univ.erase c) fun p => iprop(cred (tallyAt (sendCell c p) () N) ∗ cred (tallyAt (recvCell c p) () N)))
    ∗ rowPts c c (sh c) (gathered m ρ c)
    ∗ (∃ W, owes (c : Thread nD τ) 0 W)
    ∗ stg c cc0_stg0_0 (xstg m ρ c)
    ∗ (∃ g, stg c cc0_stg1_0 g))

/-- After the last stretch: the gathered buffer whole, the sixteen own cells closed, the result staged. -/
def post3 (c : Dev nD) : sProp 𝕄 :=
  iprop(Φ₁ m ρ c ∗ (∃ W, owes (c : Thread nD τ) 0 W) ∗ stg c cc0_stg0_0 (xstg m ρ c) ∗ stg c cc0_stg1_0 (outAt m ρ c))

end Cert.KernelIdeal.Proto

end
-- ==== Proof.Rows.lean ====
/-
  The gathered buffer as eight rows, and a row as eight shares.
-/
import proofs.«901082_g7700000000001083_dist_sum_ax0_shard0_i_m1536_n768_v7x_i8_f32_1_alg».proof.Proof.BodyDefs

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An element of the buffer lies in row `k` exactly when its first coordinate is `k`. -/
theorem mem_row (k : Dev nD) (i : S8x1x768.Idx) :
    Iff (i ∈ ((rowM k).view.set : Finset S8x1x768.Idx)) ((i 0).val = k.val) := by
  have e : ((rowM k).view.set : Finset S8x1x768.Idx) = (rowR k).set := by
    show (((View.whole cc0_scratch0 : View sig .tc .vmem _ _).slice (rowR k)).reshape S1x768 _).set = _
    rw [View.set_reshape, View.set_slice_whole]
  rw [e, Rect.mem_set_unit]
  constructor
  · intro h; have h0 := h 0; simp at h0; omega
  · intro h a
    fin_cases a
    · simp; omega
    · have h1 := (i 1).isLt; simp at h1 ⊢; omega
    · have h2 := (i 2).isLt; simp at h2 ⊢; omega

/-- A points-to on a union of pairwise disjoint element sets is the points-tos on the sets. -/
theorem pointsTo_biUnion {α : Type} [DecidableEq α] {ℓ : Loc nD τ sig} (S : Finset α) (I : α → Finset (Idx ℓ))
    (hd : ∀ a ∈ S, ∀ b ∈ S, a ≠ b → Disjoint (I a) (I b)) (q : PosShare TreeShare) (f : Buf (Elt F) ℓ) :
    (ℓ ↦[S.biUnion I]{q} f : sProp 𝕄) ⊣⊢ bigSep S (fun a => (ℓ ↦[I a]{q} f : sProp 𝕄)) := by
  induction S using Finset.induction_on with
  | empty => rw [Finset.biUnion_empty, pointsTo_empty, bigSep_empty]; exact ⟨Entails.refl _, Entails.refl _⟩
  | insert a s ha ih =>
    rw [Finset.biUnion_insert, bigSep_insert ha]
    have hd' : Disjoint (I a) (s.biUnion I) := by
      rw [Finset.disjoint_biUnion_right]
      intro b hb
      exact hd a (Finset.mem_insert_self a s) b (Finset.mem_insert_of_mem hb) (fun h => ha (h ▸ hb))
    have ih' := ih fun x hx y hy => hd x (Finset.mem_insert_of_mem hx) y (Finset.mem_insert_of_mem hy)
    exact ⟨(pointsTo_union hd').1.trans (BI.sep_mono (Entails.refl _) ih'.1), (BI.sep_mono (Entails.refl _) ih'.2).trans (pointsTo_union hd').2⟩

theorem row_disjoint {k k' : Dev nD} (h : k ≠ k') :
    Disjoint ((rowM k).view.set : Finset S8x1x768.Idx) ((rowM k').view.set : Finset S8x1x768.Idx) := by
  rw [Finset.disjoint_left]; intro i hi hi'
  rw [mem_row] at hi hi'; exact h (Fin.ext (hi.symm.trans hi'))

theorem rows_cover : (Finset.univ : Finset (Dev nD)).biUnion (fun k : Dev nD => (show Finset S8x1x768.Idx from (rowM k).view.set)) = Finset.univ := by
  ext i; simp only [Finset.mem_biUnion, Finset.mem_univ, true_and, iff_true]
  exact ⟨⟨(i 0).val, (i 0).isLt⟩, (mem_row _ i).mpr rfl⟩

/-- The whole gathered buffer is its eight rows. -/
theorem rows_split (c : Dev nD) (q : PosShare TreeShare) (f : Buf (Elt F) ((c : Thread nD τ).loc cc0_scratch0)) :
    ((((c : Thread nD τ).loc cc0_scratch0) ↦{q} f) : sProp 𝕄) ⊣⊢ bigSep Finset.univ (fun k : Dev nD => rowPts c k q f) := by
  have h := pointsTo_biUnion (F := F) (ℓ := (c : Thread nD τ).loc cc0_scratch0) (Finset.univ : Finset (Dev nD))
    (fun k : Dev nD => (show Finset S8x1x768.Idx from (rowM k).view.set)) (fun a _ b _ hab => row_disjoint hab) q f
  rw [rows_cover] at h
  exact h

theorem sh_0 : sh 0 = fullShare.left.left.left := rfl
theorem sh_1 : sh 1 = fullShare.left.left.right := rfl
theorem sh_2 : sh 2 = fullShare.left.right.left := rfl
theorem sh_3 : sh 3 = fullShare.left.right.right := rfl
theorem sh_4 : sh 4 = fullShare.right.left.left := rfl
theorem sh_5 : sh 5 = fullShare.right.left.right := rfl
theorem sh_6 : sh 6 = fullShare.right.right.left := rfl
theorem sh_7 : sh 7 = fullShare.right.right.right := rfl

/-- A points-to at the full share is eight points-tos at the shares three halvings down. -/
theorem pointsTo_shares_chain {ℓ : Loc nD τ sig} (I : Finset (Idx ℓ)) (f : Buf (Elt F) ℓ) :
    (ℓ ↦[I]{fullShare} f : sProp 𝕄) ⊣⊢ iprop((ℓ ↦[I]{fullShare.left.left.left} f) ∗ (ℓ ↦[I]{fullShare.left.left.right} f)
      ∗ (ℓ ↦[I]{fullShare.left.right.left} f) ∗ (ℓ ↦[I]{fullShare.left.right.right} f)
      ∗ (ℓ ↦[I]{fullShare.right.left.left} f) ∗ (ℓ ↦[I]{fullShare.right.left.right} f)
      ∗ (ℓ ↦[I]{fullShare.right.right.left} f) ∗ (ℓ ↦[I]{fullShare.right.right.right} f)) := by
  have s : ∀ q : PosShare TreeShare, (ℓ ↦[I]{q} f : sProp 𝕄) ⊣⊢ iprop((ℓ ↦[I]{q.left} f) ∗ ℓ ↦[I]{q.right} f) :=
    fun q => pointsTo_share (PosShare.mem_left_op_right q)
  have tree : (ℓ ↦[I]{fullShare} f : sProp 𝕄) ⊣⊢ iprop((((ℓ ↦[I]{fullShare.left.left.left} f) ∗ (ℓ ↦[I]{fullShare.left.left.right} f))
      ∗ ((ℓ ↦[I]{fullShare.left.right.left} f) ∗ (ℓ ↦[I]{fullShare.left.right.right} f)))
      ∗ (((ℓ ↦[I]{fullShare.right.left.left} f) ∗ (ℓ ↦[I]{fullShare.right.left.right} f))
      ∗ ((ℓ ↦[I]{fullShare.right.right.left} f) ∗ (ℓ ↦[I]{fullShare.right.right.right} f)))) :=
    ⟨(s fullShare).1.trans (BI.sep_mono ((s fullShare.left).1.trans (BI.sep_mono (s fullShare.left.left).1 (s fullShare.left.right).1))
        ((s fullShare.right).1.trans (BI.sep_mono (s fullShare.right.left).1 (s fullShare.right.right).1))),
     (BI.sep_mono ((BI.sep_mono (s fullShare.left.left).2 (s fullShare.left.right).2).trans (s fullShare.left).2)
        ((BI.sep_mono (s fullShare.right.left).2 (s fullShare.right.right).2).trans (s fullShare.right).2)).trans (s fullShare).2⟩
  constructor
  · refine tree.1.trans ?_
    iintro ⟨⟨⟨H0, H1⟩, ⟨H2, H3⟩⟩, ⟨⟨H4, H5⟩, ⟨H6, H7⟩⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h : (iprop((ℓ ↦[I]{fullShare.left.left.left} f) ∗ (ℓ ↦[I]{fullShare.left.left.right} f) ∗ (ℓ ↦[I]{fullShare.left.right.left} f) ∗ (ℓ ↦[I]{fullShare.left.right.right} f) ∗ (ℓ ↦[I]{fullShare.right.left.left} f) ∗ (ℓ ↦[I]{fullShare.right.left.right} f) ∗ (ℓ ↦[I]{fullShare.right.right.left} f) ∗ (ℓ ↦[I]{fullShare.right.right.right} f)) : sProp 𝕄) ⊢ iprop((((ℓ ↦[I]{fullShare.left.left.left} f) ∗ (ℓ ↦[I]{fullShare.left.left.right} f)) ∗ ((ℓ ↦[I]{fullShare.left.right.left} f) ∗ (ℓ ↦[I]{fullShare.left.right.right} f))) ∗ (((ℓ ↦[I]{fullShare.right.left.left} f) ∗ (ℓ ↦[I]{fullShare.right.left.right} f)) ∗ ((ℓ ↦[I]{fullShare.right.right.left} f) ∗ (ℓ ↦[I]{fullShare.right.right.right} f)))) := by
      iintro ⟨H0, H1, H2, H3, H4, H5, H6, H7⟩
      isplitl [H0 H1 H2 H3]
      · isplitl [H0 H1]
        · isplitl [H0] <;> iassumption
        · isplitl [H2] <;> iassumption
      · isplitl [H4 H5]
        · isplitl [H4] <;> iassumption
        · isplitl [H6] <;> iassumption
    exact h.trans tree.2

/-- A points-to at the full share is its eight shares `sh j`. -/
theorem pointsTo_shares {ℓ : Loc nD τ sig} (I : Finset (Idx ℓ)) (f : Buf (Elt F) ℓ) :
    (ℓ ↦[I]{fullShare} f : sProp 𝕄) ⊣⊢ bigSep Finset.univ (fun j : Dev nD => (ℓ ↦[I]{sh j} f : sProp 𝕄)) := by
  rw [bigSep_univ_eq_bigSepL [(0 : Dev nD), 1, 2, 3, 4, 5, 6, 7] (by decide) (by decide)]
  simp only [bigSepL_cons_cons, bigSepL_singleton, sh_0, sh_1, sh_2, sh_3, sh_4, sh_5, sh_6, sh_7]
  exact pointsTo_shares_chain I f

/-- A row at the full share is its eight shares. -/
theorem row_shares (c k : Dev nD) (f : Buf (Elt F) ((c : Thread nD τ).loc cc0_scratch0)) :
    (rowPts c k fullShare f : sProp 𝕄) ⊣⊢ bigSep Finset.univ (fun j : Dev nD => rowPts c k (sh j) f) :=
  pointsTo_shares _ f

/-- Only the contents on the row matter. -/
theorem rowPts_congr (c k : Dev nD) (q : PosShare TreeShare) {f g : Buf (Elt F) ((c : Thread nD τ).loc cc0_scratch0)}
    (h : ∀ i : S8x1x768.Idx, (i 0).val = k.val → f i = g i) : (rowPts c k q f : sProp 𝕄) = rowPts c k q g := by
  unfold rowPts
  exact pointsTo_congr fun i hi => h i ((mem_row k i).mp hi)

/-- info: 'Cert.KernelIdeal.Proto.rows_split' depends on axioms: [propext, Classical.choice, Quot.sound] -/
#guard_msgs in #print axioms rows_split

/-- info: 'Cert.KernelIdeal.Proto.row_shares' depends on axioms: [propext, Classical.choice, Quot.sound] -/
#guard_msgs in #print axioms row_shares

/-- info: 'Cert.KernelIdeal.Proto.rowPts_congr' depends on axioms: [propext, Classical.choice, Quot.sound] -/
#guard_msgs in #print axioms rowPts_congr

end Cert.KernelIdeal.Proto

end
-- ==== Proof.Part1.lean ====
/-
  The first stretch of a device's body: the signals to the other devices, and the load of its block.

  The device's whole gathered buffer is cut into its eight rows. Its own row stays; row `p` goes to device `p` as the
  payload of the signal to `p`'s barrier cell. The eight signal blocks are one lemma at a symbolic peer: the state
  between two blocks says how far the signals have got, and a block either sends the signal (another device) or
  does nothing (the device itself). The load reads the staged block.
-/
import proofs.«901082_g7700000000001083_dist_sum_ax0_shard0_i_m1536_n768_v7x_i8_f32_1_alg».proof.Proof.BodyDefs
import proofs.«901082_g7700000000001083_dist_sum_ax0_shard0_i_m1536_n768_v7x_i8_f32_1_alg».proof.Proof.Rows

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state between two signal blocks -/

/-- What device `c` holds towards device `p` while its signal to `p` is still to come: the three tokens, and row `p` of its buffer. -/
def p1_unsent (c p : Dev nD) : sProp 𝕄 := iprop(payToks (F := F) c p ∗ ∃ f, rowPts c p fullShare f)
/-- and once the signal is out: the two tokens the copies will pay with. -/
def p1_sent (c p : Dev nD) : sProp 𝕄 := iprop(dutyTok ER (recvCell p c) 0 0 ∗ dutyTok ER (sendCell c p) 0 0)

/-- The per-device resources when the signals to the devices below `n` are out. -/
def p1_res (c : Dev nD) (n : ℕ) : sProp 𝕄 :=
  bigSep Finset.univ fun p : Dev nD => if p = c then iprop(emp) else if n ≤ p.val then p1_unsent (F := F) c p else p1_sent (F := F) c p

/-- The state when the signals to the devices below `n` are out: what is owed, and the per-device resources. -/
def p1_st (c : Dev nD) (n : ℕ) (W : Waits sig Unit) : sProp 𝕄 :=
  iprop(owes (c : Thread nD τ) (Orcv c 0 + Osig c n) W ∗ p1_res (F := F) c n)

theorem p1_records_inv (m : (ℓ : Loc nD τ sig) → Buf (Elt F) ℓ) (ρ : Dev nD → PrngReg) (K : Dev nD × CK → ℕ) (ck : Dev nD × CK) : records m ρ K ⊢ cellInv ER (rd m ρ) (K ck) (kcell ck) := by
  unfold records
  iintro ⟨#H1, #H2⟩
  iapply (show (bigSep Finset.univ fun ck : Dev nD × CK => cellInv ER (rd m ρ) (K ck) (kcell ck)) ⊢ cellInv ER (rd m ρ) (K ck) (kcell ck) from
    bigSep_elim (Finset.mem_univ ck)) $$ H1

theorem p1_records_reached (m : (ℓ : Loc nD τ sig) → Buf (Elt F) ℓ) (ρ : Dev nD → PrngReg) (K : Dev nD × CK → ℕ) (ck : Dev nD × CK) : records m ρ K ⊢ reached ER (kcell ck) 0 := by
  unfold records
  iintro ⟨#H1, #H2⟩
  iapply (show (bigSep Finset.univ fun ck : Dev nD × CK => (reached ER (kcell ck) 0 : sProp 𝕄)) ⊢ reached ER (kcell ck) 0 from
    bigSep_elim (Finset.mem_univ ck)) $$ H2

/-- One step of the per-device resources: only device `p`'s component changes between `p.val` and `p.val + 1`. -/
theorem p1_res_step (c p : Dev nD) (hpc : p ≠ c) :
    p1_res (F := F) c p.val = iprop(p1_unsent (F := F) c p ∗ bigSep (Finset.univ.erase p) fun q : Dev nD => if q = c then iprop(emp) else if p.val + 1 ≤ q.val then p1_unsent (F := F) c q else p1_sent (F := F) c q) := by
  unfold p1_res
  rw [bigSep_univ_at _ p, if_neg hpc, if_pos le_rfl]
  congr 1
  refine bigSep_congr fun q hq => ?_
  have hne : q.val ≠ p.val := fun h => (Finset.ne_of_mem_erase hq) (Fin.ext h)
  by_cases hqc : q = c
  · rw [if_pos hqc, if_pos hqc]
  · rw [if_neg hqc, if_neg hqc]
    exact if_congr ⟨fun a => by omega, fun a => by omega⟩ rfl rfl

theorem p1_res_step_succ (c p : Dev nD) (hpc : p ≠ c) :
    p1_res (F := F) c (p.val + 1) = iprop(p1_sent (F := F) c p ∗ bigSep (Finset.univ.erase p) fun q : Dev nD => if q = c then iprop(emp) else if p.val + 1 ≤ q.val then p1_unsent (F := F) c q else p1_sent (F := F) c q) := by
  unfold p1_res
  rw [bigSep_univ_at _ p, if_neg hpc, if_neg (by omega)]

theorem p1_res_skip (c : Dev nD) : p1_res (F := F) c c.val = p1_res (F := F) c (c.val + 1) := by
  unfold p1_res
  refine bigSep_congr fun q _ => ?_
  by_cases hqc : q = c
  · rw [if_pos hqc, if_pos hqc]
  · rw [if_neg hqc, if_neg hqc]
    have hne : q.val ≠ c.val := fun h => hqc (Fin.ext h)
    exact if_congr ⟨fun a => by omega, fun a => by omega⟩ rfl rfl

theorem p1_res_zero (c : Dev nD) : p1_res (F := F) c 0 = bigSep (Finset.univ.erase c) (p1_unsent (F := F) c) := by
  unfold p1_res
  rw [bigSep_univ_at _ c, if_pos rfl,
    bigSep_congr (s := Finset.univ.erase c) (Ψ := p1_unsent (F := F) c) fun q hq => by
      rw [if_neg (Finset.ne_of_mem_erase hq), if_pos (Nat.zero_le _)]]
  exact equiv_iff.mp emp_sep

theorem p1_res_eight (c : Dev nD) : p1_res (F := F) c 8 = bigSep (Finset.univ.erase c) (p1_sent (F := F) c) := by
  unfold p1_res
  rw [bigSep_univ_at _ c, if_pos rfl,
    bigSep_congr (s := Finset.univ.erase c) (Ψ := p1_sent (F := F) c) fun q hq => by
      have h8 : q.val < 8 := q.isLt
      rw [if_neg (Finset.ne_of_mem_erase hq), if_neg (by omega)]]
  exact equiv_iff.mp emp_sep

/-- At the start: what is owed at launch, the tokens of all duties, and the buffer cut into rows. -/
theorem p1_start (c : Dev nD) (W : Waits sig Unit) (f : Buf (Elt F) ((c : Thread nD τ).loc cc0_scratch0)) :
    iprop(owes (c : Thread nD τ) (O₀ c) W ∗ bigSep (Finset.univ.erase c) (payToks (F := F) c)
        ∗ ((((c : Thread nD τ).loc cc0_scratch0) ↦{fullShare} f) : sProp 𝕄))
      ⊢ iprop(p1_st (F := F) c 0 W ∗ ∃ f, rowPts c c fullShare f) := by
  unfold p1_st
  rw [p1_res_zero]
  unfold p1_unsent
  rw [bigSep_sep']
  refine (sep_mono_right (sep_mono_right ((rows_split c fullShare f).1.trans
    ((Entails.of_eq (bigSep_univ_at (fun k : Dev nD => rowPts c k fullShare f) c)).trans
      (BIClass.sep_mono (exists_intro (Φ := fun f => rowPts (F := F) c c fullShare f) f)
        (bigSep_mono (Ψ := fun k : Dev nD => iprop(∃ f, rowPts (F := F) c k fullShare f))
          fun k _ => exists_intro (Φ := fun f => rowPts (F := F) c k fullShare f) f)))))).trans ?_
  iintro ⟨HO, Htoks, Hc, Hrows⟩
  isplitr [Hc]
  · isplitl [HO]; · iexact HO
    isplitl [Htoks]; · iexact Htoks
    iexact Hrows
  · iexact Hc

/-- At the end: the barrier cells are paid, the tokens for the copies remain. -/
theorem p1_end (c : Dev nD) (W : Waits sig Unit) :
    p1_st (F := F) c 8 W
      ⊢ iprop(owes (c : Thread nD τ) (Orcv c 0) W
        ∗ bigSep (Finset.univ.erase c) fun p => iprop(dutyTok ER (recvCell p c) 0 0 ∗ dutyTok ER (sendCell c p) 0 0)) := by
  unfold p1_st
  rw [p1_res_eight, Osig, stepSum_end, add_zero]
  exact .rfl

/-- The barrier cell's payload, spelt out. -/
theorem p1_payload_bar (m : (ℓ : Loc nD τ sig) → Buf (Elt F) ℓ) (ρ : Dev nD → PrngReg) (c d : Dev nD) : (rd (F := F) m ρ).payload (barCell c) 0 d
    = iprop((∃ f, ((rowM c).view.loc (d : Thread nD τ) ↦[(rowM c).view.set]{fullShare} f : sProp 𝕄)) ∗ reached ER (recvCell d c) 0) := payload_bar m ρ c d

attribute [local sl_rounds] duties_bar amount_bar p1_payload_bar

/-- One signal block: if `p` is another device the signal to it goes out, paying `p`'s barrier duty with row `p` of the
    buffer; if `p` is the device itself nothing happens. Either way the state moves from position `n` to `n + 1`. -/
theorem p1_block (m : (ℓ : Loc nD τ sig) → Buf (Elt F) ℓ) (ρ : Dev nD → PrngReg) (K : Dev nD × CK → ℕ) (c p : Dev nD) (n : ℕ) (hn : p.val = n) (cond : BitVec 1) (hcond : cond = 1#1 ↔ p ≠ c)
    (dev : ℕ) (hdev : dev = p.val) (hlt : cond = 1#1 → dev < nD) (W : Waits sig Unit) {α : Type}
    (k : Unit → Prog (TpuEff nD τ sig (Elt F) Λ₀ .tc) α) (Ψ : α → sProp 𝕄) :
    iprop(records m ρ K ∗ p1_st (F := F) c n W)
      ⊢ iprop((p1_st (F := F) c (n + 1) W -∗ wp frame (wpE (defs₀ (F := F)) 𝒱₀ c none) Set.univ (k PUnit.unit) Ψ)
          -∗ wp frame (wpE (defs₀ (F := F)) 𝒱₀ c none) Set.univ
              (if h : cond = 1#1 then (do semSignalWord (⟨dev, hlt h⟩ : Dev nD) barS 1#32 hamt_1; k PUnit.unit) else k PUnit.unit) Ψ) := by
  subst hdev
  subst hn
  unfold p1_st
  by_cases h : cond = 1#1
  · have hpc : p ≠ c := hcond.mp h
    have hmem : c ∈ (Finset.univ : Finset (Dev nD)).erase p := Finset.mem_erase.mpr ⟨hpc.symm, Finset.mem_univ _⟩
    have hO : Orcv c 0 + Osig c p.val = Orcv c 0 + Osig c (p.val + 1) + tallyAt (barCell p) () 1 := by
      show Orcv c 0 + stepSum (fun p => tallyAt (barCell p) () 1) c p.val = Orcv c 0 + stepSum (fun p => tallyAt (barCell p) () 1) c (p.val + 1) + _
      rw [stepSum_step _ hpc, add_assoc]
    rw [dif_pos h, p1_res_step c p hpc, p1_res_step_succ c p hpc, hO]
    unfold p1_unsent p1_sent payToks rowPts
    iintro ⟨#HK, HO, ⟨⟨Htb, Htr, Hts⟩, Hrow⟩, HB⟩ Hk
    ihave #HI := (show records m ρ K ⊢ cellInv ER (rd m ρ) (K (p, none)) (barCell p) from p1_records_inv m ρ K (p, none)) $$ HK
    ihave #Hrp := (show records m ρ K ⊢ reached ER (barCell p) 0 from p1_records_reached m ρ K (p, none)) $$ HK
    ihave #Hrc := (show records m ρ K ⊢ reached ER (recvCell c p) 0 from p1_records_reached m ρ K (c, some (true, p))) $$ HK
    sl_exec
    iapply Hk
    isplitl [HO]; · iexact HO
    isplitl [Htr Hts]
    · isplitl [Htr]; · iexact Htr
      iexact Hts
    iexact HB
  · have hpc : p = c := by by_contra hne; exact h (hcond.mpr hne)
    subst hpc
    rw [dif_neg h, p1_res_skip, Osig, Osig, stepSum_skip]
    iintro ⟨#HK, HS⟩ Hk
    iapply Hk
    iexact HS

/-- The staged block, seen through the memref the load goes through. -/
theorem p1_xview (m : (ℓ : Loc nD τ sig) → Buf (Elt F) ℓ) (ρ : Dev nD → PrngReg) (c : Dev nD) : iprop((((c : Thread nD τ).loc cc0_stg0_0) ↦{fullShare} xstg m ρ c) : sProp 𝕄)
    ⊢ iprop((xM : Memref sig .tc .vmem S1536x768 .f32).view.loc (c : Thread nD τ) ↦{fullShare} xstg m ρ c) := .rfl

/-! ## The eight conditions: block `N` runs on every device but device `N - 1` -/

theorem p1_cond1_iff : ∀ c : Dev nD, k0_cond1 c = 1#1 ↔ (0 : Dev nD) ≠ c := by decide +kernel
theorem p1_cond2_iff : ∀ c : Dev nD, k0_cond2 c = 1#1 ↔ (1 : Dev nD) ≠ c := by decide +kernel
theorem p1_cond3_iff : ∀ c : Dev nD, k0_cond3 c = 1#1 ↔ (2 : Dev nD) ≠ c := by decide +kernel
theorem p1_cond4_iff : ∀ c : Dev nD, k0_cond4 c = 1#1 ↔ (3 : Dev nD) ≠ c := by decide +kernel
theorem p1_cond5_iff : ∀ c : Dev nD, k0_cond5 c = 1#1 ↔ (4 : Dev nD) ≠ c := by decide +kernel
theorem p1_cond6_iff : ∀ c : Dev nD, k0_cond6 c = 1#1 ↔ (5 : Dev nD) ≠ c := by decide +kernel
theorem p1_cond7_iff : ∀ c : Dev nD, k0_cond7 c = 1#1 ↔ (6 : Dev nD) ≠ c := by decide +kernel
theorem p1_cond8_iff : ∀ c : Dev nD, k0_cond8 c = 1#1 ↔ (7 : Dev nD) ≠ c := by decide +kernel

/-! ## The stretch -/

theorem part1_spec (K : Dev nD × CK → ℕ) (c : Dev nD)
    (Ψ : (Σ' (d0 : Dev nD) (v2 : BitVec 32) (v3 : Sems sig S_), FVec F S1536x768 .f32) → sProp 𝕄) :
    iprop(records m ρ K ∗ pre1 m ρ c)
      ⊢ iprop((mid1 m ρ c -∗ Ψ ⟨c, posWord c, barSems, k0_pay1 (xstg m ρ c)⟩)
          -∗ wp frame (wpE (defs₀ (F := F)) 𝒱₀ c none) Set.univ
              (k0_part1 (F := F) (Memref.whole cc0_stg0_0) (Memref.isWhole_whole _) (Memref.whole cc0_stg1_0) (Memref.isWhole_whole _)
                (Memref.whole cc0_scratch0) (Memref.isWhole_whole _) cc0_scratch1 cc0_scratch2) Ψ) := by
  unfold pre1 mid1
  iintro ⟨#HK, Hat, Htoks, Hcb, Hcr, Hbuf, HO, Hx, Hout⟩ HΨ
  icases Hbuf with ⟨%f, Hbuf⟩
  icases HO with ⟨%W, HO⟩
  icases Hx with ⟨%fx, %hfx, Hx⟩
  subst hfx
  rw [k0_part1_eq_skeleton]
  unfold k0_part1_skel
  rw [Prog.bind_lift, wp_deviceId]
  beta_reduce
  extract_lets v0 v1 v2 v3 kL k8 k7 k6 k5 k4 k3 k2
  ihave HS := (p1_start c W f) $$ [HO Htoks Hbuf]
  · isplitl [HO]; · iexact HO
    isplitl [Htoks]; · iexact Htoks
    iexact Hbuf
  icases HS with ⟨HS, Hrow⟩
  iapply (p1_block m ρ K c (0 : Dev nD) 0 rfl (k0_cond1 c) (p1_cond1_iff c) k0_dev1 k0_dev1_eq (k0_dev1_lt c) W k2 Ψ) $$ [HS]
  · isplitr; · iexact HK
    iexact HS
  iintro HS
  iapply (p1_block m ρ K c (1 : Dev nD) 1 rfl (k0_cond2 c) (p1_cond2_iff c) k0_dev2 k0_dev2_eq (k0_dev2_lt c) W k3 Ψ) $$ [HS]
  · isplitr; · iexact HK
    iexact HS
  iintro HS
  iapply (p1_block m ρ K c (2 : Dev nD) 2 rfl (k0_cond3 c) (p1_cond3_iff c) k0_dev3 k0_dev3_eq (k0_dev3_lt c) W k4 Ψ) $$ [HS]
  · isplitr; · iexact HK
    iexact HS
  iintro HS
  iapply (p1_block m ρ K c (3 : Dev nD) 3 rfl (k0_cond4 c) (p1_cond4_iff c) k0_dev4 k0_dev4_eq (k0_dev4_lt c) W k5 Ψ) $$ [HS]
  · isplitr; · iexact HK
    iexact HS
  iintro HS
  iapply (p1_block m ρ K c (4 : Dev nD) 4 rfl (k0_cond5 c) (p1_cond5_iff c) k0_dev5 k0_dev5_eq (k0_dev5_lt c) W k6 Ψ) $$ [HS]
  · isplitr; · iexact HK
    iexact HS
  iintro HS
  iapply (p1_block m ρ K c (5 : Dev nD) 5 rfl (k0_cond6 c) (p1_cond6_iff c) k0_dev6 k0_dev6_eq (k0_dev6_lt c) W k7 Ψ) $$ [HS]
  · isplitr; · iexact HK
    iexact HS
  iintro HS
  iapply (p1_block m ρ K c (6 : Dev nD) 6 rfl (k0_cond7 c) (p1_cond7_iff c) k0_dev7 k0_dev7_eq (k0_dev7_lt c) W k8 Ψ) $$ [HS]
  · isplitr; · iexact HK
    iexact HS
  iintro HS
  iapply (p1_block m ρ K c (7 : Dev nD) 7 rfl (k0_cond8 c) (p1_cond8_iff c) k0_dev8 k0_dev8_eq (k0_dev8_lt c) W kL Ψ) $$ [HS]
  · isplitr; · iexact HK
    iexact HS
  iintro HS
  ihave HE := (p1_end c W) $$ HS
  icases HE with ⟨HO, Htoks⟩
  simp only [kL]
  ihave Hxv := (p1_xview m ρ c) $$ Hx
  sl_exec
  rw [show View.readAt (Elt F) (xM : Memref sig .tc .vmem S1536x768 .f32).view
        (Rect.unit (s := S1536x768) ![0, 0] ![1536, 768] inb_S1536x768_S1536x768_0_0).toLoadRect (xstg m ρ c) = xstg m ρ c from
      Memref.readAt_unit_zero (Elt F) cc0_stg0_0 (by funext a; fin_cases a <;> rfl) _ _]
  sl_step
  iapply HΨ
  isplitl [Hat]; · iexact Hat
  isplitl [Htoks]; · iexact Htoks
  isplitl [Hcb]; · iexact Hcb
  isplitl [Hcr]; · iexact Hcr
  isplitl [Hrow]; · iexact Hrow
  isplitl [HO]; · iexists W; iexact HO
  isplitl [Hxv]
  · iexists (xstg m ρ c)
    isplitr
    · ipureintro; rfl
    · iexact Hxv
  iexact Hout

/-- info: 'Cert.KernelIdeal.Proto.part1_spec' depends on axioms: [propext, Classical.choice, Quot.sound] -/
#guard_msgs in #print axioms part1_spec

end Cert.KernelIdeal.Proto

end
-- ==== Proof.Geom.lean ====
/-
  The geometry of the gathered buffer's rows.

  Row `k` of the eight-row buffer is the rectangle of one row at offsets `(k, 0, 0)`. A store through that rectangle
  writes the row and nothing else; what it leaves on the own row is the gathered buffer's contents there. A copy
  between the same rows of two devices' buffers carries the source's contents over, element for element. A row's
  transfer credits a DMA semaphore the row's credit. The slices the program takes at a device's own position are its
  own row and its receive semaphore.
-/
import proofs.«901082_g7700000000001083_dist_sum_ax0_shard0_i_m1536_n768_v7x_i8_f32_1_alg».proof.Proof.Rows

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The row as a set of elements -/

/-- The elements an access through row `c`'s rectangle reaches are the row's. -/
theorem access_rowR_set (c : Dev nD) :
    ((((rM : Memref sig .tc .vmem S8x1x768 .f32).access (rowR c) : View sig .tc .vmem S1x1x768 .f32).set) : Finset S8x1x768.Idx)
      = ((rowM c).view.set : Finset S8x1x768.Idx) := by
  have e : ((rowM c).view.set : Finset S8x1x768.Idx) = (rowR c).set := by
    show (((View.whole cc0_scratch0 : View sig .tc .vmem _ _).slice (rowR c)).reshape S1x768 _).set = _
    rw [View.set_reshape, View.set_slice_whole]
  have e' : ((((rM : Memref sig .tc .vmem S8x1x768 .f32).access (rowR c) : View sig .tc .vmem S1x1x768 .f32).set) : Finset S8x1x768.Idx) = (rowR c).set := by
    show ((View.whole cc0_scratch0 : View sig .tc .vmem _ _).slice (rowR c)).set = _
    rw [View.set_slice_whole]
  rw [e, e']

/-- The same at offsets that are the row's, however they are spelt. -/
theorem access_row_set (c : Dev nD) (off : Fin 3 → Nat) (hoff : off = ![c.val, 0, 0])
    (inb : ∀ a, off a + S1x1x768.size a ≤ S8x1x768.size a) :
    ((((rM : Memref sig .tc .vmem S8x1x768 .f32).access (Rect.unit (s := S8x1x768) off S1x1x768.size inb) : View sig .tc .vmem S1x1x768 .f32).set) : Finset S8x1x768.Idx)
      = ((rowM c).view.set : Finset S8x1x768.Idx) := by
  subst hoff; exact access_rowR_set c

/-- A store through the own row's rectangle writes inside the row: -/
theorem store_row_setOn (c : Dev nD) :
    ((rM : Memref sig .tc .vmem S8x1x768 .f32).access (Rect.unit (s := S8x1x768) (k0_off1 c) S1x1x768.size (k0_off1_inb c)) : View sig .tc .vmem S1x1x768 .f32).setOn Finset.univ
      ⊆ ((rowM c).view.set : Finset S8x1x768.Idx) := by
  rw [View.setOn_univ, access_row_set c _ (k0_off1_eq c)]

/-- and a load through it reads inside the row. -/
theorem load_row_setOn (c : Dev nD) :
    (rM : Memref sig .tc .vmem S8x1x768 .f32).view.setOn (Rect.unit (s := S8x1x768) (k0_off1 c) S1x1x768.size (k0_off1_inb c)).toLoadRect.set
      ⊆ ((rowM c).view.set : Finset S8x1x768.Idx) := by
  have h := access_row_set c _ (k0_off1_eq c) (k0_off1_inb c)
  rw [View.set_slice] at h
  exact h.le

/-! ## What a store and a copy leave on a row -/

/-- An element of row `c` lies in row `c`, -/
theorem rowOf_eq {c : Dev nD} {i : S8x1x768.Idx} (hi : (i 0).val = c.val) : rowOf i = c := Fin.ext hi

/-- The store of a device's partial sum into its own row leaves, on the row, the gathered buffer's contents. -/
theorem store_row (m : (ℓ : Loc nD τ sig) → Buf (Elt F) ℓ) (ρ : Dev nD → PrngReg) (c : Dev nD)
    (f0 : Buf (Elt F) ((c : Thread nD τ).loc cc0_scratch0)) (i : S8x1x768.Idx) (hi : (i 0).val = c.val) :
    ((rM : Memref sig .tc .vmem S8x1x768 .f32).access (rowR c) : View sig .tc .vmem S1x1x768 .f32).write (Elt F) f0
        (k0_pay2 (k0_pay1 (xstg m ρ c))) Finset.univ i = gathered m ρ c i := by
  have hmem : i ∈ (((rM : Memref sig .tc .vmem S8x1x768 .f32).access (rowR c) : View sig .tc .vmem S1x1x768 .f32).set : Finset S8x1x768.Idx) := by
    rw [access_rowR_set]; exact (mem_row c i).mpr hi
  obtain ⟨y, hy⟩ := View.exists_emb_of_mem_set _ hmem
  subst hy
  rw [View.write_emb_of_mem _ _ (Finset.mem_univ y)]
  show _ = part (xs m ρ (rowOf _)) (inRow _)
  rw [rowOf_eq hi]
  have hin : inRow (((rM : Memref sig .tc .vmem S8x1x768 .f32).access (rowR c) : View sig .tc .vmem S1x1x768 .f32).emb y) = y := by
    funext a
    fin_cases a
    · exact Fin.ext (by have := (y 0).isLt; simp at this; simp [inRow]; omega)
    · exact Fin.ext (by have := (y 1).isLt; simp at this; simp [inRow]; omega)
    · refine Fin.ext ?_
      show ((rowR c).emb y 2 : ℕ) = (y 2 : ℕ)
      rw [Rect.emb_apply]
      show 0 + 1 * (y 2 : ℕ) = (y 2 : ℕ)
      omega
  rw [hin]
  rfl

/-- The same through the rectangle as the program spells it. -/
theorem store_row_off (m : (ℓ : Loc nD τ sig) → Buf (Elt F) ℓ) (ρ : Dev nD → PrngReg) (c : Dev nD)
    (f0 : Buf (Elt F) ((c : Thread nD τ).loc cc0_scratch0)) (i : S8x1x768.Idx) (hi : (i 0).val = c.val) :
    ((rM : Memref sig .tc .vmem S8x1x768 .f32).access (Rect.unit (s := S8x1x768) (k0_off1 c) S1x1x768.size (k0_off1_inb c)) : View sig .tc .vmem S1x1x768 .f32).write (Elt F) f0
        (k0_pay2 (k0_pay1 (xstg m ρ c))) Finset.univ i = gathered m ρ c i := by
  have h : ∀ (off : Fin 3 → Nat) (hoff : off = ![c.val, 0, 0]) (inb : ∀ a, off a + S1x1x768.size a ≤ S8x1x768.size a),
      ((rM : Memref sig .tc .vmem S8x1x768 .f32).access (Rect.unit (s := S8x1x768) off S1x1x768.size inb) : View sig .tc .vmem S1x1x768 .f32).write (Elt F) f0
        (k0_pay2 (k0_pay1 (xstg m ρ c))) Finset.univ i = gathered m ρ c i := by
    intro off hoff inb; subst hoff; exact store_row m ρ c f0 i hi
  exact h _ (k0_off1_eq c) _

/-- A copy between the same rows of two devices' buffers carries the source's contents over. -/
theorem xfer_row (k p : Dev nD) (fd : Buf (Elt F) ((p : Thread nD τ).loc cc0_scratch0)) (fs : Buf (Elt F) ((k : Thread nD τ).loc cc0_scratch0))
    (i : S8x1x768.Idx) (hi : (i 0).val = k.val) :
    (rowM k).view.write (Elt F) fd ((rowM k).view.read (Elt F) fs) Finset.univ i = fs i := by
  obtain ⟨y, hy⟩ := View.exists_emb_of_mem_set (rowM k).view ((mem_row k i).mpr hi)
  subst hy
  rw [View.write_emb_of_mem _ _ (Finset.mem_univ y), View.read_apply, cast_cast, cast_eq]

/-! ## The row's credit; the program's slices -/

/-- A row's transfer credits a DMA semaphore the row's credit. -/
theorem row_dmaCredit (k : Dev nD) : (rowM k).view.dmaCredit = N := by
  show RefSig.tileCredit S1x768 .f32 = 768
  decide +kernel
theorem row_amount (k : Dev nD) (s : DmaSem sig) : (rowM k).view.amount (.dma s) = N := row_dmaCredit k

/-- The program's slice of the buffer at a device's own position is its own row. -/
theorem send_slice_eq (c : Dev nD) (off : Fin 3 → Nat) (hoff : off = ![c.val, 0, 0]) (inb : ∀ a, off a + S1x1x768.size a ≤ S8x1x768.size a) :
    ((rM : Memref sig .tc .vmem S8x1x768 .f32).slice (Rect.unit (s := S8x1x768) off S1x1x768.size inb) (fun _ => rfl)).squeeze S1x768 squeezes_S1x1x768_S1x768
      = rowM c := by
  subst hoff; rfl

/-- The send semaphore towards device `j`, -/
theorem send_sem_eq (j : Dev nD) (off : Fin 1 → Nat) (hoff : off = ![j.val]) (inb : ∀ a, off a + S1.size a ≤ S8.size a) :
    ((cc0_scratch1.slice (Rect.unit (s := S8) off S1.size inb)).squeeze S_ squeezes_S1_S_ : DmaSems sig S_).sem = sendS j := by
  subst hoff
  refine Fin.ext ?_
  revert j; decide +kernel

/-- and the receive semaphore for the copy from device `c`. -/
theorem recv_sem_eq (c : Dev nD) (off : Fin 1 → Nat) (hoff : off = ![c.val]) (inb : ∀ a, off a + S1.size a ≤ S8.size a) :
    ((cc0_scratch2.slice (Rect.unit (s := S8) off S1.size inb)).squeeze S_ squeezes_S1_S_ : DmaSems sig S_).sem = recvS c := by
  subst hoff
  refine Fin.ext ?_
  revert c; decide +kernel

/-- info: 'Cert.KernelIdeal.Proto.store_row' depends on axioms: [propext, Classical.choice, Quot.sound] -/
#guard_msgs in #print axioms store_row

/-- info: 'Cert.KernelIdeal.Proto.store_row_off' depends on axioms: [propext, Classical.choice, Quot.sound] -/
#guard_msgs in #print axioms store_row_off

/-- info: 'Cert.KernelIdeal.Proto.xfer_row' depends on axioms: [propext, Classical.choice, Quot.sound] -/
#guard_msgs in #print axioms xfer_row

/-- info: 'Cert.KernelIdeal.Proto.row_amount' depends on axioms: [propext, Classical.choice, Quot.sound] -/
#guard_msgs in #print axioms row_amount

/-- info: 'Cert.KernelIdeal.Proto.send_slice_eq' depends on axioms: [propext, Classical.choice, Quot.sound] -/
#guard_msgs in #print axioms send_slice_eq

/-- info: 'Cert.KernelIdeal.Proto.send_sem_eq' depends on axioms: [propext, Classical.choice, Quot.sound] -/
#guard_msgs in #print axioms send_sem_eq

/-- info: 'Cert.KernelIdeal.Proto.recv_sem_eq' depends on axioms: [propext, Classical.choice, Quot.sound] -/
#guard_msgs in #print axioms recv_sem_eq

/-- info: 'Cert.KernelIdeal.Proto.store_row_setOn' depends on axioms: [propext, Classical.choice, Quot.sound] -/
#guard_msgs in #print axioms store_row_setOn

/-- info: 'Cert.KernelIdeal.Proto.load_row_setOn' depends on axioms: [propext, Classical.choice, Quot.sound] -/
#guard_msgs in #print axioms load_row_setOn

end Cert.KernelIdeal.Proto

end
-- ==== Proof.Part2.lean ====
/-
  The second stretch of a device's body: the store of its partial sum, the barrier wait, the copies to the other devices.
-/
import proofs.«901082_g7700000000001083_dist_sum_ax0_shard0_i_m1536_n768_v7x_i8_f32_1_alg».proof.Proof.Geom

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Geometry of a row -/

/-- The elements of a row, as the copies' memref and as the rectangle see them. -/
theorem rowM_set (k : Dev nD) : (rowM k).view.set = (rM.access (rowR k)).set := by
  simp only [Memref.view_squeeze, Memref.view_slice, View.set_reshape]

/-- A load through the rectangle of row `c`, whatever way its offsets are spelt, from the row's points-to. -/
theorem wp_load_row (c : Dev nD) (off : Fin 3 → Nat) (hoff : off = ![c.val, 0, 0])
    (inb : ∀ a, off a + S1x1x768.size a ≤ S8x1x768.size a)
    {hl : (rM : Memref sig .tc .vmem S8x1x768 .f32).view.LoadsAt (Rect.unit (s := S8x1x768) off S1x1x768.size inb).toLoadRect}
    {α : Type} {k : ((Rect.unit (s := S8x1x768) off S1x1x768.size inb).toLoadRect.shape.Idx → Elt F .f32) → Prog (TpuEff nD τ sig (Elt F) Λ₀ .tc) α}
    {Q : α → sProp 𝕄} (q : PosShare TreeShare) (f : Buf (Elt F) ((c : Thread nD τ).loc cc0_scratch0)) :
    rowPts c c q f
      ⊢ iprop((∀ v, rowPts c c q f -∗ wp frame (wpE (defs₀ (F := F)) 𝒱₀ c none) Set.univ (k v) Q)
        -∗ wp frame (wpE (defs₀ (F := F)) 𝒱₀ c none) Set.univ (.op (.load rM (Rect.unit (s := S8x1x768) off S1x1x768.size inb).toLoadRect hl) k) Q) := by
  subst hoff
  exact (wp_load_rect (defs := defs₀ (F := F)) 𝒱₀ (c : Thread nD τ) none Set.univ (m := rM) (r := rowR c) (S := (rowM c).view.set) (q := q) (f := f)
    (rowM_set c).ge).trans (wand_mono_left (forall_elim (PROP := sProp 𝕄) _))

/-- A store through the rectangle of row `c`, whatever way its offsets are spelt, into the row held whole. -/
theorem wp_store_row (c : Dev nD) (off : Fin 3 → Nat) (hoff : off = ![c.val, 0, 0])
    (inb : ∀ a, off a + S1x1x768.size a ≤ S8x1x768.size a) (w : FVec F S1x1x768 .f32)
    {hx : ((rM : Memref sig .tc .vmem S8x1x768 .f32).access (Rect.unit (s := S8x1x768) off S1x1x768.size inb)).Stores Finset.univ}
    {hm : (Finset.univ : Finset (Rect.unit (s := S8x1x768) off S1x1x768.size inb).shape.Idx) = Finset.univ ∨ ∀ a, (Rect.unit (s := S8x1x768) off S1x1x768.size inb).stride a = 1}
    {α : Type} {k : PUnit → Prog (TpuEff nD τ sig (Elt F) Λ₀ .tc) α}
    {Q : α → sProp 𝕄} (f : Buf (Elt F) ((c : Thread nD τ).loc cc0_scratch0)) :
    rowPts c c fullShare f
      ⊢ iprop((rowPts c c fullShare ((rM.access (rowR c)).write (Elt F) f w Finset.univ) -∗ wp frame (wpE (defs₀ (F := F)) 𝒱₀ c none) Set.univ (k ⟨⟩) Q)
        -∗ wp frame (wpE (defs₀ (F := F)) 𝒱₀ c none) Set.univ (.op (.store rM (Rect.unit (s := S8x1x768) off S1x1x768.size inb) w Finset.univ hx hm) k) Q) := by
  subst hoff
  exact wp_store 𝒱₀ (c : Thread nD τ) none Set.univ (m := rM) (r := rowR c) (S := (rowM c).view.set) (f := f)
    (by rw [View.setOn_univ]; exact (rowM_set c).ge)

/-! ## The positions: the barrier cell's apart from the sixteen others -/

theorem univ_erase_none {α : Type} [Fintype α] [DecidableEq α] :
    (Finset.univ : Finset (Option α)).erase none = Finset.univ.map ⟨some, Option.some_injective α⟩ := by
  ext x
  cases x with
  | none => simp
  | some a => simp

theorem pos_split (c : Dev nD) :
    (bigSep Finset.univ fun k : CK => (atPos ER (kcell (c, k)) 0 ∅ 0 : sProp 𝕄))
      = iprop(atPos ER (barCell c) 0 ∅ 0 ∗ bigSep Finset.univ fun bj : Bool × Dev nD => atPos ER (kcell (c, some bj)) 0 ∅ 0) := by
  rw [bigSep_univ_at _ (none : CK), univ_erase_none, bigSep_map]
  rfl

/-! ## Out of the records -/

theorem univ_elim {I : Type} [Fintype I] [DecidableEq I] (Φ : I → sProp 𝕄) (i : I) : bigSep Finset.univ Φ ⊢ Φ i :=
  bigSep_elim (Finset.mem_univ i)

theorem records_inv (K : Dev nD × CK → ℕ) (ck : Dev nD × CK) : records m ρ K ⊢ cellInv ER (rd m ρ) (K ck) (kcell ck) := by
  unfold records
  iintro ⟨H, _⟩
  iapply (univ_elim (fun ck : Dev nD × CK => cellInv ER (rd m ρ) (K ck) (kcell ck)) ck) $$ H
theorem records_reached (K : Dev nD × CK → ℕ) (ck : Dev nD × CK) : records m ρ K ⊢ reached ER (kcell ck) 0 := by
  unfold records
  iintro ⟨_, H⟩
  iapply (univ_elim (fun ck : Dev nD × CK => (reached ER (kcell ck) 0 : sProp 𝕄)) ck) $$ H

/-! ## What the device holds towards each other device, before and after its copy to it -/

/-- Before the copy to `p`: the tokens of the two duties the copy pays, the credit of the own receive cell for `p`, the
    share of the own row the copy will read through, and what `p`'s signal handed over. -/
def unsent (c p : Dev nD) : sProp 𝕄 :=
  iprop((dutyTok ER (recvCell p c) 0 0 ∗ dutyTok ER (sendCell c p) 0 0) ∗ cred (tallyAt (recvCell c p) () N)
    ∗ rowPts c c (sh p) (gathered m ρ c) ∗ barPay (F := F) c p)
/-- After it: the credit of the send cell beside that of the receive cell. -/
def sent (c p : Dev nD) : sProp 𝕄 := iprop(cred (tallyAt (sendCell c p) () N) ∗ cred (tallyAt (recvCell c p) () N))
/-- When the copies to the devices below `n` are out. -/
def stage (c : Dev nD) (n : ℕ) : sProp 𝕄 :=
  bigSep (Finset.univ.erase c) fun p => if n ≤ p.val then unsent m ρ c p else sent (F := F) c p

theorem stage_congr_succ (c p : Dev nD) (S : Finset (Dev nD)) (hS : ∀ q ∈ S, q ≠ p) :
    bigSep S (fun q => if p.val ≤ q.val then unsent m ρ c q else sent (F := F) c q)
      = bigSep S (fun q => if p.val + 1 ≤ q.val then unsent m ρ c q else sent (F := F) c q) :=
  bigSep_congr fun q hq => by
    have hne : q.val ≠ p.val := fun h => hS q hq (Fin.ext h)
    exact if_congr ⟨fun a => by omega, fun a => by omega⟩ rfl rfl

theorem stage_step (c p : Dev nD) (hp : p ≠ c) :
    stage m ρ c p.val ⊢ iprop(unsent m ρ c p ∗ (sent (F := F) c p -∗ stage m ρ c (p.val + 1))) := by
  unfold stage
  have hm : p ∈ Finset.univ.erase c := Finset.mem_erase.mpr ⟨hp, Finset.mem_univ p⟩
  have e1 : bigSep (Finset.univ.erase c) (fun q => if p.val ≤ q.val then unsent m ρ c q else sent (F := F) c q)
      = iprop(unsent m ρ c p ∗ bigSep ((Finset.univ.erase c).erase p) (fun q => if p.val + 1 ≤ q.val then unsent m ρ c q else sent (F := F) c q)) := by
    rw [bigSep_erase hm, if_pos le_rfl, stage_congr_succ m ρ c p _ fun q hq => Finset.ne_of_mem_erase hq]; rfl
  have e2 : bigSep (Finset.univ.erase c) (fun q => if p.val + 1 ≤ q.val then unsent m ρ c q else sent (F := F) c q)
      = iprop(sent (F := F) c p ∗ bigSep ((Finset.univ.erase c).erase p) (fun q => if p.val + 1 ≤ q.val then unsent m ρ c q else sent (F := F) c q)) := by
    rw [bigSep_erase hm, if_neg (by omega)]; rfl
  rw [e1, e2]
  iintro ⟨H, Hrest⟩
  isplitl [H]; · iexact H
  iintro Hs
  isplitl [Hs]; · iexact Hs
  iexact Hrest

theorem stage_skip (c : Dev nD) : stage m ρ c c.val = stage m ρ c (c.val + 1) := by
  unfold stage
  exact stage_congr_succ m ρ c c _ fun q hq => Finset.ne_of_mem_erase hq

theorem stage_end (c : Dev nD) : stage m ρ c 8 = bigSep (Finset.univ.erase c) (sent (F := F) c) := by
  unfold stage
  exact bigSep_congr fun q _ => if_neg (by have h8 : q.val < 8 := q.isLt; omega)

theorem stage_intro (c : Dev nD) :
    iprop((bigSep (Finset.univ.erase c) fun p => iprop(dutyTok ER (recvCell p c) 0 0 ∗ dutyTok ER (sendCell c p) 0 0))
        ∗ (bigSep (Finset.univ.erase c) fun p => cred (tallyAt (recvCell c p) () N))
        ∗ (bigSep (Finset.univ.erase c) fun p => rowPts c c (sh p) (gathered m ρ c))
        ∗ bigSep (Finset.univ.erase c) (barPay (F := F) c))
      ⊢ stage m ρ c 0 := by
  have e : stage m ρ c 0 = bigSep (Finset.univ.erase c) (unsent m ρ c) := by
    unfold stage
    exact bigSep_congr fun q _ => if_pos (Nat.zero_le _)
  rw [e]
  unfold unsent
  simp only [bigSep_sep']
  iintro H; iexact H

/-- The own row as the store leaves it, as the share no copy reads through and the seven the copies do. -/
theorem own_shares (c : Dev nD) (f0 : Buf (Elt F) ((c : Thread nD τ).loc cc0_scratch0)) :
    rowPts c c fullShare ((rM.access (rowR c)).write (Elt F) f0 (k0_pay2 (k0_pay1 (xstg m ρ c))) Finset.univ)
      ⊢ iprop(rowPts c c (sh c) (gathered m ρ c) ∗ bigSep (Finset.univ.erase c) fun j => rowPts c c (sh j) (gathered m ρ c)) := by
  rw [← bigSep_univ_at (fun j => rowPts c c (sh j) (gathered m ρ c)) c,
    rowPts_congr c c fullShare (g := gathered m ρ c) (fun i hi => store_row m ρ c f0 i hi)]
  exact (row_shares c c (gathered m ρ c)).1

/-! ## One copy -/

/-- The copy of the own row into row `c` of device `p`'s buffer: it pays the send cell's duty with the share it reads
    through and the receive cell's duty on `p` with row `c` there, rewritten to the partial sum. -/
theorem send_core (K : Dev nD × CK → ℕ) (c p : Dev nD) (hp : p ≠ c)
    (src dst : Memref sig .tc .vmem S1x768 .f32) (hsrc : src = rowM c) (hdst : dst = rowM c)
    (sS sR : DmaSem sig) (hS : sS = sendS p) (hR : sR = recvS c) (dv : Dev nD) (hdv : dv = p)
    {hsc : dst.view.ref.isScScratch = false} {we₁ : src.view.WordExact} {we₂ : dst.view.WordExact}
    {ty : DmaTarget.Typed (nD := nD) (τ := τ) .vmem (.dma sR) (.remote (Dev.tc dv) dst (.dma sS) hsc)}
    (rest : Prog (TpuEff nD τ sig (Elt F) Λ₀ .tc) PUnit) (Ψ : PUnit → sProp 𝕄) :
    iprop(records m ρ K ∗ unsent m ρ c p ∗ ∃ W, owes (c : Thread nD τ) (Orcv c p.val) W)
      ⊢ iprop(((sent (F := F) c p ∗ ∃ W, owes (c : Thread nD τ) (Orcv c (p.val + 1)) W)
            -∗ wp frame (wpE (defs₀ (F := F)) 𝒱₀ c none) Set.univ rest Ψ)
          -∗ wp frame (wpE (defs₀ (F := F)) 𝒱₀ c none) Set.univ
              (Prog.op (.enqueueDma src (.remote (Dev.tc dv) dst (.dma sS) hsc) (.dma sR) we₁ we₂ ty) Prog.ret >>= fun _ => rest) Ψ) := by
  subst hsrc hdst hS hR hdv
  unfold unsent barPay
  iintro ⟨#Hrec, ⟨⟨HtR, HtS⟩, HcR, Hsh, ⟨%fd, Hd⟩, Hr2⟩, ⟨%W, HO⟩⟩ Hk
  rw [wp_bind]
  ihave Hi1 := (records_inv m ρ K (c, some (false, dv))) $$ Hrec
  ihave Hi2 := (records_inv m ρ K (dv, some (true, c))) $$ Hrec
  ihave Hr1 := (records_reached m ρ K (c, some (false, dv))) $$ Hrec
  unfold rowPts
  iapply (wp_send_pointsTo 𝒱₀ ER (rd m ρ) (c : Thread nD τ) none (c' := (dv : Thread nD τ)) (src := rowM c) (dst := rowM c)
      (sS := .dma (sendS dv)) (sem := .dma (recvS c)) (q := sh dv) (fs := gathered m ρ c) (fd := fd)
      (κ₁ := K (c, some (false, dv))) (κ₂ := K (dv, some (true, c))) (r₁ := 0) (r₂ := 0) (d₁ := 0) (d₂ := 0)
      (by rw [duties_send m ρ c dv hp]; exact Finset.mem_singleton_self _)
      (by rw [duties_recv m ρ dv c hp.symm]; exact Finset.mem_singleton_self _)
      () () N (row_amount c (recvS c)) (amount_send m ρ c dv 0) (amount_recv m ρ dv c 0)
      (Orcv c (dv.val + 1)) (stepSum_step _ hp)
      (by rw [payload_send]; exact .rfl)
      (by rw [payload_recv]; unfold recvPay rowPts
          rw [pointsTo_congr (g := gathered m ρ dv) fun i hi => (xfer_row c dv fd (gathered m ρ c) i ((mem_row c i).mp hi)).trans rfl])) $$ [Hi1 Hi2 Hsh Hd HO HtS Hr1 HtR Hr2]
  · isplitl [Hi1]; · iexact Hi1
    isplitl [Hi2]; · iexact Hi2
    isplitl [Hsh]; · iexact Hsh
    isplitl [Hd]; · iexact Hd
    isplitl [HO]; · iexact HO
    isplitl [HtS]; · iexact HtS
    isplitl [Hr1]; · iexact Hr1
    isplitl [HtR]; · iexact HtR
    iexact Hr2
  iintro ⟨HcS, HO⟩
  rw [wp_ret]; imodintro
  iapply Hk
  isplitl [HcS HcR]
  · unfold sent
    isplitl [HcS]; · iexact HcS
    iexact HcR
  iexists _; iexact HO

theorem stepSum_skip_Orcv (c : Dev nD) : Orcv c c.val = Orcv c (c.val + 1) := stepSum_skip _ c

/-! ## One block: the copy to device `p`, unless `p` is the device itself -/

theorem send_block (K : Dev nD × CK → ℕ) (c p : Dev nD) (n n' : ℕ) (hn : p.val = n) (hn' : n' = n + 1)
    (cond : BitVec 1) (hcond : cond = 1#1 ↔ p ≠ c)
    (src dst : cond = 1#1 → Memref sig .tc .vmem S1x768 .f32) (hsrc : ∀ h, src h = rowM c) (hdst : ∀ h, dst h = rowM c)
    (sS : DmaSem sig) (hS : sS = sendS p) (sR : cond = 1#1 → DmaSem sig) (hR : ∀ h, sR h = recvS c)
    (dv : cond = 1#1 → Dev nD) (hdv : ∀ h, dv h = p)
    {hsc : ∀ h, (dst h).view.ref.isScScratch = false} {we₁ : ∀ h, (src h).view.WordExact} {we₂ : ∀ h, (dst h).view.WordExact}
    {ty : ∀ h, DmaTarget.Typed (nD := nD) (τ := τ) .vmem (.dma (sR h)) (.remote (Dev.tc (dv h)) (dst h) (.dma sS) (hsc h))}
    (rest : Prog (TpuEff nD τ sig (Elt F) Λ₀ .tc) PUnit) (Ψ : PUnit → sProp 𝕄) :
    iprop(records m ρ K ∗ stage m ρ c n ∗ ∃ W, owes (c : Thread nD τ) (Orcv c n) W)
      ⊢ iprop(((stage m ρ c n' ∗ ∃ W, owes (c : Thread nD τ) (Orcv c n') W)
            -∗ wp frame (wpE (defs₀ (F := F)) 𝒱₀ c none) Set.univ rest Ψ)
          -∗ wp frame (wpE (defs₀ (F := F)) 𝒱₀ c none) Set.univ
              (if h : cond = 1#1 then
                (Prog.op (.enqueueDma (src h) (.remote (Dev.tc (dv h)) (dst h) (.dma sS) (hsc h)) (.dma (sR h)) (we₁ h) (we₂ h) (ty h)) Prog.ret
                  >>= fun _ => rest)
               else rest) Ψ) := by
  subst hn hn'
  by_cases h : cond = 1#1
  · have hp : p ≠ c := hcond.mp h
    rw [dif_pos h]
    iintro ⟨#Hrec, Hst, HO⟩ Hk
    ihave Hst := (stage_step m ρ c p hp) $$ Hst
    icases Hst with ⟨Hun, Hst⟩
    iapply (send_core m ρ K c p hp (src h) (dst h) (hsrc h) (hdst h) sS (sR h) hS (hR h) (dv h) (hdv h) rest Ψ) $$ [Hun HO]
    · isplitr; · iexact Hrec
      isplitl [Hun]; · iexact Hun
      iexact HO
    iintro ⟨Hs, HO⟩
    iapply Hk
    isplitl [Hs Hst]
    · iapply Hst $$ Hs
    iexact HO
  · have hp : p = c := by by_contra hne; exact h (hcond.mpr hne)
    subst hp
    rw [dif_neg h, stage_skip m ρ p, stepSum_skip_Orcv p]
    iintro ⟨_, Hst, HO⟩ Hk
    iapply Hk
    isplitl [Hst]; · iexact Hst
    iexact HO

/-! ## The blocks' conditions -/
theorem cond9_iff : ∀ c : Dev nD, k0_cond9 c = 1#1 ↔ (0 : Dev nD) ≠ c := by decide +kernel
theorem cond10_iff : ∀ c : Dev nD, k0_cond10 c = 1#1 ↔ (1 : Dev nD) ≠ c := by decide +kernel
theorem cond11_iff : ∀ c : Dev nD, k0_cond11 c = 1#1 ↔ (2 : Dev nD) ≠ c := by decide +kernel
theorem cond12_iff : ∀ c : Dev nD, k0_cond12 c = 1#1 ↔ (3 : Dev nD) ≠ c := by decide +kernel
theorem cond13_iff : ∀ c : Dev nD, k0_cond13 c = 1#1 ↔ (4 : Dev nD) ≠ c := by decide +kernel
theorem cond14_iff : ∀ c : Dev nD, k0_cond14 c = 1#1 ↔ (5 : Dev nD) ≠ c := by decide +kernel
theorem cond15_iff : ∀ c : Dev nD, k0_cond15 c = 1#1 ↔ (6 : Dev nD) ≠ c := by decide +kernel
theorem cond16_iff : ∀ c : Dev nD, k0_cond16 c = 1#1 ↔ (7 : Dev nD) ≠ c := by decide +kernel

/-! ## When all the copies are out -/

theorem stage_sent (c : Dev nD) :
    stage m ρ c 8 ⊢ bigSep (Finset.univ.erase c) fun p => iprop(cred (tallyAt (sendCell c p) () N) ∗ cred (tallyAt (recvCell c p) () N)) := by
  rw [stage_end]; unfold sent
  iintro H; iexact H

theorem owes_end (c : Dev nD) (W : Waits sig Unit) : (owes (c : Thread nD τ) (Orcv c 8) W : sProp 𝕄) ⊢ owes (c : Thread nD τ) 0 W := by
  rw [show Orcv c 8 = 0 from stepSum_end _ c]

/-! ## The stretch -/

set_option maxHeartbeats 1000000 in
theorem part2_spec (K : Dev nD × CK → ℕ) (c : Dev nD) (Ψ : PUnit → sProp 𝕄) :
    iprop(records m ρ K ∗ levAts L lv ∗ mid1 m ρ c)
      ⊢ iprop((mid2 m ρ c -∗ Ψ ⟨⟩)
          -∗ wp frame (wpE (defs₀ (F := F)) 𝒱₀ c none) Set.univ
              (k0_part2 (F := F) (Memref.whole cc0_stg0_0) (Memref.isWhole_whole _) (Memref.whole cc0_stg1_0) (Memref.isWhole_whole _)
                (Memref.whole cc0_scratch0) (Memref.isWhole_whole _) cc0_scratch1 cc0_scratch2 c (posWord c) barSems (k0_pay1 (xstg m ρ c))) Ψ) := by
  unfold mid1
  rw [pos_split]
  iintro ⟨#Hrec, #Hlev, ⟨Hat, Hpos⟩, Htok, HcB, HcR, ⟨%f0, Hrow⟩, ⟨%W, HO⟩, Hx, Hout⟩ Hk
  rw [k0_part2_eq_skeleton]; unfold k0_part2_skel
  rw [wp_bind]; unfold Prog.lift
  iapply (wp_load_row c (k0_off1 c) (k0_off1_eq c) (k0_off1_inb c) fullShare f0) $$ Hrow
  iintro %v Hrow
  rw [wp_ret]; imodintro
  rw [wp_bind]
  iapply (wp_store_row c (k0_off1 c) (k0_off1_eq c) (k0_off1_inb c) _ f0) $$ Hrow
  iintro Hrow
  rw [wp_ret]; imodintro
  rw [wp_bind]; unfold semWaitWord
  ihave HinvB := (records_inv m ρ K (c, none)) $$ Hrec
  ihave HW := (mayWait_bar (F := F) c 0) $$ Hlev
  iapply (wp_wait_rest_token 𝒱₀ ER (rd m ρ) (c : Thread nD τ) none (sm := .reg barS) (κ := K (c, none)) (fun _ => rfl) (Set.mem_univ _) ()
    (R := 0) (m := 0) (T := ∅) (expect_bar m ρ c).symm) $$ [HinvB HcB HO HW Hat]
  · isplitl [HinvB]; · iexact HinvB
    isplitl [HcB]; · iexact HcB
    isplitl [HO]; · iexact HO
    isplitl [HW]; · iexact HW
    iexact Hat
  rw [rest_bar]
  iintro ⟨HO, Hat1, Hr1, Hpay⟩
  rw [wp_ret]; imodintro
  ihave Hsh := (own_shares m ρ c f0) $$ Hrow
  icases Hsh with ⟨Hown, Hsh⟩
  ihave Hst := (stage_intro m ρ c) $$ [Htok HcR Hsh Hpay]
  · isplitl [Htok]; · iexact Htok
    isplitl [HcR]; · iexact HcR
    isplitl [Hsh]; · iexact Hsh
    iexact Hpay
  iapply (send_block m ρ K c (0 : Dev nD) 0 1 rfl rfl (k0_cond9 c) (cond9_iff c)
      (hsrc := fun h => send_slice_eq c (k0_off3 c) (k0_off3_eq c) (k0_off3_inb c h))
      (hdst := fun h => send_slice_eq c (k0_off3 c) (k0_off3_eq c) (k0_off3_inb c h))
      (hS := rfl) (hR := fun h => recv_sem_eq c (k0_off2 c) (k0_off2_eq c) (k0_off2_inb c h))
      (dv := fun h => ⟨k0_dev9, k0_dev9_lt c h⟩) (hdv := fun h => Fin.ext k0_dev9_eq)) $$ [Hst HO]
  · isplitr; · iexact Hrec
    isplitl [Hst]; · iexact Hst
    iexists _; iexact HO
  iintro ⟨Hst, ⟨%W0, HO⟩⟩
  iapply (send_block m ρ K c (1 : Dev nD) 1 2 rfl rfl (k0_cond10 c) (cond10_iff c)
      (hsrc := fun h => send_slice_eq c (k0_off5 c) (k0_off5_eq c) (k0_off5_inb c h))
      (hdst := fun h => send_slice_eq c (k0_off5 c) (k0_off5_eq c) (k0_off5_inb c h))
      (hS := rfl) (hR := fun h => recv_sem_eq c (k0_off4 c) (k0_off4_eq c) (k0_off4_inb c h))
      (dv := fun h => ⟨k0_dev10, k0_dev10_lt c h⟩) (hdv := fun h => Fin.ext k0_dev10_eq)) $$ [Hst HO]
  · isplitr; · iexact Hrec
    isplitl [Hst]; · iexact Hst
    iexists _; iexact HO
  iintro ⟨Hst, ⟨%W1, HO⟩⟩
  iapply (send_block m ρ K c (2 : Dev nD) 2 3 rfl rfl (k0_cond11 c) (cond11_iff c)
      (hsrc := fun h => send_slice_eq c (k0_off7 c) (k0_off7_eq c) (k0_off7_inb c h))
      (hdst := fun h => send_slice_eq c (k0_off7 c) (k0_off7_eq c) (k0_off7_inb c h))
      (hS := rfl) (hR := fun h => recv_sem_eq c (k0_off6 c) (k0_off6_eq c) (k0_off6_inb c h))
      (dv := fun h => ⟨k0_dev11, k0_dev11_lt c h⟩) (hdv := fun h => Fin.ext k0_dev11_eq)) $$ [Hst HO]
  · isplitr; · iexact Hrec
    isplitl [Hst]; · iexact Hst
    iexists _; iexact HO
  iintro ⟨Hst, ⟨%W2, HO⟩⟩
  iapply (send_block m ρ K c (3 : Dev nD) 3 4 rfl rfl (k0_cond12 c) (cond12_iff c)
      (hsrc := fun h => send_slice_eq c (k0_off9 c) (k0_off9_eq c) (k0_off9_inb c h))
      (hdst := fun h => send_slice_eq c (k0_off9 c) (k0_off9_eq c) (k0_off9_inb c h))
      (hS := rfl) (hR := fun h => recv_sem_eq c (k0_off8 c) (k0_off8_eq c) (k0_off8_inb c h))
      (dv := fun h => ⟨k0_dev12, k0_dev12_lt c h⟩) (hdv := fun h => Fin.ext k0_dev12_eq)) $$ [Hst HO]
  · isplitr; · iexact Hrec
    isplitl [Hst]; · iexact Hst
    iexists _; iexact HO
  iintro ⟨Hst, ⟨%W3, HO⟩⟩
  iapply (send_block m ρ K c (4 : Dev nD) 4 5 rfl rfl (k0_cond13 c) (cond13_iff c)
      (hsrc := fun h => send_slice_eq c (k0_off11 c) (k0_off11_eq c) (k0_off11_inb c h))
      (hdst := fun h => send_slice_eq c (k0_off11 c) (k0_off11_eq c) (k0_off11_inb c h))
      (hS := rfl) (hR := fun h => recv_sem_eq c (k0_off10 c) (k0_off10_eq c) (k0_off10_inb c h))
      (dv := fun h => ⟨k0_dev13, k0_dev13_lt c h⟩) (hdv := fun h => Fin.ext k0_dev13_eq)) $$ [Hst HO]
  · isplitr; · iexact Hrec
    isplitl [Hst]; · iexact Hst
    iexists _; iexact HO
  iintro ⟨Hst, ⟨%W4, HO⟩⟩
  iapply (send_block m ρ K c (5 : Dev nD) 5 6 rfl rfl (k0_cond14 c) (cond14_iff c)
      (hsrc := fun h => send_slice_eq c (k0_off13 c) (k0_off13_eq c) (k0_off13_inb c h))
      (hdst := fun h => send_slice_eq c (k0_off13 c) (k0_off13_eq c) (k0_off13_inb c h))
      (hS := rfl) (hR := fun h => recv_sem_eq c (k0_off12 c) (k0_off12_eq c) (k0_off12_inb c h))
      (dv := fun h => ⟨k0_dev14, k0_dev14_lt c h⟩) (hdv := fun h => Fin.ext k0_dev14_eq)) $$ [Hst HO]
  · isplitr; · iexact Hrec
    isplitl [Hst]; · iexact Hst
    iexists _; iexact HO
  iintro ⟨Hst, ⟨%W5, HO⟩⟩
  iapply (send_block m ρ K c (6 : Dev nD) 6 7 rfl rfl (k0_cond15 c) (cond15_iff c)
      (hsrc := fun h => send_slice_eq c (k0_off15 c) (k0_off15_eq c) (k0_off15_inb c h))
      (hdst := fun h => send_slice_eq c (k0_off15 c) (k0_off15_eq c) (k0_off15_inb c h))
      (hS := rfl) (hR := fun h => recv_sem_eq c (k0_off14 c) (k0_off14_eq c) (k0_off14_inb c h))
      (dv := fun h => ⟨k0_dev15, k0_dev15_lt c h⟩) (hdv := fun h => Fin.ext k0_dev15_eq)) $$ [Hst HO]
  · isplitr; · iexact Hrec
    isplitl [Hst]; · iexact Hst
    iexists _; iexact HO
  iintro ⟨Hst, ⟨%W6, HO⟩⟩
  iapply (send_block m ρ K c (7 : Dev nD) 7 8 rfl rfl (k0_cond16 c) (cond16_iff c)
      (hsrc := fun h => send_slice_eq c (k0_off17 c) (k0_off17_eq c) (k0_off17_inb c h))
      (hdst := fun h => send_slice_eq c (k0_off17 c) (k0_off17_eq c) (k0_off17_inb c h))
      (hS := rfl) (hR := fun h => recv_sem_eq c (k0_off16 c) (k0_off16_eq c) (k0_off16_inb c h))
      (dv := fun h => ⟨k0_dev16, k0_dev16_lt c h⟩) (hdv := fun h => Fin.ext k0_dev16_eq)) $$ [Hst HO]
  · isplitr; · iexact Hrec
    isplitl [Hst]; · iexact Hst
    iexists _; iexact HO
  iintro ⟨Hst, ⟨%W7, HO⟩⟩
  iapply (le_wp_ret frame (wpE (defs₀ (F := F)) 𝒱₀ (c : Thread nD τ) none) Set.univ PUnit.unit Ψ)
  iapply Hk
  unfold mid2
  isplitl [Hpos]; · iexact Hpos
  isplitl [Hst]; · iapply (stage_sent m ρ c) $$ Hst
  isplitl [Hown]; · iexact Hown
  isplitl [HO]
  · iexists W7
    iapply (owes_end c W7) $$ HO
  isplitl [Hx]; · iexact Hx
  iexact Hout

/-- info: 'Cert.KernelIdeal.Proto.part2_spec' depends on axioms: [propext, Classical.choice, Quot.sound] -/
#guard_msgs in #print axioms part2_spec

end Cert.KernelIdeal.Proto

end
-- ==== Proof.Part3.lean ====
/-
  The third stretch of a device's body: the waits for the copies, the load of the gathered buffer, the store of the result.

  The stretch is eight blocks, one per device `p` of the mesh, and a tail. Block `p` runs only on the other devices:
  there it waits for `p`'s row to have landed and for the copy to `p` to have been read out of the own row; the first
  wait hands over row `p` holding `p`'s partial sum, the second the share of the own row that copy read through; each
  cell is closed behind its wait, its counter at zero. On device `p` itself the block is empty and the two cells no
  copy uses are closed as they stand. Between the blocks the state is one family over the devices: below the
  position, done; from it on, still to do. After the last block the eight shares of the own row are the row, the
  eight rows are the buffer, and the tail loads it, reduces it over its rows and stores the result.
-/
import proofs.«901082_g7700000000001083_dist_sum_ax0_shard0_i_m1536_n768_v7x_i8_f32_1_alg».proof.Proof.BodyDefs
import proofs.«901082_g7700000000001083_dist_sum_ax0_shard0_i_m1536_n768_v7x_i8_f32_1_alg».proof.Proof.Rows

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace P3

/-! ## The state between the waits -/

/-- Before the waits for device `p`'s copies: the positions in the two cells and, for another device, their credit tokens. -/
def todo3 (c p : Dev nD) : sProp 𝕄 :=
  iprop(atPos ER (recvCell c p) 0 ∅ 0 ∗ atPos ER (sendCell c p) 0 ∅ 0
    ∗ (if p = c then iprop(emp) else iprop(cred (tallyAt (sendCell c p) () N) ∗ cred (tallyAt (recvCell c p) () N))))

/-- After them: the two cells closed and, for another device, the share of the own row its copy read through and
    its row, landed. -/
def done3 (c p : Dev nD) : sProp 𝕄 :=
  iprop(semVal (recvCell c p) 0 ∗ semVal (sendCell c p) 0
    ∗ (if p = c then iprop(emp) else iprop(rowPts c c (sh p) (gathered m ρ c) ∗ rowPts c p fullShare (gathered m ρ c))))

/-- When the devices below position `n` are done. -/
def st3 (c : Dev nD) (n : ℕ) : sProp 𝕄 :=
  bigSep Finset.univ fun p : Dev nD => if n ≤ p.val then todo3 (F := F) c p else done3 m ρ c p

-- the schedule's tables: what each cell's round expects, its duties, their amounts and payloads
attribute [local sl_rounds] expect_recv expect_send duties_recv duties_send payload_recv payload_send amount_recv amount_send rest_recv rest_send

/-- One device's two cells out of the state, and the state one position on for them done. -/
theorem st3_step (c p : Dev nD) :
    st3 m ρ c p.val ⊢ iprop(todo3 (F := F) c p ∗ (done3 m ρ c p -∗ st3 m ρ c (p.val + 1))) := by
  have h := bigSep_univ_update (M := 𝕄)
    (Φ := fun q : Dev nD => if p.val ≤ q.val then todo3 (F := F) c q else done3 m ρ c q)
    (Ψ := fun q : Dev nD => if p.val + 1 ≤ q.val then todo3 (F := F) c q else done3 m ρ c q) p
    (fun j hj => by
      have hne : j.val ≠ p.val := fun e => hj (Fin.ext e)
      exact if_congr ⟨fun a => by omega, fun a => by omega⟩ rfl rfl)
  simp only [if_pos (le_refl p.val), if_neg (Nat.not_succ_le_self p.val)] at h
  exact h

theorem todo3_ne {c p : Dev nD} (hp : p ≠ c) :
    todo3 (F := F) c p ⊢ iprop(atPos ER (recvCell c p) 0 ∅ 0 ∗ atPos ER (sendCell c p) 0 ∅ 0
      ∗ cred (tallyAt (sendCell c p) () N) ∗ cred (tallyAt (recvCell c p) () N)) := by
  unfold todo3; rw [if_neg hp]
theorem todo3_self (c : Dev nD) :
    todo3 (F := F) c c ⊢ iprop(atPos ER (recvCell c c) 0 ∅ 0 ∗ atPos ER (sendCell c c) 0 ∅ 0) := by
  unfold todo3; rw [if_pos rfl]
  iintro ⟨H1, H2, -⟩
  isplitl [H1]; · iexact H1
  iexact H2
theorem done3_ne {c p : Dev nD} (hp : p ≠ c) :
    iprop(semVal (recvCell c p) 0 ∗ semVal (sendCell c p) 0
      ∗ rowPts c c (sh p) (gathered m ρ c) ∗ rowPts c p fullShare (gathered m ρ c)) ⊢ done3 m ρ c p := by
  unfold done3; rw [if_neg hp]
theorem done3_self (c : Dev nD) :
    iprop(semVal (recvCell c c) 0 ∗ semVal (sendCell c c) 0) ⊢ done3 m ρ c c := by
  unfold done3; rw [if_pos rfl]
  iintro ⟨H1, H2⟩
  isplitl [H1]; · iexact H1
  isplitl [H2]; · iexact H2
  iempintro

theorem records_recv (K : Dev nD × CK → ℕ) (c p : Dev nD) :
    records m ρ K ⊢ cellInv ER (rd m ρ) (K (c, some (true, p))) (recvCell c p) := by
  unfold records
  have h : bigSep Finset.univ (fun ck : Dev nD × CK => cellInv ER (rd (F := F) m ρ) (K ck) (kcell ck))
      ⊢ cellInv ER (rd (F := F) m ρ) (K (c, some (true, p))) (recvCell c p) :=
    bigSep_elim (Finset.mem_univ ((c, some (true, p)) : Dev nD × CK))
  exact sep_elim_left.trans h

theorem records_send (K : Dev nD × CK → ℕ) (c p : Dev nD) :
    records m ρ K ⊢ cellInv ER (rd m ρ) (K (c, some (false, p))) (sendCell c p) := by
  unfold records
  have h : bigSep Finset.univ (fun ck : Dev nD × CK => cellInv ER (rd (F := F) m ρ) (K ck) (kcell ck))
      ⊢ cellInv ER (rd (F := F) m ρ) (K (c, some (false, p))) (sendCell c p) :=
    bigSep_elim (Finset.mem_univ ((c, some (false, p)) : Dev nD × CK))
  exact sep_elim_left.trans h

theorem rest_recv_e {c j : Dev nD} (h : j ≠ c) :
    bigSep ((rd (F := F) m ρ).duties (recvCell c j) 0 \ ∅) (fun d => (rd (F := F) m ρ).payload (recvCell c j) 0 d)
      ⊢ rowPts c j fullShare (gathered m ρ c) := Entails.of_eq (rest_recv m ρ c j h)
theorem rest_send_e {c j : Dev nD} (h : j ≠ c) :
    bigSep ((rd (F := F) m ρ).duties (sendCell c j) 0 \ ∅) (fun d => (rd (F := F) m ρ).payload (sendCell c j) 0 d)
      ⊢ rowPts c c (sh j) (gathered m ρ c) := Entails.of_eq (rest_send m ρ c j h)

/-- One block of the last stretch, for another device: the wait for its row to land and the wait for the copy to it
    to have been read out, each cell then closed. -/
theorem wait_block_ne {α : Type} (K : Dev nD × CK → ℕ) (c p : Dev nD) (hp : p ≠ c)
    (a1 b1 a2 b2 : Memref sig .tc .vmem S1x768 .f32)
    (ha1 : a1.view.WordExact) (hb1 : b1.view.WordExact) (ha2 : a2.view.WordExact) (hb2 : b2.view.WordExact)
    (hc1 : b1.view.dmaCredit = N) (hc2 : b2.view.dmaCredit = N)
    (rest : Prog (TpuEff nD τ sig (Elt F) Λ₀ .tc) α) (Ψ : α → sProp 𝕄) :
    iprop(records m ρ K ∗ st3 m ρ c p.val ∗ (∃ W, owes (c : Thread nD τ) 0 W))
      ⊢ iprop(((st3 m ρ c (p.val + 1) ∗ (∃ W, owes (c : Thread nD τ) 0 W))
            -∗ wp frame (wpE (defs₀ (F := F)) 𝒱₀ c none) Set.univ rest Ψ)
          -∗ wp frame (wpE (defs₀ (F := F)) 𝒱₀ c none) Set.univ
              (.op (.waitDma2 (recvS p) a1 b1 ha1 hb1) fun _ => .op (.waitDma2 (sendS p) a2 b2 ha2 hb2) fun _ => rest) Ψ) := by
  iintro ⟨#HK, Hst, HO⟩ Hk
  ihave #HIr := (records_recv m ρ K c p) $$ HK
  ihave #HIs := (records_send m ρ K c p) $$ HK
  ihave Hst := (st3_step m ρ c p) $$ Hst
  icases Hst with ⟨Htodo, Hback⟩
  icases HO with ⟨%W, HO⟩
  ihave Htodo := (todo3_ne hp) $$ Htodo
  icases Htodo with ⟨Hatr, Hats, Hcs, Hcr⟩
  sl_exec
  imod (cell_close ER (rd m ρ) (κ := K (c, some (true, p))) (g := recvCell c p) (Set.mem_univ _) (fun h => h) (R := 1)
    (fun r hr => duties_later m ρ _ r hr)) $$ [Hatr] with Hsvr
  · isplitr; · iexact HIr
    iexact Hatr
  imod (cell_close ER (rd m ρ) (κ := K (c, some (false, p))) (g := sendCell c p) (Set.mem_univ _) (fun h => h) (R := 1)
    (fun r hr => duties_later m ρ _ r hr)) $$ [Hats] with Hsvs
  · isplitr; · iexact HIs
    iexact Hats
  unfold sendPay recvPay
  iapply Hk
  isplitr [HO]
  · iapply Hback
    iapply (done3_ne m ρ hp)
    isplitl [Hsvr]; · iexact Hsvr
    isplitl [Hsvs]; · iexact Hsvs
    isplitl [Hats_pay1]; · iexact Hats_pay1
    iexact Hatr_pay1
  · iexists _; iexact HO

/-- The block for the device itself: nothing runs, and its two unused cells are closed. -/
theorem wait_block_self {α : Type} (K : Dev nD × CK → ℕ) (c : Dev nD)
    (rest : Prog (TpuEff nD τ sig (Elt F) Λ₀ .tc) α) (Ψ : α → sProp 𝕄) :
    iprop(records m ρ K ∗ st3 m ρ c c.val ∗ (∃ W, owes (c : Thread nD τ) 0 W))
      ⊢ iprop(((st3 m ρ c (c.val + 1) ∗ (∃ W, owes (c : Thread nD τ) 0 W))
            -∗ wp frame (wpE (defs₀ (F := F)) 𝒱₀ c none) Set.univ rest Ψ)
          -∗ wp frame (wpE (defs₀ (F := F)) 𝒱₀ c none) Set.univ rest Ψ) := by
  iintro ⟨#HK, Hst, HO⟩ Hk
  ihave #HIr := (records_recv m ρ K c c) $$ HK
  ihave #HIs := (records_send m ρ K c c) $$ HK
  ihave Hst := (st3_step m ρ c c) $$ Hst
  icases Hst with ⟨Htodo, Hback⟩
  ihave Htodo := (todo3_self c) $$ Htodo
  icases Htodo with ⟨Hatr, Hats⟩
  imod (cell_close ER (rd m ρ) (κ := K (c, some (true, c))) (g := recvCell c c) (Set.mem_univ _) (fun h => h) (R := 0)
    (fun r hr => by
      rcases Nat.eq_zero_or_pos r with rfl | h1
      · exact duties_recv_self m ρ c
      · exact duties_later m ρ _ r h1)) $$ [Hatr] with Hsvr
  · isplitr; · iexact HIr
    iexact Hatr
  imod (cell_close ER (rd m ρ) (κ := K (c, some (false, c))) (g := sendCell c c) (Set.mem_univ _) (fun h => h) (R := 0)
    (fun r hr => by
      rcases Nat.eq_zero_or_pos r with rfl | h1
      · exact duties_send_self m ρ c
      · exact duties_later m ρ _ r h1)) $$ [Hats] with Hsvs
  · isplitr; · iexact HIs
    iexact Hats
  iapply Hk
  isplitr [HO]
  · iapply Hback
    iapply (done3_self m ρ c)
    isplitl [Hsvr]; · iexact Hsvr
    iexact Hsvs
  · iexact HO

/-- One block of the last stretch at a symbolic device and position, whatever runs after it. -/
theorem wait_block {α : Type} (K : Dev nD × CK → ℕ) (c p : Dev nD) (cond : BitVec 1) (hcond : cond = 1#1 ↔ p ≠ c)
    (sR sS : DmaSem sig) (hsR : sR = recvS p) (hsS : sS = sendS p)
    (a1 b1 a2 b2 : Memref sig .tc .vmem S1x768 .f32)
    (ha1 : a1.view.WordExact) (hb1 : b1.view.WordExact) (ha2 : a2.view.WordExact) (hb2 : b2.view.WordExact)
    (hc1 : b1.view.dmaCredit = N) (hc2 : b2.view.dmaCredit = N)
    (rest : Prog (TpuEff nD τ sig (Elt F) Λ₀ .tc) α) (Ψ : α → sProp 𝕄) :
    iprop(records m ρ K ∗ st3 m ρ c p.val ∗ (∃ W, owes (c : Thread nD τ) 0 W))
      ⊢ iprop(((st3 m ρ c (p.val + 1) ∗ (∃ W, owes (c : Thread nD τ) 0 W))
            -∗ wp frame (wpE (defs₀ (F := F)) 𝒱₀ c none) Set.univ rest Ψ)
          -∗ wp frame (wpE (defs₀ (F := F)) 𝒱₀ c none) Set.univ
              (if h : cond = 1#1 then
                  (Prog.lift (.waitDma2 sR a1 b1 ha1 hb1) >>= fun _ => Prog.lift (.waitDma2 sS a2 b2 ha2 hb2) >>= fun _ => rest)
                else rest) Ψ) := by
  by_cases h : cond = 1#1
  · rw [dif_pos h, Prog.bind_lift]
    simp only [Prog.bind_lift]
    subst hsR hsS
    exact wait_block_ne m ρ K c p (hcond.mp h) a1 b1 a2 b2 ha1 hb1 ha2 hb2 hc1 hc2 rest Ψ
  · rw [dif_neg h]
    have hp : p = c := not_not.mp (fun hne => h (hcond.mpr hne))
    subst hp
    exact wait_block_self m ρ K p rest Ψ

/-! ## Into and out of the state between the waits -/

theorem bigSep_bool (Φ : Bool → sProp 𝕄) : bigSep Finset.univ Φ = iprop(Φ true ∗ Φ false) := by
  rw [show (Finset.univ : Finset Bool) = {true, false} from by decide, bigSep_insert (by decide), bigSep_singleton]
  rfl

/-- A family over the sixteen own cells, as its receive half and its send half. -/
theorem bigSep_cells (Φ : Bool × Dev nD → sProp 𝕄) :
    bigSep Finset.univ Φ
      = iprop(bigSep Finset.univ (fun j : Dev nD => Φ (true, j)) ∗ bigSep Finset.univ (fun j : Dev nD => Φ (false, j))) := by
  rw [bigSep_univ_prod, bigSep_bool]

/-- A family over the devices that is empty at `c`, as the family over the other devices. -/
theorem bigSep_others (c : Dev nD) (Φ : Dev nD → sProp 𝕄) :
    bigSep Finset.univ (fun p : Dev nD => if p = c then iprop(emp) else Φ p) ⊣⊢ bigSep (Finset.univ.erase c) Φ := by
  rw [bigSep_univ_at (fun p : Dev nD => if p = c then iprop(emp) else Φ p) c, if_pos rfl,
    bigSep_congr (s := Finset.univ.erase c) (Φ := fun p : Dev nD => if p = c then iprop(emp) else Φ p) (Ψ := Φ)
      fun p hp => if_neg (Finset.ne_of_mem_erase hp)]
  exact emp_sep

theorem bigSep_others2 (c : Dev nD) (A B : Dev nD → sProp 𝕄) :
    bigSep Finset.univ (fun p : Dev nD => if p = c then iprop(emp) else iprop(A p ∗ B p))
      ⊢ iprop(bigSep (Finset.univ.erase c) A ∗ bigSep (Finset.univ.erase c) B) := by
  refine (bigSep_others c _).1.trans ?_
  rw [bigSep_sep']

/-- A family over the devices, from its member at `c` and the others. -/
theorem bigSep_put (c : Dev nD) (Φ : Dev nD → sProp 𝕄) :
    iprop(Φ c ∗ bigSep (Finset.univ.erase c) Φ) ⊢ bigSep Finset.univ Φ := by
  rw [bigSep_univ_at Φ c]

/-- Before the first wait nothing is done. -/
theorem st3_start (c : Dev nD) :
    iprop((bigSep Finset.univ fun bj : Bool × Dev nD => atPos ER (kcell (c, some bj)) 0 ∅ 0)
        ∗ (bigSep (Finset.univ.erase c) fun p => iprop(cred (tallyAt (sendCell c p) () N) ∗ cred (tallyAt (recvCell c p) () N))))
      ⊢ st3 m ρ c 0 := by
  have e : st3 m ρ c 0 = iprop(bigSep Finset.univ (fun p : Dev nD => atPos ER (recvCell c p) 0 ∅ 0)
      ∗ bigSep Finset.univ (fun p : Dev nD => atPos ER (sendCell c p) 0 ∅ 0)
      ∗ bigSep Finset.univ (fun p : Dev nD => if p = c then iprop(emp)
          else iprop(cred (tallyAt (sendCell c p) () N) ∗ cred (tallyAt (recvCell c p) () N)))) := by
    unfold st3
    rw [bigSep_congr (s := Finset.univ) (Ψ := fun p : Dev nD => todo3 (F := F) c p) fun p _ => if_pos (Nat.zero_le _)]
    unfold todo3
    rw [bigSep_sep', bigSep_sep']
  rw [e, bigSep_cells]
  iintro ⟨⟨Hr, Hs⟩, Hc⟩
  isplitl [Hr]; · iexact Hr
  isplitl [Hs]; · iexact Hs
  iapply (bigSep_others c _).2
  iexact Hc

/-- After the last wait everything is done: the sixteen cells are closed, and the seven rows landed, the seven
    shares come back and the share kept are the whole buffer. -/
theorem st3_end (c : Dev nD) :
    iprop(st3 m ρ c 8 ∗ rowPts c c (sh c) (gathered m ρ c)) ⊢ Φ₁ m ρ c := by
  have e : st3 m ρ c 8 = iprop(bigSep Finset.univ (fun p : Dev nD => semVal (recvCell c p) 0)
      ∗ bigSep Finset.univ (fun p : Dev nD => semVal (sendCell c p) 0)
      ∗ bigSep Finset.univ (fun p : Dev nD => if p = c then iprop(emp)
          else iprop(rowPts c c (sh p) (gathered m ρ c) ∗ rowPts c p fullShare (gathered m ρ c)))) := by
    unfold st3
    rw [bigSep_congr (s := Finset.univ) (Ψ := fun p : Dev nD => done3 m ρ c p)
      fun p _ => if_neg (by have h8 : p.val < 8 := p.isLt; omega)]
    unfold done3
    rw [bigSep_sep', bigSep_sep']
  unfold Φ₁
  rw [e, bigSep_cells]
  iintro ⟨⟨Hr, Hs, Hy⟩, Hown⟩
  ihave Hy := (bigSep_others2 c _ _) $$ Hy
  icases Hy with ⟨Hsh, Hrows⟩
  isplitl [Hsh Hrows Hown]
  · iapply (rows_split c fullShare (gathered m ρ c)).2
    iapply (bigSep_put c (fun k : Dev nD => rowPts c k fullShare (gathered m ρ c)))
    isplitl [Hsh Hown]
    · iapply (row_shares c c (gathered m ρ c)).2
      iapply (bigSep_put c (fun j : Dev nD => rowPts c c (sh j) (gathered m ρ c)))
      isplitl [Hown]; · iexact Hown
      iexact Hsh
    · iexact Hrows
  · isplitl [Hr]; · iexact Hr
    iexact Hs

/-- The gathered buffer held whole, as the memref it is loaded through sees it; -/
theorem buf_view (c : Dev nD) (f : Buf (Elt F) ((c : Thread nD τ).loc cc0_scratch0)) :
    ((((c : Thread nD τ).loc cc0_scratch0) ↦{fullShare} f) : sProp 𝕄)
      ⊢ ((rM : Memref sig .tc .vmem S8x1x768 .f32).view.loc (c : Thread nD τ) ↦[Finset.univ]{fullShare} f) := .rfl
theorem view_buf (c : Dev nD) (f : Buf (Elt F) ((c : Thread nD τ).loc cc0_scratch0)) :
    (((rM : Memref sig .tc .vmem S8x1x768 .f32).view.loc (c : Thread nD τ) ↦[Finset.univ]{fullShare} f) : sProp 𝕄)
      ⊢ (((c : Thread nD τ).loc cc0_scratch0) ↦{fullShare} f) := .rfl
/-- the result's staging buffer likewise. -/
theorem out_view (c : Dev nD) (f : Buf (Elt F) ((c : Thread nD τ).loc cc0_stg1_0)) :
    ((((c : Thread nD τ).loc cc0_stg1_0) ↦{fullShare} f) : sProp 𝕄)
      ⊢ ((oM : Memref sig .tc .vmem S1x768 .f32).view.loc (c : Thread nD τ) ↦[Finset.univ]{fullShare} f) := .rfl
theorem view_out (c : Dev nD) (f : Buf (Elt F) ((c : Thread nD τ).loc cc0_stg1_0)) :
    (((oM : Memref sig .tc .vmem S1x768 .f32).view.loc (c : Thread nD τ) ↦[Finset.univ]{fullShare} f) : sProp 𝕄)
      ⊢ (((c : Thread nD τ).loc cc0_stg1_0) ↦{fullShare} f) := .rfl

/-- What the last store leaves in the result's staging buffer: the gathered buffer reduced over its rows. -/
theorem out_value (c : Dev nD) (fo : Buf (Elt F) ((c : Thread nD τ).loc cc0_stg1_0))
    (inb1 : ∀ a, (![0, 0] : Fin 2 → Nat) a + S1x768.size a ≤ S1x768.size a)
    (inb2 : ∀ a, (![0, 0, 0] : Fin 3 → Nat) a + S8x1x768.size a ≤ S8x1x768.size a) :
    (oM : Memref sig .tc .vmem S1x768 .f32).view.writes (Elt F) fo
        [⟨Rect.unit ![0, 0] S1x768.size inb1,
          k0_pay3 ((rM : Memref sig .tc .vmem S8x1x768 .f32).view.readAt (Elt F)
            (Rect.unit ![0, 0, 0] S8x1x768.size inb2).toLoadRect (gathered m ρ c))⟩]
      = outAt m ρ c := by
  have h2 : (![0, 0] : Fin 2 → Nat) = fun _ => 0 := by funext a; fin_cases a <;> rfl
  have h3 : (![0, 0, 0] : Fin 3 → Nat) = fun _ => 0 := by funext a; fin_cases a <;> rfl
  rw [View.writes_singleton]
  refine (Memref.write_access_unit_zero_univ (Elt F) cc0_stg1_0 h2 inb1 fo _).trans ?_
  exact congrArg k0_pay3 (Memref.readAt_unit_zero (Elt F) cc0_scratch0 h3 inb2 (gathered m ρ c))

/-! ## The stretch -/

/-- The condition of block `p`: the device is not device `p`. -/
theorem cnd_iff (c p : Dev nD) :
    Scalar.cmpi .ne (Scalar.extui (Scalar.cmpi .ne (posWord c) (BitVec.ofNat 32 p.val)) : BitVec 32) 0#32 = 1#1 ↔ p ≠ c := by
  revert c p; decide +kernel

/-- A copy of one row credits its semaphores the row's credit. -/
theorem rowM_credit (k : Dev nD) : (rowM k).view.dmaCredit = N := rfl

end P3

open P3 in
theorem part3_spec (K : Dev nD × CK → ℕ) (c : Dev nD) (Ψ : PUnit → sProp 𝕄) :
    iprop(records m ρ K ∗ mid2 m ρ c)
      ⊢ iprop((post3 m ρ c -∗ Ψ ⟨⟩)
          -∗ wp frame (wpE (defs₀ (F := F)) 𝒱₀ c none) Set.univ
              (k0_part3 (F := F) (Memref.whole cc0_stg0_0) (Memref.isWhole_whole _) (Memref.whole cc0_stg1_0) (Memref.isWhole_whole _)
                (Memref.whole cc0_scratch0) (Memref.isWhole_whole _) cc0_scratch1 cc0_scratch2 (posWord c)) Ψ) := by
  rw [k0_part3_eq_skeleton]
  unfold k0_part3_skel mid2
  iintro ⟨#HK, Hat, Hcr, Hown, HO, Hx, Hout⟩ Hk
  ihave Hst := (st3_start m ρ c) $$ [Hat Hcr]
  · isplitl [Hat]; · iexact Hat
    iexact Hcr
  iapply (wait_block m ρ K c (0 : Dev nD) _ (cnd_iff c 0) _ _ rfl rfl _ _ _ _ _ _ _ _ (rowM_credit 0) (rowM_credit 0) _ _) $$ [Hst HO]
  · isplitr; · iexact HK
    isplitl [Hst]; · iexact Hst
    iexact HO
  iintro ⟨Hst, HO⟩
  iapply (wait_block m ρ K c (1 : Dev nD) _ (cnd_iff c 1) _ _ rfl rfl _ _ _ _ _ _ _ _ (rowM_credit 1) (rowM_credit 1) _ _) $$ [Hst HO]
  · isplitr; · iexact HK
    isplitl [Hst]; · iexact Hst
    iexact HO
  iintro ⟨Hst, HO⟩
  iapply (wait_block m ρ K c (2 : Dev nD) _ (cnd_iff c 2) _ _ rfl rfl _ _ _ _ _ _ _ _ (rowM_credit 2) (rowM_credit 2) _ _) $$ [Hst HO]
  · isplitr; · iexact HK
    isplitl [Hst]; · iexact Hst
    iexact HO
  iintro ⟨Hst, HO⟩
  iapply (wait_block m ρ K c (3 : Dev nD) _ (cnd_iff c 3) _ _ rfl rfl _ _ _ _ _ _ _ _ (rowM_credit 3) (rowM_credit 3) _ _) $$ [Hst HO]
  · isplitr; · iexact HK
    isplitl [Hst]; · iexact Hst
    iexact HO
  iintro ⟨Hst, HO⟩
  iapply (wait_block m ρ K c (4 : Dev nD) _ (cnd_iff c 4) _ _ rfl rfl _ _ _ _ _ _ _ _ (rowM_credit 4) (rowM_credit 4) _ _) $$ [Hst HO]
  · isplitr; · iexact HK
    isplitl [Hst]; · iexact Hst
    iexact HO
  iintro ⟨Hst, HO⟩
  iapply (wait_block m ρ K c (5 : Dev nD) _ (cnd_iff c 5) _ _ rfl rfl _ _ _ _ _ _ _ _ (rowM_credit 5) (rowM_credit 5) _ _) $$ [Hst HO]
  · isplitr; · iexact HK
    isplitl [Hst]; · iexact Hst
    iexact HO
  iintro ⟨Hst, HO⟩
  iapply (wait_block m ρ K c (6 : Dev nD) _ (cnd_iff c 6) _ _ rfl rfl _ _ _ _ _ _ _ _ (rowM_credit 6) (rowM_credit 6) _ _) $$ [Hst HO]
  · isplitr; · iexact HK
    isplitl [Hst]; · iexact Hst
    iexact HO
  iintro ⟨Hst, HO⟩
  iapply (wait_block m ρ K c (7 : Dev nD) _ (cnd_iff c 7) _ _ rfl rfl _ _ _ _ _ _ _ _ (rowM_credit 7) (rowM_credit 7) _ _) $$ [Hst HO]
  · isplitr; · iexact HK
    isplitl [Hst]; · iexact Hst
    iexact HO
  iintro ⟨Hst, HO⟩
  ihave HΦ := (st3_end m ρ c) $$ [Hst Hown]
  · isplitl [Hst]; · iexact Hst
    iexact Hown
  unfold Φ₁
  icases HΦ with ⟨Hbuf, Hsems⟩
  icases Hout with ⟨%g, %fo, -, Hout⟩
  ihave Hbuf := (buf_view c _) $$ Hbuf
  ihave Hout := (out_view c _) $$ Hout
  sl_exec
  rw [wp_ret]
  imodintro
  iapply Hk
  unfold post3 Φ₁
  isplitl [Hbuf Hsems]
  · isplitl [Hbuf]; · iapply (view_buf c _); iexact Hbuf
    iexact Hsems
  isplitl [HO]; · iexact HO
  isplitl [Hx]; · iexact Hx
  iexists _
  isplitr
  rotate_left
  · iapply (view_out c _); iexact Hout
  · ipureintro; exact out_value m ρ c fo _ _

/-- info: 'Cert.KernelIdeal.Proto.part3_spec' depends on axioms: [propext, Classical.choice, Quot.sound] -/
#guard_msgs in #print axioms part3_spec

end Cert.KernelIdeal.Proto

end
-- ==== Proof.Body.lean ====
/-
  One device's body: its three stretches in a row, as the pipeline's body obligation.
-/
import proofs.«901082_g7700000000001083_dist_sum_ax0_shard0_i_m1536_n768_v7x_i8_f32_1_alg».proof.Proof.Part1
import proofs.«901082_g7700000000001083_dist_sum_ax0_shard0_i_m1536_n768_v7x_i8_f32_1_alg».proof.Proof.Part2
import proofs.«901082_g7700000000001083_dist_sum_ax0_shard0_i_m1536_n768_v7x_i8_f32_1_alg».proof.Proof.Part3

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := fetch0_0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × CK → ℕ)

/-- What the pipeline hands the body at the one point: the ghost state at the names `K`, the credit tokens, the levels,
    the gathered buffer, what the device owes, and the two staging buffers. -/
def bodyPre (c : Dev nD) : sProp 𝕄 :=
  iprop((ghost m ρ K c ∗ cred (tallyAt (barCell c) () 7) ∗ (bigSep (Finset.univ.erase c) fun p => cred (tallyAt (recvCell c p) () N))
      ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxHeartbeats 800000 in
/-- The body from `bodyPre` to `bodyPost`: the three stretches one after the other. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
                (Memref.whole cc0_scratch0) (Memref.isWhole_whole _) cc0_scratch1 cc0_scratch2) Kt := by
  unfold bodyPre ghost linear
  iintro ⟨⟨⟨⟨#Hrec, Hpos, Htok⟩, HcB, HcR, #Hlev, Hscr⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold cc0_body
  rw [wp_bind]
  iapply (part1_spec m ρ K c _) $$ [Hpos Htok HcB HcR Hscr HO Hx Hout]
  · isplitr; · iexact Hrec
    unfold pre1
    isplitl [Hpos]; · iexact Hpos
    isplitl [Htok]; · iexact Htok
    isplitl [HcB]; · iexact HcB
    isplitl [HcR]; · iexact HcR
    isplitl [Hscr]; · iexact Hscr
    isplitl [HO]; · iexists W; iexact HO
    isplitl [Hx]
    · iexists _; isplitr; · (ipureintro; rfl)
      iexact Hx
    · iexists g1; iexists g1; isplitr; · (ipureintro; rfl)
      iexact Hout
  iintro Hm1
  dsimp only
  rw [wp_bind]
  iapply (part2_spec m ρ K c _) $$ [Hm1]
  · isplitr; · iexact Hrec
    isplitr; · iexact Hlev
    iexact Hm1
  iintro Hm2
  rw [wp_bind]
  iapply (part3_spec m ρ K c _) $$ [Hm2]
  · isplitr; · iexact Hrec
    iexact Hm2
  iintro Hp3
  rw [Prog.pure_eq_ret, wp_ret]; imodintro
  iapply Hk
  unfold post3 bodyPost Dat.owesAt Pipeline.owesWithin
  rw [show (dats m ρ 0 c).owed t₀.succ = 0 from rfl]
  icases Hp3 with ⟨HΦ, ⟨%W', HO⟩, Hx, Hout⟩
  isplitl [HΦ]; · iexact HΦ
  isplitl [HO]
  · iexists W'
    isplitr; · ipureintro; exact fun _ _ => Or.inl trivial
    iexact HO
  isplitl [Hx]; · iexact Hx
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
                (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Proto.sound_body' depends on axioms: [propext, Classical.choice, Quot.sound] -/
#guard_msgs in #print axioms sound_body

/-- info: 'Cert.KernelIdeal.Proto.body_obligation' depends on axioms: [propext, Classical.choice, Quot.sound] -/
#guard_msgs in #print axioms body_obligation

end Cert.KernelIdeal.Proto

end
-- ==== Proof.Launch.lean ====
/-
  The launch of the all-devices sum: from "every device's body is proved" to the run of the whole program.

  The launch element is the pipeline's staging cells beside the exchange's cells: every device's barrier cell, its
  eight send cells and its eight receive cells, each at round 0, with one duty token per duty of the schedule. The
  global step puts every cell's counter, at zero, with its round state into an invariant, and deals the duty tokens
  to their PAYERS: the token of device `p`'s barrier duty `c` and of `p`'s receive duty for `c`'s row go to device
  `c`, which signals `p` and copies its row to `p`; the token of `c`'s send duty towards `p` stays with `c`. The
  regrouping is the exchange of the two device indices of a sum over the ordered pairs of distinct devices.

  The launch credit: every other device owes a device's barrier cell one unit (seven in all), and device `p` owes
  device `c`'s receive cell for `p` one row's credit.
-/
import proofs.«901082_g7700000000001083_dist_sum_ax0_shard0_i_m1536_n768_v7x_i8_f32_1_alg».proof.Proof.Proto

noncomputable section

namespace Cert.KernelIdeal.Proto

open Cert.KernelIdeal Cert.KernelIdeal.Gen Cert.KernelIdeal.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the arrays' shares -/

theorem ownSemFacts : Pipeline.OwnSemFacts cfg0.spec osem := by decide

theorem share_eq (c : Dev nD) (w : Fin cfg0.W) : (dats m ρ 0 c).share w = fullShare := by unfold Dat.share; split <;> rfl

/-! ## The exchange's cells and duty tokens -/

theorem csem_injective : Function.Injective csem := by
  intro a b h
  rcases a with _ | ⟨_ | _, i⟩ <;> rcases b with _ | ⟨_ | _, j⟩
  · rfl
  · exact absurd (show (SemLoc.dma (sendS j) : SemLoc sig) = .reg barS from h.symm) (send_ne_bar j)
  · exact absurd (show (SemLoc.dma (recvS j) : SemLoc sig) = .reg barS from h.symm) (recv_ne_bar j)
  · exact absurd (show (SemLoc.dma (sendS i) : SemLoc sig) = .reg barS from h) (send_ne_bar i)
  · have e := sendS_inj (SemLoc.dma.inj (show (SemLoc.dma (sendS i) : SemLoc sig) = .dma (sendS j) from h)); subst e; rfl
  · exact absurd (SemLoc.dma.inj (show (SemLoc.dma (sendS i) : SemLoc sig) = .dma (recvS j) from h)) (sendS_ne_recvS i j)
  · exact absurd (show (SemLoc.dma (recvS i) : SemLoc sig) = .reg barS from h) (recv_ne_bar i)
  · exact absurd (SemLoc.dma.inj (show (SemLoc.dma (recvS i) : SemLoc sig) = .dma (sendS j) from h)).symm (sendS_ne_recvS j i)
  · have e := recvS_inj (SemLoc.dma.inj (show (SemLoc.dma (recvS i) : SemLoc sig) = .dma (recvS j) from h)); subst e; rfl

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's seventeen cells. -/
def allCells : Finset (GSem nD τ sig) := Finset.univ.map ⟨kcell, kcell_injective⟩

/-- The duty token of device `x.1`'s cell of kind `x.2.2` towards device `x.2.1`: the barrier cell's (`none`) duties are
    named by their payers, a send (`some false`) or receive (`some true`) cell's one duty is `0`. -/
def tokOf (x : Dev nD × Dev nD × Option Bool) : GSem nD τ sig × ℕ × Dev nD :=
  (kcell (x.1, x.2.2.map fun b => (b, x.2.1)), 0, match x.2.2 with | none => x.2.1 | some _ => 0)

theorem tokOf_injective : Function.Injective tokOf := by
  rintro ⟨c, d, κ⟩ ⟨c', d', κ'⟩ h
  have h1 : (c, κ.map fun b => (b, d)) = (c', κ'.map fun b => (b, d')) :=
    kcell_injective (congrArg (fun x : GSem nD τ sig × ℕ × Dev nD => x.1) h)
  have hc : c = c' := congrArg Prod.fst h1
  have hk : (κ.map fun b => (b, d)) = κ'.map fun b => (b, d') := congrArg Prod.snd h1
  subst hc
  rcases κ with _ | b <;> rcases κ' with _ | b'
  · have hd : d = d' := congrArg (fun x : GSem nD τ sig × ℕ × Dev nD => x.2.2) h
    subst hd; rfl
  · cases hk
  · cases hk
  · cases hk; rfl

/-- The schedule's duties: for every ordered pair of distinct devices, one of each kind. -/
def allToks : Finset (GSem nD τ sig × ℕ × Dev nD) :=
  (Finset.univ.filter fun x : Dev nD × Dev nD × Option Bool => x.2.1 ≠ x.1).map ⟨tokOf, tokOf_injective⟩

def u₀ : UU :=
  (initOf (Pipeline.cells cfgs cellOf_inj) (Pipeline.launchToks cfgs cellOf_inj), initOf allCells allToks)

/-- The duty tokens of device `c`'s own cells towards device `d`, as minted. -/
def ownToks (c d : Dev nD) : sProp 𝕄 :=
  iprop(dutyTok ER (barCell c) 0 d ∗ dutyTok ER (sendCell c d) 0 0 ∗ dutyTok ER (recvCell c d) 0 0)
def toks (c : Dev nD) : sProp 𝕄 := bigSep (Finset.univ.erase c) (ownToks (F := F) c)

/-- What the launch element deals device `c`. -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

/-- A sum over an optional index: the summand at no index, and the sum over the indices. -/
theorem bigSep_univ_option {β : Type} [Fintype β] [DecidableEq β] (Φ : Option β → sProp 𝕄) :
    bigSep Finset.univ Φ = iprop(Φ none ∗ bigSep Finset.univ fun b => Φ (some b)) := by
  rw [bigSep_univ_at Φ none,
    show (Finset.univ.erase (none : Option β)) = Finset.univ.map Function.Embedding.some from
      Finset.ext fun o => by cases o <;> simp,
    bigSep_map]
  rfl

theorem bigSep_toks :
    bigSep allToks (fun x => (dutyTok ER x.1 x.2.1 x.2.2 : sProp 𝕄)) = bigSep Finset.univ fun c : Dev nD => toks (F := F) c := by
  unfold allToks
  rw [bigSep_map, bigSep_filter, bigSep_univ_prod]
  refine bigSep_congr fun c _ => ?_
  unfold toks
  rw [← Finset.filter_ne' Finset.univ c, bigSep_filter, bigSep_univ_prod]
  refine bigSep_congr fun d _ => ?_
  show bigSep Finset.univ (fun κ : Option Bool =>
      if d ≠ c then (dutyTok ER (tokOf (c, d, κ)).1 (tokOf (c, d, κ)).2.1 (tokOf (c, d, κ)).2.2 : sProp 𝕄) else BI.emp)
    = if d ≠ c then ownToks (F := F) c d else BI.emp
  by_cases h : d ≠ c
  · simp only [if_pos h]
    rw [bigSep_univ_eq_bigSepL [none, some false, some true] (by decide) (by decide)]
    rfl
  · simp only [if_neg h]
    exact bigSep_emp_const _

theorem fund_cells : BI.own (ER (initOf allCells allToks)) ⊢ (|==> bigSep Finset.univ (G m ρ) : sProp 𝕄) := by
  iintro HX
  imod (Rounds.fund ER (rd m ρ) allCells allToks) $$ HX with ⟨Hst, Hr, Hat, Htok⟩
  imodintro
  ihave Hst' := (Entails.of_eq (bigSep_cells (F := F) fun g => roundState ER (rd m ρ) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq (bigSep_toks (F := F))) $$ Htok
  unfold G; simp only [bigSep_sep']
  isplitl [Hst']; · iexact Hst'
  isplitl [Hat' Hr']
  · isplitl [Hat'] <;> iassumption
  iexact Htok'

/-! ## The global step: every cell's invariant, and the tokens dealt to their payers -/

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of a device's seventeen cells, at zero: its own sixteen and the barrier semaphore's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k : CK => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ linear c) ⊢ G' m ρ c := by
  unfold G' ghost
  iintro H
  iexists K
  iexact H

/-- The tokens dealt: device `p`'s barrier duty `c` and its receive duty for `c`'s row change hands, from `p` to `c`. -/
theorem toks_swap : (bigSep Finset.univ fun c : Dev nD => (toks c : sProp 𝕄))
    ⊢ bigSep Finset.univ fun c : Dev nD => bigSep (Finset.univ.erase c) (payToks (F := F) c) := by
  have hL : (bigSep Finset.univ fun c : Dev nD => (toks c : sProp 𝕄))
      = iprop((bigSep Finset.univ fun c : Dev nD => bigSep (Finset.univ.erase c) fun d => (dutyTok ER (barCell c) 0 d : sProp 𝕄))
        ∗ (bigSep Finset.univ fun c : Dev nD => bigSep (Finset.univ.erase c) fun d => (dutyTok ER (sendCell c d) 0 0 : sProp 𝕄))
        ∗ (bigSep Finset.univ fun c : Dev nD => bigSep (Finset.univ.erase c) fun d => (dutyTok ER (recvCell c d) 0 0 : sProp 𝕄))) := by
    unfold toks ownToks; simp only [bigSep_sep']
  have hR : (bigSep Finset.univ fun c : Dev nD => bigSep (Finset.univ.erase c) (payToks (F := F) c))
      = iprop((bigSep Finset.univ fun c : Dev nD => bigSep (Finset.univ.erase c) fun p => (dutyTok ER (barCell p) 0 c : sProp 𝕄))
        ∗ (bigSep Finset.univ fun c : Dev nD => bigSep (Finset.univ.erase c) fun p => (dutyTok ER (recvCell p c) 0 0 : sProp 𝕄))
        ∗ (bigSep Finset.univ fun c : Dev nD => bigSep (Finset.univ.erase c) fun p => (dutyTok ER (sendCell c p) 0 0 : sProp 𝕄))) := by
    unfold payToks; simp only [bigSep_sep']
  rw [hL, hR,
    bigSep_erase_comm (fun c d : Dev nD => (dutyTok ER (barCell c) 0 d : sProp 𝕄)),
    bigSep_erase_comm (fun c d : Dev nD => (dutyTok ER (recvCell c d) 0 0 : sProp 𝕄))]
  iintro ⟨HB, HS, HR⟩
  isplitl [HB]; · iexact HB
  isplitl [HR]; · iexact HR
  iexact HS

theorem regroup :
    (bigSep Finset.univ fun c : Dev nD => iprop((bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_swap (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄))
        (fun c : Dev nD => bigSep (Finset.univ.erase c) (payToks (F := F) c))).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem barCell_injective : Function.Injective (barCell : Dev nD → GSem nD τ sig) :=
  fun a b h => congrArg (fun g : GSem nD τ sig => g.1.1) h

/-- What device `d` owes device `c`'s barrier cell: a unit, unless it is `c` itself. -/
theorem owed_bar (d c : Dev nD) : O₀ d (barCell c) () = if d ≠ c then 1 else 0 := by
  unfold O₀ Orcv Osig
  rw [Pi.add_apply, Finsupp.add_apply, stepSum_zero, stepSum_zero,
    Pipeline.sum_tallyAt_cells _ (cell := fun p : Dev nD => recvCell p d) (fun a b h => congrArg (fun g : GSem nD τ sig => g.1.1) h) () N,
    Pipeline.sum_tallyAt_cells _ (cell := barCell) barCell_injective () 1,
    if_neg (show ¬ ((∃ p ∈ Finset.univ.erase d, recvCell p d = barCell c) ∧ () = ()) from
      fun h => by obtain ⟨⟨p, -, hp⟩, -⟩ := h; exact recv_ne_bar d (congrArg Prod.snd hp)), Nat.zero_add]
  by_cases h : d ≠ c
  · rw [if_pos h, if_pos ⟨⟨c, Finset.mem_erase.mpr ⟨h.symm, Finset.mem_univ _⟩, rfl⟩, rfl⟩]
  · rw [if_neg h, if_neg]
    rintro ⟨⟨p, hp, e⟩, -⟩
    exact h (fun hdc => Finset.ne_of_mem_erase hp ((barCell_injective e).trans hdc.symm))

/-- What device `d` owes device `c`'s receive cell for device `p`: the row's credit, if it is `p` and not `c`. -/
theorem owed_recv (d c p : Dev nD) : O₀ d (recvCell c p) () = if d = p ∧ p ≠ c then N else 0 := by
  unfold O₀ Orcv Osig
  rw [Pi.add_apply, Finsupp.add_apply, stepSum_zero, stepSum_zero,
    Pipeline.sum_tallyAt_cells _ (cell := fun q : Dev nD => recvCell q d) (fun a b h => congrArg (fun g : GSem nD τ sig => g.1.1) h) () N,
    Pipeline.sum_tallyAt_cells _ (cell := barCell) barCell_injective () 1,
    if_neg (show ¬ ((∃ q ∈ Finset.univ.erase d, barCell q = recvCell c p) ∧ () = ()) from
      fun h => by obtain ⟨⟨q, -, hq⟩, -⟩ := h; exact recv_ne_bar p (congrArg Prod.snd hq).symm), Nat.add_zero]
  by_cases h : d = p ∧ p ≠ c
  · rw [if_pos h]
    obtain ⟨hdp, hpc⟩ := h
    subst hdp
    exact if_pos ⟨⟨c, Finset.mem_erase.mpr ⟨hpc.symm, Finset.mem_univ _⟩, rfl⟩, rfl⟩
  · rw [if_neg h]
    refine if_neg ?_
    rintro ⟨⟨q, hq, e⟩, -⟩
    have hqc : q = c := congrArg (fun g : GSem nD τ sig => g.1.1) e
    have hdp : d = p := recvS_inj (SemLoc.dma.inj (congrArg Prod.snd e))
    subst hqc hdp
    exact h ⟨rfl, (Finset.ne_of_mem_erase hq).symm⟩

theorem sum_others (c : Dev nD) : (∑ d : Dev nD, if d ≠ c then 1 else 0) = 7 := by
  rw [← Finset.sum_filter, Finset.filter_ne', Finset.sum_const, Finset.card_erase_of_mem (Finset.mem_univ c), Finset.card_univ,
    Fintype.card_fin, smul_eq_mul, mul_one]
  rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_congr rfl (fun d _ => show (if d = p ∧ p ≠ c then N else 0) = if d = p then N else 0 from if_congr (and_iff_left h) rfl rfl),
    Finset.sum_ite_eq' Finset.univ p fun _ => N, if_pos (Finset.mem_univ _)]

/-- The credit tokens the launch deals device `c`: seven units on its barrier cell, a row's credit on its receive cell
    for every other device. -/
theorem creds (c : Dev nD) :
    (Pipeline.launchCred O₀ c : sProp 𝕄)
      ⊢ iprop(cred (tallyAt (barCell c) () 7) ∗ bigSep (Finset.univ.erase c) fun p => cred (tallyAt (recvCell c p) () N)) := by
  unfold Pipeline.launchCred
  rw [bigSep_univ_at _ (SemLoc.reg barS), launch_bar]
  refine sep_mono_right ?_
  have hsub : (Finset.univ.erase c).map ⟨fun p : Dev nD => (SemLoc.dma (recvS p) : SemLoc sig), fun a b h => recvS_inj (SemLoc.dma.inj h)⟩
      ⊆ Finset.univ.erase (SemLoc.reg barS) := by
    intro sm hsm
    obtain ⟨p, -, rfl⟩ := Finset.mem_map.mp hsm
    exact Finset.mem_erase.mpr ⟨recv_ne_bar p, Finset.mem_univ _⟩
  refine (bigSep_subset hsub).trans ?_
  rw [bigSep_map]
  exact bigSep_mono fun p hp => Entails.of_eq (congrArg cred (launch_recv c p (Finset.ne_of_mem_erase hp)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G'
  isplitl
  · isplitl [HG]; · iexact HG
    isplitl [H7]; · iexact H7
    isplitl [HN]; · iexact HN
    iexact Hlev
  · iempintro

/-- At the point: what the launch made, and the gathered buffer at whatever it holds. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- After the point: the sixteen own counters back at zero, the gathered buffer at what it holds. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (gathered m ρ c); iexact Hr

/-- The staging cells sit at level 0, below the barrier and receive cells a device owes at launch. -/
theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () = 0 := by fin_cases w <;> fin_cases s <;> rfl
    rcases t with ⟨_ | _, ht⟩
    · exact mayWait_low c _ hlv (O₀ c) fun g u hg => by
        rcases Pipeline.add_pos_cases hg with h | h
        · obtain ⟨p, -, rfl⟩ := Orcv_pos h; exact Or.inr ⟨p, c, rfl⟩
        · obtain ⟨p, -, rfl⟩ := Osig_pos h; exact Or.inl ⟨p, rfl⟩
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters, given every
    device's body: every weakly fair execution of the program — the eight kernels signalling one another's barrier
    semaphore, then exchanging their partial sums — terminates, and every final state has each device's arrays at the
    proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The staged block is the whole argument array: the window is the whole array, read at offsets zero. -/
theorem xstg_eq (c : Dev nD) : xstg m ρ c = m ((c : Thread nD τ).loc main_arg0) := by
  unfold xstg
  exact Memref.read_access_unit_zero (Elt F) main_arg0 (funext fun a => Nat.zero_mul _) _ _

/-- The argument array after the run holds what it held: no point writes it back. -/
theorem finalA_x (c : Dev nD) : finalA m ρ c (0 : Fin 2) = m ((c : Thread nD τ).loc main_arg0) :=
  (dats (F := F) m ρ 0 c).arrAt_in (0 : Fin 2) rfl _

/-- The result array after the run: the one point writes the whole of it back, from what the body left staged. -/
theorem finalA_out (c : Dev nD) : finalA m ρ c (1 : Fin 2) = outv (xs m ρ) := by
  unfold finalA
  rw [show cfg0.N = (t0_0 : Fin cfg0.N).val + 1 from rfl, Dat.arrAt_succ, if_pos (flush0_1 _)]
  exact Memref.write_access_unit_zero_univ (Elt F) main_v1 (funext fun a => Nat.zero_mul _) _ _ _

/-- The run, read at the two arrays: every device's result is the sum of all the blocks' rows, its argument unchanged. -/
theorem run_post (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = AllSum.outv (xs m ρ)
      ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩) (run_main m ρ hbody)

/-- info: 'Cert.KernelIdeal.Proto.run_main' depends on axioms: [propext, Classical.choice, Quot.sound] -/
#guard_msgs in #print axioms run_main

/-- info: 'Cert.KernelIdeal.Proto.xstg_eq' depends on axioms: [propext, Classical.choice, Quot.sound] -/
#guard_msgs in #print axioms xstg_eq

/-- info: 'Cert.KernelIdeal.Proto.run_post' depends on axioms: [propext, Classical.choice, Quot.sound] -/
#guard_msgs in #print axioms run_post

end Cert.KernelIdeal.Proto

end
-- ==== Proof.Bits.Spec.lean ====
/-
  What the all-devices sum computes, as pure functions of the devices' blocks.

  Every device reduces its own block of `x` over the rows (`part`), the eight partial sums are gathered in one
  buffer of eight rows, row `k` holding device `k`'s partial sum (`gath`), and every device reduces that buffer
  over its rows (`outv`): the sum of all the rows of all the blocks, the same on every device.
-/
import proofs.«901082_g7700000000001083_dist_sum_ax0_shard0_i_m1536_n768_v7x_i8_f32_1_alg».proof.Proof.Gen.Kernel.Skeleton

noncomputable section

namespace Cert.Kernel.AllSum

open Cert.Kernel Cert.Kernel.Gen
open Idealize.ShloMosaic

variable {F : FTy → Type} [FloatOps F]

/-- A device's partial sum: its block reduced over the rows, as a one-row piece of the gathered buffer. -/
def part (x : Vec F S1536x768 .f32) : FVec F S1x1x768 .f32 := k0_pay2 (k0_pay1 x)

/-- The row of the gathered buffer an index lies in. -/
def rowOf (i : S8x1x768.Idx) : Dev nD := ⟨(i 0).val, (i 0).isLt⟩

/-- An index of the gathered buffer, inside its row. -/
def inRow (i : S8x1x768.Idx) : S1x1x768.Idx := fun a =>
  match a with
  | ⟨0, _⟩ => ⟨0, (Nat.one_pos : 0 < 1)⟩
  | ⟨1, _⟩ => ⟨0, (Nat.one_pos : 0 < 1)⟩
  | ⟨2, _⟩ => ⟨(i 2).val, (i 2).isLt⟩

/-- The gathered buffer: row `k` holds device `k`'s partial sum. -/
def gath (xs : Dev nD → Vec F S1536x768 .f32) : Vec F S8x1x768 .f32 :=
  fun i => part (xs (rowOf i)) (inRow i)

/-- Every device's result: the gathered buffer reduced over its rows. -/
def outv (xs : Dev nD → Vec F S1536x768 .f32) : FVec F S1x768 .f32 := k0_pay3 (gath xs)

end Cert.Kernel.AllSum

end
-- ==== Proof.Bits.Proto.lean ====
/-
  The exchange protocol of the all-devices sum, under the rounds discipline.

  Eight devices. Device `c` (1) signals the barrier semaphore of every other device, (2) stores its partial sum in
  row `c` of its gathered buffer, (3) waits for seven units on its own barrier semaphore, (4) copies its row `c`
  into row `c` of every other device's buffer, (5) for every other device `p` waits for `p`'s row to land and for
  its own copy to `p` to have been read out, (6) reduces the gathered buffer over its rows.

  The cells: a device's barrier cell has one duty per other device `d`, of one unit, paid by `d`'s signal, which
  hands over row `c` of `d`'s buffer (where `c` will write) and that `d`'s receive cell for `c` stands at round 0.
  Send cell `(c, p)` has one duty of the row's credit, paid when the copy to `p` has been read out of `c`'s row; it
  gives back the share of row `c` the copy read through. Receive cell `(c, p)` has one duty of the row's credit,
  paid when `p`'s copy has landed in row `p` of `c`'s buffer; it gives `c` that row, holding `p`'s partial sum.
-/
import proofs.«901082_g7700000000001083_dist_sum_ax0_shard0_i_m1536_n768_v7x_i8_f32_1_alg».proof.Proof.Bits.Spec
import proofs.«901082_g7700000000001083_dist_sum_ax0_shard0_i_m1536_n768_v7x_i8_f32_1_alg».proof.Proof.Gen.Kernel
import proofs.«901082_g7700000000001083_dist_sum_ax0_shard0_i_m1536_n768_v7x_i8_f32_1_alg».proof.Proof.Gen.Kernel.Skeleton
import proofs.«901082_g7700000000001083_dist_sum_ax0_shard0_i_m1536_n768_v7x_i8_f32_1_alg».proof.Proof.Gen.Kernel.Launch
import proofs.«901082_g7700000000001083_dist_sum_ax0_shard0_i_m1536_n768_v7x_i8_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs and cells -/

abbrev xM : Memref sig .tc .vmem S1536x768 .f32 := Memref.whole cc0_stg0_0
abbrev oM : Memref sig .tc .vmem S1x768 .f32 := Memref.whole cc0_stg1_0
abbrev rM : Memref sig .tc .vmem S8x1x768 .f32 := Memref.whole cc0_scratch0

theorem row_inb (k : Dev nD) : ∀ a, (![k.val, 0, 0] : Fin 3 → Nat) a + S1x1x768.size a ≤ S8x1x768.size a := by
  intro a; have h : k.val < 8 := k.isLt
  fin_cases a
  · show k.val + 1 ≤ 8; omega
  · show 0 + 1 ≤ 1; omega
  · show 0 + 768 ≤ 768; omega

/-- Row `k` of the gathered buffer, as a rectangle of it, -/
abbrev rowR (k : Dev nD) : Rect S8x1x768 := Rect.unit (s := S8x1x768) ![k.val, 0, 0] S1x1x768.size (row_inb k)
/-- and as the one-row memref the copies move. -/
abbrev rowM (k : Dev nD) : Memref sig .tc .vmem S1x768 .f32 :=
  ((rM : Memref sig .tc .vmem S8x1x768 .f32).slice (rowR k) (fun _ => rfl)).squeeze S1x768 squeezes_S1x1x768_S1x768

abbrev barS : Sem sig := (SemArray.scalar (sig.barrier 0 rfl) : Sems sig S_).sem
/-- The send semaphore for the copy to device `j`, and the receive semaphore for the copy from device `j`. -/
def sendS (j : Dev nD) : DmaSem sig := ⟨2 + j.val, by have h : j.val < 8 := j.isLt; show 2 + j.val < 18; omega⟩
def recvS (j : Dev nD) : DmaSem sig := ⟨10 + j.val, by have h : j.val < 8 := j.isLt; show 10 + j.val < 18; omega⟩

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The row's credit: what a copy of one row adds to a DMA semaphore. -/
abbrev N : ℕ := 768

theorem sendS_inj {i j : Dev nD} (h : sendS i = sendS j) : i = j := by
  have := congrArg Fin.val h; simp only [sendS] at this; exact Fin.ext (by omega)
theorem recvS_inj {i j : Dev nD} (h : recvS i = recvS j) : i = j := by
  have := congrArg Fin.val h; simp only [recvS] at this; exact Fin.ext (by omega)
theorem sendS_ne_recvS (i j : Dev nD) : sendS i ≠ recvS j := by
  intro h; have := congrArg Fin.val h; simp only [sendS, recvS] at this; have := i.isLt; have h8 : i.val < 8 := i.isLt; omega

/-! ## Contents -/

/-- Device `c`'s block of `x`, as its staging buffer holds it. -/
def xstg (c : Dev nD) : (cc0_stg0_0 : Ref sig .tc).ty.Contents (Elt F) :=
  (win0_0.blk t0_0).view.read (Elt F) ((s₀ m ρ).mem ((c : Thread nD τ).loc main_arg0))

/-- The devices' blocks. -/
def xs : Dev nD → Vec F S1536x768 .f32 := fun k => xstg m ρ k

/-- The gathered buffer, as device `c`'s scratch contents: row `k` holds device `k`'s partial sum. -/
def gathered (c : Dev nD) : Buf (Elt F) ((c : Thread nD τ).loc cc0_scratch0) := gath (xs m ρ)

/-- Every device's result. -/
def outAt (c : Dev nD) : (cc0_stg1_0 : Ref sig .tc).ty.Contents (Elt F) := outv (xs m ρ)

/-- Row `k` of device `c`'s gathered buffer, held at share `q` with contents `f` (only `f`'s values on the row matter). -/
def rowPts (c k : Dev nD) (q : PosShare TreeShare) (f : Buf (Elt F) ((c : Thread nD τ).loc cc0_scratch0)) : sProp 𝕄 :=
  (rowM k).view.loc (c : Thread nD τ) ↦[(rowM k).view.set]{q} f
def xPts (c : Dev nD) : sProp 𝕄 :=
  (xM : Memref sig .tc .vmem S1536x768 .f32).view.loc (c : Thread nD τ) ↦[(xM : Memref sig .tc .vmem S1536x768 .f32).view.set]{fullShare} xstg m ρ c

omit [FloatOps F] in
instance rowPts_storable (c k : Dev nD) (q) (f) : BI.Storable (upEmb : UEmb _ 𝕄) (rowPts (F := F) c k q f) := by unfold rowPts; infer_instance

/-! ## Eight shares of one row: one per destination of the copies -/

def half (b : Bool) (q : PosShare TreeShare) : PosShare TreeShare := if b then q.right else q.left
/-- The share of its own row device `c`'s copy to device `j` reads through: by the three bits of `j`. -/
def sh (j : Dev nD) : PosShare TreeShare := half (j.val.testBit 0) (half (j.val.testBit 1) (half (j.val.testBit 2) fullShare))

/-! ## The schedule -/

/-- Which send semaphore a semaphore is, if any; which receive semaphore. -/
def sendOf : SemLoc sig → Option (Dev nD)
  | .dma s => if h : 2 ≤ s.val ∧ s.val < 10 then some ⟨s.val - 2, by show s.val - 2 < 8; omega⟩ else none
  | _ => none
def recvOf : SemLoc sig → Option (Dev nD)
  | .dma s => if h : 10 ≤ s.val then some ⟨s.val - 10, by have h18 : s.val < 18 := s.isLt; show s.val - 10 < 8; omega⟩ else none
  | _ => none

theorem sendS_val (j : Dev nD) : (sendS j).val = 2 + j.val := rfl
theorem recvS_val (j : Dev nD) : (recvS j).val = 10 + j.val := rfl
theorem sendOf_send (j : Dev nD) : sendOf (.dma (sendS j)) = some j := by
  have h8 : j.val < 8 := j.isLt
  simp only [sendOf]
  rw [dif_pos (by rw [sendS_val]; omega)]
  exact congrArg some (Fin.ext (by show (sendS j).val - 2 = j.val; rw [sendS_val]; omega))
theorem sendOf_recv (j : Dev nD) : sendOf (.dma (recvS j)) = none := by
  simp only [sendOf]
  rw [dif_neg (by rw [recvS_val]; omega)]
theorem recvOf_recv (j : Dev nD) : recvOf (.dma (recvS j)) = some j := by
  simp only [recvOf]
  rw [dif_pos (by rw [recvS_val]; omega)]
  exact congrArg some (Fin.ext (by show (recvS j).val - 10 = j.val; rw [recvS_val]; omega))
theorem recvOf_send (j : Dev nD) : recvOf (.dma (sendS j)) = none := by
  have h8 : j.val < 8 := j.isLt
  simp only [recvOf]
  rw [dif_neg (by rw [sendS_val]; omega)]

/-- What device `d`'s signal hands device `c`: row `c` of `d`'s buffer, and that `d`'s receive cell for `c` is at round 0. -/
def barPay (c d : Dev nD) : sProp 𝕄 := iprop((∃ f, rowPts d c fullShare f) ∗ reached ER (recvCell d c) 0)
/-- What the copy to `j`, read out, gives back: the share of the own row it read through. -/
def sendPay (c j : Dev nD) : sProp 𝕄 := rowPts c c (sh j) (gathered m ρ c)
/-- What `j`'s copy, landed, gives: row `j`, holding `j`'s partial sum. -/
def recvPay (c j : Dev nD) : sProp 𝕄 := rowPts c j fullShare (gathered m ρ c)

/-- One round, round 0. -/
def rd : Rounds.Schedule (GSem nD τ sig) (Dev nD) 𝕄 where
  duties g r :=
    if r = 0 ∧ g.1.2 = .tc then
      (if g.2 = .reg barS then Finset.univ.erase g.1.1
       else match sendOf g.2 with
        | some j => if j = g.1.1 then ∅ else {0}
        | none => match recvOf g.2 with
          | some j => if j = g.1.1 then ∅ else {0}
          | none => ∅)
    else ∅
  unitless _ := False
  amount g _ _ := if g.2 = .reg barS then 1 else N
  payload g _ d :=
    if g.2 = .reg barS then barPay g.1.1 d
    else match sendOf g.2 with
      | some j => sendPay m ρ g.1.1 j
      | none => match recvOf g.2 with
        | some j => recvPay m ρ g.1.1 j
        | none => iprop(emp)
  amount_pos g _ _ _ := by
    by_cases h : g.2 = .reg barS
    · rw [if_pos h]; exact Nat.one_pos
    · rw [if_neg h]; decide

instance rd_payload_storable (g : GSem nD τ sig) (r : ℕ) (d : Dev nD) :
    BI.Storable (upEmb : UEmb _ 𝕄) ((rd (F := F) m ρ).payload g r d) := by
  show BI.Storable upEmb (if g.2 = .reg barS then barPay g.1.1 d
    else match sendOf g.2 with
      | some j => sendPay m ρ g.1.1 j
      | none => match recvOf g.2 with
        | some j => recvPay m ρ g.1.1 j
        | none => iprop(emp))
  unfold barPay sendPay recvPay
  (repeat' split) <;> infer_instance

section Sched
variable (c j : Dev nD)

theorem send_ne_bar : (SemLoc.dma (sendS j) : SemLoc sig) ≠ .reg barS := fun h => by cases h
theorem recv_ne_bar : (SemLoc.dma (recvS j) : SemLoc sig) ≠ .reg barS := fun h => by cases h

theorem duties_bar : (rd (F := F) m ρ).duties (barCell c) 0 = Finset.univ.erase c := by
  dsimp only [rd]; rw [if_pos ⟨rfl, rfl⟩, if_pos rfl]
theorem duties_send (h : j ≠ c) : (rd (F := F) m ρ).duties (sendCell c j) 0 = {0} := by
  dsimp only [rd]; rw [if_pos ⟨rfl, rfl⟩, if_neg (send_ne_bar j)]; simp only [sendOf_send]; exact if_neg h
theorem duties_send_self : (rd (F := F) m ρ).duties (sendCell c c) 0 = ∅ := by
  dsimp only [rd]; rw [if_pos ⟨rfl, rfl⟩, if_neg (send_ne_bar c)]; simp only [sendOf_send]; first | rfl | exact if_pos rfl
theorem duties_recv (h : j ≠ c) : (rd (F := F) m ρ).duties (recvCell c j) 0 = {0} := by
  dsimp only [rd]; rw [if_pos ⟨rfl, rfl⟩, if_neg (recv_ne_bar j)]; simp only [sendOf_recv, recvOf_recv]; exact if_neg h
theorem duties_recv_self : (rd (F := F) m ρ).duties (recvCell c c) 0 = ∅ := by
  dsimp only [rd]; rw [if_pos ⟨rfl, rfl⟩, if_neg (recv_ne_bar c)]; simp only [sendOf_recv, recvOf_recv]; first | rfl | exact if_pos rfl
theorem duties_later (g : GSem nD τ sig) : ∀ r, 1 ≤ r → (rd (F := F) m ρ).duties g r = ∅ :=
  fun r hr => by dsimp only [rd]; rw [if_neg fun h => by omega]

theorem amount_bar (d : Dev nD) : (rd (F := F) m ρ).amount (barCell c) 0 d = 1 := by dsimp only [rd]; exact if_pos rfl
theorem amount_send (d : Dev nD) : (rd (F := F) m ρ).amount (sendCell c j) 0 d = N := by dsimp only [rd]; exact if_neg (send_ne_bar j)
theorem amount_recv (d : Dev nD) : (rd (F := F) m ρ).amount (recvCell c j) 0 d = N := by dsimp only [rd]; exact if_neg (recv_ne_bar j)

theorem expect_bar : (rd (F := F) m ρ).expect (barCell c) 0 = 7 := by
  unfold Schedule.expect Schedule.amountOf
  rw [duties_bar, Finset.sum_congr rfl fun d _ => amount_bar m ρ c d, Finset.sum_const, Finset.card_erase_of_mem (Finset.mem_univ c),
    Finset.card_univ, Fintype.card_fin, smul_eq_mul]
  rfl
theorem expect_send (h : j ≠ c) : (rd (F := F) m ρ).expect (sendCell c j) 0 = N := by
  unfold Schedule.expect Schedule.amountOf; rw [duties_send m ρ c j h, Finset.sum_singleton, amount_send]
theorem expect_recv (h : j ≠ c) : (rd (F := F) m ρ).expect (recvCell c j) 0 = N := by
  unfold Schedule.expect Schedule.amountOf; rw [duties_recv m ρ c j h, Finset.sum_singleton, amount_recv]

theorem payload_bar (d : Dev nD) : (rd (F := F) m ρ).payload (barCell c) 0 d = barPay c d := by dsimp only [rd]; rw [if_pos rfl]
theorem payload_send (d : Dev nD) : (rd (F := F) m ρ).payload (sendCell c j) 0 d = sendPay m ρ c j := by
  dsimp only [rd]; rw [if_neg (send_ne_bar j)]; simp only [sendOf_send]
theorem payload_recv (d : Dev nD) : (rd (F := F) m ρ).payload (recvCell c j) 0 d = recvPay m ρ c j := by
  dsimp only [rd]; rw [if_neg (recv_ne_bar j)]; simp only [sendOf_recv, recvOf_recv]

/-- The whole of the barrier cell's round: every other device's payload. -/
theorem rest_bar : bigSep ((rd (F := F) m ρ).duties (barCell c) 0 \ ∅) (fun d => (rd (F := F) m ρ).payload (barCell c) 0 d)
    = bigSep (Finset.univ.erase c) (fun d => barPay (F := F) c d) := by
  rw [Finset.sdiff_empty, duties_bar]
  exact bigSep_congr fun d _ => payload_bar m ρ c d
theorem rest_send (h : j ≠ c) : bigSep ((rd (F := F) m ρ).duties (sendCell c j) 0 \ ∅) (fun d => (rd (F := F) m ρ).payload (sendCell c j) 0 d) = sendPay m ρ c j := by
  rw [Finset.sdiff_empty, duties_send m ρ c j h, bigSep_singleton, payload_send]
theorem rest_recv (h : j ≠ c) : bigSep ((rd (F := F) m ρ).duties (recvCell c j) 0 \ ∅) (fun d => (rd (F := F) m ρ).payload (recvCell c j) 0 d) = recvPay m ρ c j := by
  rw [Finset.sdiff_empty, duties_recv m ρ c j h, bigSep_singleton, payload_recv]

end Sched

/-! ## What each device owes at launch; the levels -/

section StepSum
variable {M : Type} [AddCommMonoid M]

/-- A sum over the other devices from position `n` on: what is still to do when the devices below `n` are done. -/
def stepSum (f : Dev nD → M) (c : Dev nD) (n : ℕ) : M := ∑ p : Dev nD, if p ≠ c ∧ n ≤ p.val then f p else 0

theorem stepSum_succ (f : Dev nD → M) (c p : Dev nD) :
    stepSum f c p.val = stepSum f c (p.val + 1) + (if p ≠ c then f p else 0) := by
  unfold stepSum
  rw [← Finset.add_sum_erase Finset.univ _ (Finset.mem_univ p),
    ← Finset.add_sum_erase Finset.univ (fun q => if q ≠ c ∧ p.val + 1 ≤ q.val then f q else 0) (Finset.mem_univ p)]
  have e : ∀ q ∈ Finset.univ.erase p, (if q ≠ c ∧ p.val ≤ q.val then f q else 0) = (if q ≠ c ∧ p.val + 1 ≤ q.val then f q else 0) := by
    intro q hq
    have hne : q.val ≠ p.val := fun h => (Finset.ne_of_mem_erase hq) (Fin.ext h)
    exact if_congr ⟨fun ⟨a, b⟩ => ⟨a, by omega⟩, fun ⟨a, b⟩ => ⟨a, by omega⟩⟩ rfl rfl
  rw [Finset.sum_congr rfl e, if_neg (fun h => by omega : ¬ (p ≠ c ∧ p.val + 1 ≤ p.val)), zero_add, add_comm]
  congr 1
  by_cases h : p ≠ c
  · rw [if_pos h, if_pos ⟨h, le_rfl⟩]
  · rw [if_neg h, if_neg (fun h' => h h'.1)]

theorem stepSum_step (f : Dev nD → M) {c p : Dev nD} (h : p ≠ c) : stepSum f c p.val = stepSum f c (p.val + 1) + f p := by
  rw [stepSum_succ, if_pos h]
theorem stepSum_skip (f : Dev nD → M) (c : Dev nD) : stepSum f c c.val = stepSum f c (c.val + 1) := by
  rw [stepSum_succ, if_neg (fun h => h rfl), add_zero]
theorem stepSum_end (f : Dev nD → M) (c : Dev nD) : stepSum f c 8 = 0 :=
  Finset.sum_eq_zero fun p _ => if_neg fun h => by have h8 : p.val < 8 := p.isLt; omega
theorem stepSum_zero (f : Dev nD → M) (c : Dev nD) : stepSum f c 0 = ∑ p ∈ Finset.univ.erase c, f p := by
  unfold stepSum
  rw [← Finset.sum_filter]
  refine Finset.sum_congr (Finset.ext fun p => ?_) fun _ _ => rfl
  simp only [Finset.mem_filter, Finset.mem_univ, true_and, Finset.mem_erase, Nat.zero_le, and_true]

end StepSum

/-- What device `c` still owes the others' barrier cells when its signals to the devices below `n` are out, -/
def Osig (c : Dev nD) (n : ℕ) : CellTallies nD τ sig Unit := stepSum (fun p => tallyAt (barCell p) () 1) c n
/-- and their receive cells for `c` when its copies to the devices below `n` are out. -/
def Orcv (c : Dev nD) (n : ℕ) : CellTallies nD τ sig Unit := stepSum (fun p => tallyAt (recvCell p c) () N) c n
/-- At launch: a unit to every other device's barrier cell, a row's credit to every other device's receive cell for `c`. -/
def O₀ (c : Dev nD) : CellTallies nD τ sig Unit := Orcv c 0 + Osig c 0

theorem Osig_pos {c : Dev nD} {n : ℕ} {g : GSem nD τ sig} {u : Unit} (h : 0 < Osig c n g u) : ∃ p, p ≠ c ∧ g = barCell p := by
  unfold Osig stepSum at h
  obtain ⟨p, -, hp⟩ := Pipeline.sum_pos_exists h
  by_cases hc : p ≠ c ∧ n ≤ p.val
  · rw [if_pos hc, tallyAt_apply] at hp
    by_cases hg : g = barCell p ∧ u = ()
    · exact ⟨p, hc.1, hg.1⟩
    · rw [if_neg hg] at hp; exact absurd hp (Nat.lt_irrefl 0)
  · rw [if_neg hc] at hp; exact absurd hp (Nat.lt_irrefl 0)
theorem Orcv_pos {c : Dev nD} {n : ℕ} {g : GSem nD τ sig} {u : Unit} (h : 0 < Orcv c n g u) : ∃ p, p ≠ c ∧ g = recvCell p c := by
  unfold Orcv stepSum at h
  obtain ⟨p, -, hp⟩ := Pipeline.sum_pos_exists h
  by_cases hc : p ≠ c ∧ n ≤ p.val
  · rw [if_pos hc, tallyAt_apply] at hp
    by_cases hg : g = recvCell p c ∧ u = ()
    · exact ⟨p, hc.1, hg.1⟩
    · rw [if_neg hg] at hp; exact absurd hp (Nat.lt_irrefl 0)
  · rw [if_neg hc] at hp; exact absurd hp (Nat.lt_irrefl 0)

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvOf g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c j : Dev nD) : lv (recvCell c j) () = 2 := by
  unfold lv; rw [if_neg (recv_ne_bar j), recvOf_recv]; rfl
theorem lv_send (c j : Dev nD) : lv (sendCell c j) () = 0 := by
  unfold lv; rw [if_neg (send_ne_bar j), recvOf_send]; rfl

/-- A wait on a cell at level 0 is allowed while the device owes barrier and receive cells only. -/
theorem mayWait_low (c : Dev nD) (sm : SemLoc sig) (hsm : lv ((c : Thread nD τ), sm) () = 0) (O : CellTallies nD τ sig Unit)
    (hO : ∀ g u, 0 < O g u → (∃ p, g = barCell p) ∨ (∃ p q, g = recvCell p q)) :
    (levAts L lv : sProp 𝕄) ⊢ MayWait (c : Thread nD τ) sm () O :=
  Pipeline.mayWait_of_levAts (by rw [L_tc]; exact Finset.mem_singleton_self _) fun g u hg => by
    rcases hO g u hg with ⟨p, rfl⟩ | ⟨p, q, rfl⟩
    · exact ⟨by rw [L_tc]; exact Finset.mem_singleton_self _, by rw [hsm, lv_bar]; decide⟩
    · exact ⟨by rw [L_tc]; exact Finset.mem_singleton_self _, by rw [hsm, lv_recv]; decide⟩

/-- At its barrier wait a device owes receive cells only: above its barrier cell. -/
theorem mayWait_bar (c : Dev nD) (n : ℕ) :
    (levAts L lv : sProp 𝕄) ⊢ MayWait (c : Thread nD τ) (.reg barS) () (Orcv c n) :=
  Pipeline.mayWait_of_levAts (by rw [L_tc]; exact Finset.mem_singleton_self _) fun g u hg => by
    obtain ⟨p, -, rfl⟩ := Orcv_pos hg
    exact ⟨by rw [L_tc]; exact Finset.mem_singleton_self _, by rw [lv_bar, lv_recv]; decide⟩

/-! ## The cells of one device, and the pipeline's proof data -/

/-- A device's cells: its barrier cell (`none`), its send cells (`false`) and its receive cells (`true`), one per device. -/
abbrev CK : Type := Option (Bool × Dev nD)
def csem : CK → SemLoc sig
  | none => .reg barS
  | some (false, j) => .dma (sendS j)
  | some (true, j) => .dma (recvS j)
abbrev kcell (ck : Dev nD × CK) : GSem nD τ sig := ((ck.1 : Thread nD τ), csem ck.2)
/-- The kernel's own (scoped) semaphores: the sixteen DMA semaphores of its two scratch arrays. -/
def osem : Bool × Dev nD → SemLoc sig := fun bj => csem (some bj)

/-- Every cell's invariant and that every cell stands at round 0: persistent, so every device holds them all. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

/-- The tokens of the three duties device `c` pays towards device `p`: `p`'s barrier duty `c`, `p`'s receive duty for
    `c`'s row, and its own send duty for the copy to `p`. -/
def payToks (c p : Dev nD) : sProp 𝕄 :=
  iprop(dutyTok ER (barCell p) 0 c ∗ dutyTok ER (recvCell p c) 0 0 ∗ dutyTok ER (sendCell c p) 0 0)
/-- What stays with device `c`: its positions in its seventeen cells, and the tokens of the duties it pays. -/
def linear (c : Dev nD) : sProp 𝕄 :=
  iprop((bigSep Finset.univ fun k : CK => atPos ER (kcell (c, k)) 0 ∅ 0) ∗ bigSep (Finset.univ.erase c) (payToks (F := F) c))
def ghost (K : Dev nD × CK → ℕ) (c : Dev nD) : sProp 𝕄 := iprop(records m ρ K ∗ linear c)

/-- What device `c`'s body starts from besides its buffers: the ghost state at some names, the credit tokens of its
    barrier cell (seven units) and of its receive cells (a row's credit each), and the level facts. -/
def start (c : Dev nD) : sProp 𝕄 :=
  iprop((∃ K, ghost m ρ K c) ∗ cred (tallyAt (barCell c) () 7)
    ∗ (bigSep (Finset.univ.erase c) fun p => cred (tallyAt (recvCell c p) () N)) ∗ levAts L lv)

def Φ₀ (c : Dev nD) : sProp 𝕄 := iprop(start m ρ c ∗ ∃ f, (((c : Thread nD τ).loc cc0_scratch0) ↦{fullShare} f))
/-- After the point: the gathered buffer, and the sixteen own cells closed, their counters at zero. -/
def Φ₁ (c : Dev nD) : sProp 𝕄 :=
  iprop((((c : Thread nD τ).loc cc0_scratch0) ↦{fullShare} gathered m ρ c)
    ∗ bigSep Finset.univ fun bj : Bool × Dev nD => semVal ((c : Thread nD τ), osem bj) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- info: 'Cert.Kernel.Proto.rest_bar' depends on axioms: [propext, Classical.choice, Quot.sound] -/
#guard_msgs in #print axioms rest_bar

/-- info: 'Cert.Kernel.Proto.rest_send' depends on axioms: [propext, Classical.choice, Quot.sound] -/
#guard_msgs in #print axioms rest_send

/-- info: 'Cert.Kernel.Proto.rest_recv' depends on axioms: [propext, Classical.choice, Quot.sound] -/
#guard_msgs in #print axioms rest_recv

/-- info: 'Cert.Kernel.Proto.mayWait_low' depends on axioms: [propext, Classical.choice, Quot.sound] -/
#guard_msgs in #print axioms mayWait_low

/-- info: 'Cert.Kernel.Proto.mayWait_bar' depends on axioms: [propext, Classical.choice, Quot.sound] -/
#guard_msgs in #print axioms mayWait_bar

/-- info: 'Cert.Kernel.Proto.stepSum_succ' depends on axioms: [propext, Classical.choice, Quot.sound] -/
#guard_msgs in #print axioms stepSum_succ

end Cert.Kernel.Proto

end
-- ==== Proof.Bits.BodyDefs.lean ====
/-
  One device's body in three stretches: what holds between them.

  The body is run in three stretches: the signals and the load of the block; the store of the partial sum, the
  barrier wait and the copies; the waits, the load of the gathered buffer and the store of the result.
-/
import proofs.«901082_g7700000000001083_dist_sum_ax0_shard0_i_m1536_n768_v7x_i8_f32_1_alg».proof.Proof.Bits.Proto

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The device's position on the mesh axis, as the word the kernel computes. -/
abbrev posWord (c : Dev nD) : BitVec 32 := Scalar.remsi (Scalar.divsi (Dev.word c) 1#32) 8#32
/-- The barrier semaphore, as the kernel names it. -/
abbrev barSems : Sems sig S_ := SemArray.scalar (sig.barrier 0 rfl)

/-- Before the first stretch: the positions in the seventeen cells, the tokens of the duties the device pays, the
    credit tokens of its barrier cell and its receive cells, its whole gathered buffer at any contents, what it owes,
    its block of `x` staged, the result's staging buffer at any contents. -/
def pre1 (c : Dev nD) : sProp 𝕄 :=
  iprop((bigSep Finset.univ fun k : CK => atPos ER (kcell (c, k)) 0 ∅ 0)
    ∗ bigSep (Finset.univ.erase c) (payToks (F := F) c)
    ∗ cred (tallyAt (barCell c) () 7)
    ∗ (bigSep (Finset.univ.erase c) fun p => cred (tallyAt (recvCell c p) () N))
    ∗ (∃ f, (((c : Thread nD τ).loc cc0_scratch0) ↦{fullShare} f))
    ∗ (∃ W, owes (c : Thread nD τ) (O₀ c) W)
    ∗ stg c cc0_stg0_0 (xstg m ρ c)
    ∗ (∃ g, stg c cc0_stg1_0 g))

/-- After the signals and the load: the other rows of the buffer have gone with the signals, the barrier duties'
    tokens are spent, the device owes the receive cells only. -/
def mid1 (c : Dev nD) : sProp 𝕄 :=
  iprop((bigSep Finset.univ fun k : CK => atPos ER (kcell (c, k)) 0 ∅ 0)
    ∗ (bigSep (Finset.univ.erase c) fun p => iprop(dutyTok ER (recvCell p c) 0 0 ∗ dutyTok ER (sendCell c p) 0 0))
    ∗ cred (tallyAt (barCell c) () 7)
    ∗ (bigSep (Finset.univ.erase c) fun p => cred (tallyAt (recvCell c p) () N))
    ∗ (∃ f, rowPts c c fullShare f)
    ∗ (∃ W, owes (c : Thread nD τ) (Orcv c 0) W)
    ∗ stg c cc0_stg0_0 (xstg m ρ c)
    ∗ (∃ g, stg c cc0_stg1_0 g))

/-- After the copies are out: per other device the credit tokens of the send and the receive cell; of its own row,
    holding its partial sum, the one share no copy reads through; nothing owed. -/
def mid2 (c : Dev nD) : sProp 𝕄 :=
  iprop((bigSep Finset.univ fun bj : Bool × Dev nD => atPos ER (kcell (c, some bj)) 0 ∅ 0)
    ∗ (bigSep (Finset.univ.erase c) fun p => iprop(cred (tallyAt (sendCell c p) () N) ∗ cred (tallyAt (recvCell c p) () N)))
    ∗ rowPts c c (sh c) (gathered m ρ c)
    ∗ (∃ W, owes (c : Thread nD τ) 0 W)
    ∗ stg c cc0_stg0_0 (xstg m ρ c)
    ∗ (∃ g, stg c cc0_stg1_0 g))

/-- After the last stretch: the gathered buffer whole, the sixteen own cells closed, the result staged. -/
def post3 (c : Dev nD) : sProp 𝕄 :=
  iprop(Φ₁ m ρ c ∗ (∃ W, owes (c : Thread nD τ) 0 W) ∗ stg c cc0_stg0_0 (xstg m ρ c) ∗ stg c cc0_stg1_0 (outAt m ρ c))

end Cert.Kernel.Proto

end
-- ==== Proof.Bits.Rows.lean ====
/-
  The gathered buffer as eight rows, and a row as eight shares.
-/
import proofs.«901082_g7700000000001083_dist_sum_ax0_shard0_i_m1536_n768_v7x_i8_f32_1_alg».proof.Proof.Bits.BodyDefs

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An element of the buffer lies in row `k` exactly when its first coordinate is `k`. -/
theorem mem_row (k : Dev nD) (i : S8x1x768.Idx) :
    Iff (i ∈ ((rowM k).view.set : Finset S8x1x768.Idx)) ((i 0).val = k.val) := by
  have e : ((rowM k).view.set : Finset S8x1x768.Idx) = (rowR k).set := by
    show (((View.whole cc0_scratch0 : View sig .tc .vmem _ _).slice (rowR k)).reshape S1x768 _).set = _
    rw [View.set_reshape, View.set_slice_whole]
  rw [e, Rect.mem_set_unit]
  constructor
  · intro h; have h0 := h 0; simp at h0; omega
  · intro h a
    fin_cases a
    · simp; omega
    · have h1 := (i 1).isLt; simp at h1 ⊢; omega
    · have h2 := (i 2).isLt; simp at h2 ⊢; omega

/-- A points-to on a union of pairwise disjoint element sets is the points-tos on the sets. -/
theorem pointsTo_biUnion {α : Type} [DecidableEq α] {ℓ : Loc nD τ sig} (S : Finset α) (I : α → Finset (Idx ℓ))
    (hd : ∀ a ∈ S, ∀ b ∈ S, a ≠ b → Disjoint (I a) (I b)) (q : PosShare TreeShare) (f : Buf (Elt F) ℓ) :
    (ℓ ↦[S.biUnion I]{q} f : sProp 𝕄) ⊣⊢ bigSep S (fun a => (ℓ ↦[I a]{q} f : sProp 𝕄)) := by
  induction S using Finset.induction_on with
  | empty => rw [Finset.biUnion_empty, pointsTo_empty, bigSep_empty]; exact ⟨Entails.refl _, Entails.refl _⟩
  | insert a s ha ih =>
    rw [Finset.biUnion_insert, bigSep_insert ha]
    have hd' : Disjoint (I a) (s.biUnion I) := by
      rw [Finset.disjoint_biUnion_right]
      intro b hb
      exact hd a (Finset.mem_insert_self a s) b (Finset.mem_insert_of_mem hb) (fun h => ha (h ▸ hb))
    have ih' := ih fun x hx y hy => hd x (Finset.mem_insert_of_mem hx) y (Finset.mem_insert_of_mem hy)
    exact ⟨(pointsTo_union hd').1.trans (BI.sep_mono (Entails.refl _) ih'.1), (BI.sep_mono (Entails.refl _) ih'.2).trans (pointsTo_union hd').2⟩

theorem row_disjoint {k k' : Dev nD} (h : k ≠ k') :
    Disjoint ((rowM k).view.set : Finset S8x1x768.Idx) ((rowM k').view.set : Finset S8x1x768.Idx) := by
  rw [Finset.disjoint_left]; intro i hi hi'
  rw [mem_row] at hi hi'; exact h (Fin.ext (hi.symm.trans hi'))

theorem rows_cover : (Finset.univ : Finset (Dev nD)).biUnion (fun k : Dev nD => (show Finset S8x1x768.Idx from (rowM k).view.set)) = Finset.univ := by
  ext i; simp only [Finset.mem_biUnion, Finset.mem_univ, true_and, iff_true]
  exact ⟨⟨(i 0).val, (i 0).isLt⟩, (mem_row _ i).mpr rfl⟩

/-- The whole gathered buffer is its eight rows. -/
theorem rows_split (c : Dev nD) (q : PosShare TreeShare) (f : Buf (Elt F) ((c : Thread nD τ).loc cc0_scratch0)) :
    ((((c : Thread nD τ).loc cc0_scratch0) ↦{q} f) : sProp 𝕄) ⊣⊢ bigSep Finset.univ (fun k : Dev nD => rowPts c k q f) := by
  have h := pointsTo_biUnion (F := F) (ℓ := (c : Thread nD τ).loc cc0_scratch0) (Finset.univ : Finset (Dev nD))
    (fun k : Dev nD => (show Finset S8x1x768.Idx from (rowM k).view.set)) (fun a _ b _ hab => row_disjoint hab) q f
  rw [rows_cover] at h
  exact h

theorem sh_0 : sh 0 = fullShare.left.left.left := rfl
theorem sh_1 : sh 1 = fullShare.left.left.right := rfl
theorem sh_2 : sh 2 = fullShare.left.right.left := rfl
theorem sh_3 : sh 3 = fullShare.left.right.right := rfl
theorem sh_4 : sh 4 = fullShare.right.left.left := rfl
theorem sh_5 : sh 5 = fullShare.right.left.right := rfl
theorem sh_6 : sh 6 = fullShare.right.right.left := rfl
theorem sh_7 : sh 7 = fullShare.right.right.right := rfl

/-- A points-to at the full share is eight points-tos at the shares three halvings down. -/
theorem pointsTo_shares_chain {ℓ : Loc nD τ sig} (I : Finset (Idx ℓ)) (f : Buf (Elt F) ℓ) :
    (ℓ ↦[I]{fullShare} f : sProp 𝕄) ⊣⊢ iprop((ℓ ↦[I]{fullShare.left.left.left} f) ∗ (ℓ ↦[I]{fullShare.left.left.right} f)
      ∗ (ℓ ↦[I]{fullShare.left.right.left} f) ∗ (ℓ ↦[I]{fullShare.left.right.right} f)
      ∗ (ℓ ↦[I]{fullShare.right.left.left} f) ∗ (ℓ ↦[I]{fullShare.right.left.right} f)
      ∗ (ℓ ↦[I]{fullShare.right.right.left} f) ∗ (ℓ ↦[I]{fullShare.right.right.right} f)) := by
  have s : ∀ q : PosShare TreeShare, (ℓ ↦[I]{q} f : sProp 𝕄) ⊣⊢ iprop((ℓ ↦[I]{q.left} f) ∗ ℓ ↦[I]{q.right} f) :=
    fun q => pointsTo_share (PosShare.mem_left_op_right q)
  have tree : (ℓ ↦[I]{fullShare} f : sProp 𝕄) ⊣⊢ iprop((((ℓ ↦[I]{fullShare.left.left.left} f) ∗ (ℓ ↦[I]{fullShare.left.left.right} f))
      ∗ ((ℓ ↦[I]{fullShare.left.right.left} f) ∗ (ℓ ↦[I]{fullShare.left.right.right} f)))
      ∗ (((ℓ ↦[I]{fullShare.right.left.left} f) ∗ (ℓ ↦[I]{fullShare.right.left.right} f))
      ∗ ((ℓ ↦[I]{fullShare.right.right.left} f) ∗ (ℓ ↦[I]{fullShare.right.right.right} f)))) :=
    ⟨(s fullShare).1.trans (BI.sep_mono ((s fullShare.left).1.trans (BI.sep_mono (s fullShare.left.left).1 (s fullShare.left.right).1))
        ((s fullShare.right).1.trans (BI.sep_mono (s fullShare.right.left).1 (s fullShare.right.right).1))),
     (BI.sep_mono ((BI.sep_mono (s fullShare.left.left).2 (s fullShare.left.right).2).trans (s fullShare.left).2)
        ((BI.sep_mono (s fullShare.right.left).2 (s fullShare.right.right).2).trans (s fullShare.right).2)).trans (s fullShare).2⟩
  constructor
  · refine tree.1.trans ?_
    iintro ⟨⟨⟨H0, H1⟩, ⟨H2, H3⟩⟩, ⟨⟨H4, H5⟩, ⟨H6, H7⟩⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h : (iprop((ℓ ↦[I]{fullShare.left.left.left} f) ∗ (ℓ ↦[I]{fullShare.left.left.right} f) ∗ (ℓ ↦[I]{fullShare.left.right.left} f) ∗ (ℓ ↦[I]{fullShare.left.right.right} f) ∗ (ℓ ↦[I]{fullShare.right.left.left} f) ∗ (ℓ ↦[I]{fullShare.right.left.right} f) ∗ (ℓ ↦[I]{fullShare.right.right.left} f) ∗ (ℓ ↦[I]{fullShare.right.right.right} f)) : sProp 𝕄) ⊢ iprop((((ℓ ↦[I]{fullShare.left.left.left} f) ∗ (ℓ ↦[I]{fullShare.left.left.right} f)) ∗ ((ℓ ↦[I]{fullShare.left.right.left} f) ∗ (ℓ ↦[I]{fullShare.left.right.right} f))) ∗ (((ℓ ↦[I]{fullShare.right.left.left} f) ∗ (ℓ ↦[I]{fullShare.right.left.right} f)) ∗ ((ℓ ↦[I]{fullShare.right.right.left} f) ∗ (ℓ ↦[I]{fullShare.right.right.right} f)))) := by
      iintro ⟨H0, H1, H2, H3, H4, H5, H6, H7⟩
      isplitl [H0 H1 H2 H3]
      · isplitl [H0 H1]
        · isplitl [H0] <;> iassumption
        · isplitl [H2] <;> iassumption
      · isplitl [H4 H5]
        · isplitl [H4] <;> iassumption
        · isplitl [H6] <;> iassumption
    exact h.trans tree.2

/-- A points-to at the full share is its eight shares `sh j`. -/
theorem pointsTo_shares {ℓ : Loc nD τ sig} (I : Finset (Idx ℓ)) (f : Buf (Elt F) ℓ) :
    (ℓ ↦[I]{fullShare} f : sProp 𝕄) ⊣⊢ bigSep Finset.univ (fun j : Dev nD => (ℓ ↦[I]{sh j} f : sProp 𝕄)) := by
  rw [bigSep_univ_eq_bigSepL [(0 : Dev nD), 1, 2, 3, 4, 5, 6, 7] (by decide) (by decide)]
  simp only [bigSepL_cons_cons, bigSepL_singleton, sh_0, sh_1, sh_2, sh_3, sh_4, sh_5, sh_6, sh_7]
  exact pointsTo_shares_chain I f

/-- A row at the full share is its eight shares. -/
theorem row_shares (c k : Dev nD) (f : Buf (Elt F) ((c : Thread nD τ).loc cc0_scratch0)) :
    (rowPts c k fullShare f : sProp 𝕄) ⊣⊢ bigSep Finset.univ (fun j : Dev nD => rowPts c k (sh j) f) :=
  pointsTo_shares _ f

/-- Only the contents on the row matter. -/
theorem rowPts_congr (c k : Dev nD) (q : PosShare TreeShare) {f g : Buf (Elt F) ((c : Thread nD τ).loc cc0_scratch0)}
    (h : ∀ i : S8x1x768.Idx, (i 0).val = k.val → f i = g i) : (rowPts c k q f : sProp 𝕄) = rowPts c k q g := by
  unfold rowPts
  exact pointsTo_congr fun i hi => h i ((mem_row k i).mp hi)

/-- info: 'Cert.Kernel.Proto.rows_split' depends on axioms: [propext, Classical.choice, Quot.sound] -/
#guard_msgs in #print axioms rows_split

/-- info: 'Cert.Kernel.Proto.row_shares' depends on axioms: [propext, Classical.choice, Quot.sound] -/
#guard_msgs in #print axioms row_shares

/-- info: 'Cert.Kernel.Proto.rowPts_congr' depends on axioms: [propext, Classical.choice, Quot.sound] -/
#guard_msgs in #print axioms rowPts_congr

end Cert.Kernel.Proto

end
-- ==== Proof.Bits.Part1.lean ====
/-
  The first stretch of a device's body: the signals to the other devices, and the load of its block.

  The device's whole gathered buffer is cut into its eight rows. Its own row stays; row `p` goes to device `p` as the
  payload of the signal to `p`'s barrier cell. The eight signal blocks are one lemma at a symbolic peer: the state
  between two blocks says how far the signals have got, and a block either sends the signal (another device) or
  does nothing (the device itself). The load reads the staged block.
-/
import proofs.«901082_g7700000000001083_dist_sum_ax0_shard0_i_m1536_n768_v7x_i8_f32_1_alg».proof.Proof.Bits.BodyDefs
import proofs.«901082_g7700000000001083_dist_sum_ax0_shard0_i_m1536_n768_v7x_i8_f32_1_alg».proof.Proof.Bits.Rows

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state between two signal blocks -/

/-- What device `c` holds towards device `p` while its signal to `p` is still to come: the three tokens, and row `p` of its buffer. -/
def p1_unsent (c p : Dev nD) : sProp 𝕄 := iprop(payToks (F := F) c p ∗ ∃ f, rowPts c p fullShare f)
/-- and once the signal is out: the two tokens the copies will pay with. -/
def p1_sent (c p : Dev nD) : sProp 𝕄 := iprop(dutyTok ER (recvCell p c) 0 0 ∗ dutyTok ER (sendCell c p) 0 0)

/-- The per-device resources when the signals to the devices below `n` are out. -/
def p1_res (c : Dev nD) (n : ℕ) : sProp 𝕄 :=
  bigSep Finset.univ fun p : Dev nD => if p = c then iprop(emp) else if n ≤ p.val then p1_unsent (F := F) c p else p1_sent (F := F) c p

/-- The state when the signals to the devices below `n` are out: what is owed, and the per-device resources. -/
def p1_st (c : Dev nD) (n : ℕ) (W : Waits sig Unit) : sProp 𝕄 :=
  iprop(owes (c : Thread nD τ) (Orcv c 0 + Osig c n) W ∗ p1_res (F := F) c n)

theorem p1_records_inv (m : (ℓ : Loc nD τ sig) → Buf (Elt F) ℓ) (ρ : Dev nD → PrngReg) (K : Dev nD × CK → ℕ) (ck : Dev nD × CK) : records m ρ K ⊢ cellInv ER (rd m ρ) (K ck) (kcell ck) := by
  unfold records
  iintro ⟨#H1, #H2⟩
  iapply (show (bigSep Finset.univ fun ck : Dev nD × CK => cellInv ER (rd m ρ) (K ck) (kcell ck)) ⊢ cellInv ER (rd m ρ) (K ck) (kcell ck) from
    bigSep_elim (Finset.mem_univ ck)) $$ H1

theorem p1_records_reached (m : (ℓ : Loc nD τ sig) → Buf (Elt F) ℓ) (ρ : Dev nD → PrngReg) (K : Dev nD × CK → ℕ) (ck : Dev nD × CK) : records m ρ K ⊢ reached ER (kcell ck) 0 := by
  unfold records
  iintro ⟨#H1, #H2⟩
  iapply (show (bigSep Finset.univ fun ck : Dev nD × CK => (reached ER (kcell ck) 0 : sProp 𝕄)) ⊢ reached ER (kcell ck) 0 from
    bigSep_elim (Finset.mem_univ ck)) $$ H2

/-- One step of the per-device resources: only device `p`'s component changes between `p.val` and `p.val + 1`. -/
theorem p1_res_step (c p : Dev nD) (hpc : p ≠ c) :
    p1_res (F := F) c p.val = iprop(p1_unsent (F := F) c p ∗ bigSep (Finset.univ.erase p) fun q : Dev nD => if q = c then iprop(emp) else if p.val + 1 ≤ q.val then p1_unsent (F := F) c q else p1_sent (F := F) c q) := by
  unfold p1_res
  rw [bigSep_univ_at _ p, if_neg hpc, if_pos le_rfl]
  congr 1
  refine bigSep_congr fun q hq => ?_
  have hne : q.val ≠ p.val := fun h => (Finset.ne_of_mem_erase hq) (Fin.ext h)
  by_cases hqc : q = c
  · rw [if_pos hqc, if_pos hqc]
  · rw [if_neg hqc, if_neg hqc]
    exact if_congr ⟨fun a => by omega, fun a => by omega⟩ rfl rfl

theorem p1_res_step_succ (c p : Dev nD) (hpc : p ≠ c) :
    p1_res (F := F) c (p.val + 1) = iprop(p1_sent (F := F) c p ∗ bigSep (Finset.univ.erase p) fun q : Dev nD => if q = c then iprop(emp) else if p.val + 1 ≤ q.val then p1_unsent (F := F) c q else p1_sent (F := F) c q) := by
  unfold p1_res
  rw [bigSep_univ_at _ p, if_neg hpc, if_neg (by omega)]

theorem p1_res_skip (c : Dev nD) : p1_res (F := F) c c.val = p1_res (F := F) c (c.val + 1) := by
  unfold p1_res
  refine bigSep_congr fun q _ => ?_
  by_cases hqc : q = c
  · rw [if_pos hqc, if_pos hqc]
  · rw [if_neg hqc, if_neg hqc]
    have hne : q.val ≠ c.val := fun h => hqc (Fin.ext h)
    exact if_congr ⟨fun a => by omega, fun a => by omega⟩ rfl rfl

theorem p1_res_zero (c : Dev nD) : p1_res (F := F) c 0 = bigSep (Finset.univ.erase c) (p1_unsent (F := F) c) := by
  unfold p1_res
  rw [bigSep_univ_at _ c, if_pos rfl,
    bigSep_congr (s := Finset.univ.erase c) (Ψ := p1_unsent (F := F) c) fun q hq => by
      rw [if_neg (Finset.ne_of_mem_erase hq), if_pos (Nat.zero_le _)]]
  exact equiv_iff.mp emp_sep

theorem p1_res_eight (c : Dev nD) : p1_res (F := F) c 8 = bigSep (Finset.univ.erase c) (p1_sent (F := F) c) := by
  unfold p1_res
  rw [bigSep_univ_at _ c, if_pos rfl,
    bigSep_congr (s := Finset.univ.erase c) (Ψ := p1_sent (F := F) c) fun q hq => by
      have h8 : q.val < 8 := q.isLt
      rw [if_neg (Finset.ne_of_mem_erase hq), if_neg (by omega)]]
  exact equiv_iff.mp emp_sep

/-- At the start: what is owed at launch, the tokens of all duties, and the buffer cut into rows. -/
theorem p1_start (c : Dev nD) (W : Waits sig Unit) (f : Buf (Elt F) ((c : Thread nD τ).loc cc0_scratch0)) :
    iprop(owes (c : Thread nD τ) (O₀ c) W ∗ bigSep (Finset.univ.erase c) (payToks (F := F) c)
        ∗ ((((c : Thread nD τ).loc cc0_scratch0) ↦{fullShare} f) : sProp 𝕄))
      ⊢ iprop(p1_st (F := F) c 0 W ∗ ∃ f, rowPts c c fullShare f) := by
  unfold p1_st
  rw [p1_res_zero]
  unfold p1_unsent
  rw [bigSep_sep']
  refine (sep_mono_right (sep_mono_right ((rows_split c fullShare f).1.trans
    ((Entails.of_eq (bigSep_univ_at (fun k : Dev nD => rowPts c k fullShare f) c)).trans
      (BIClass.sep_mono (exists_intro (Φ := fun f => rowPts (F := F) c c fullShare f) f)
        (bigSep_mono (Ψ := fun k : Dev nD => iprop(∃ f, rowPts (F := F) c k fullShare f))
          fun k _ => exists_intro (Φ := fun f => rowPts (F := F) c k fullShare f) f)))))).trans ?_
  iintro ⟨HO, Htoks, Hc, Hrows⟩
  isplitr [Hc]
  · isplitl [HO]; · iexact HO
    isplitl [Htoks]; · iexact Htoks
    iexact Hrows
  · iexact Hc

/-- At the end: the barrier cells are paid, the tokens for the copies remain. -/
theorem p1_end (c : Dev nD) (W : Waits sig Unit) :
    p1_st (F := F) c 8 W
      ⊢ iprop(owes (c : Thread nD τ) (Orcv c 0) W
        ∗ bigSep (Finset.univ.erase c) fun p => iprop(dutyTok ER (recvCell p c) 0 0 ∗ dutyTok ER (sendCell c p) 0 0)) := by
  unfold p1_st
  rw [p1_res_eight, Osig, stepSum_end, add_zero]
  exact .rfl

/-- The barrier cell's payload, spelt out. -/
theorem p1_payload_bar (m : (ℓ : Loc nD τ sig) → Buf (Elt F) ℓ) (ρ : Dev nD → PrngReg) (c d : Dev nD) : (rd (F := F) m ρ).payload (barCell c) 0 d
    = iprop((∃ f, ((rowM c).view.loc (d : Thread nD τ) ↦[(rowM c).view.set]{fullShare} f : sProp 𝕄)) ∗ reached ER (recvCell d c) 0) := payload_bar m ρ c d

attribute [local sl_rounds] duties_bar amount_bar p1_payload_bar

/-- One signal block: if `p` is another device the signal to it goes out, paying `p`'s barrier duty with row `p` of the
    buffer; if `p` is the device itself nothing happens. Either way the state moves from position `n` to `n + 1`. -/
theorem p1_block (m : (ℓ : Loc nD τ sig) → Buf (Elt F) ℓ) (ρ : Dev nD → PrngReg) (K : Dev nD × CK → ℕ) (c p : Dev nD) (n : ℕ) (hn : p.val = n) (cond : BitVec 1) (hcond : cond = 1#1 ↔ p ≠ c)
    (dev : ℕ) (hdev : dev = p.val) (hlt : cond = 1#1 → dev < nD) (W : Waits sig Unit) {α : Type}
    (k : Unit → Prog (TpuEff nD τ sig (Elt F) Λ₀ .tc) α) (Ψ : α → sProp 𝕄) :
    iprop(records m ρ K ∗ p1_st (F := F) c n W)
      ⊢ iprop((p1_st (F := F) c (n + 1) W -∗ wp frame (wpE (defs₀ (F := F)) 𝒱₀ c none) Set.univ (k PUnit.unit) Ψ)
          -∗ wp frame (wpE (defs₀ (F := F)) 𝒱₀ c none) Set.univ
              (if h : cond = 1#1 then (do semSignalWord (⟨dev, hlt h⟩ : Dev nD) barS 1#32 hamt_1; k PUnit.unit) else k PUnit.unit) Ψ) := by
  subst hdev
  subst hn
  unfold p1_st
  by_cases h : cond = 1#1
  · have hpc : p ≠ c := hcond.mp h
    have hmem : c ∈ (Finset.univ : Finset (Dev nD)).erase p := Finset.mem_erase.mpr ⟨hpc.symm, Finset.mem_univ _⟩
    have hO : Orcv c 0 + Osig c p.val = Orcv c 0 + Osig c (p.val + 1) + tallyAt (barCell p) () 1 := by
      show Orcv c 0 + stepSum (fun p => tallyAt (barCell p) () 1) c p.val = Orcv c 0 + stepSum (fun p => tallyAt (barCell p) () 1) c (p.val + 1) + _
      rw [stepSum_step _ hpc, add_assoc]
    rw [dif_pos h, p1_res_step c p hpc, p1_res_step_succ c p hpc, hO]
    unfold p1_unsent p1_sent payToks rowPts
    iintro ⟨#HK, HO, ⟨⟨Htb, Htr, Hts⟩, Hrow⟩, HB⟩ Hk
    ihave #HI := (show records m ρ K ⊢ cellInv ER (rd m ρ) (K (p, none)) (barCell p) from p1_records_inv m ρ K (p, none)) $$ HK
    ihave #Hrp := (show records m ρ K ⊢ reached ER (barCell p) 0 from p1_records_reached m ρ K (p, none)) $$ HK
    ihave #Hrc := (show records m ρ K ⊢ reached ER (recvCell c p) 0 from p1_records_reached m ρ K (c, some (true, p))) $$ HK
    sl_exec
    iapply Hk
    isplitl [HO]; · iexact HO
    isplitl [Htr Hts]
    · isplitl [Htr]; · iexact Htr
      iexact Hts
    iexact HB
  · have hpc : p = c := by by_contra hne; exact h (hcond.mpr hne)
    subst hpc
    rw [dif_neg h, p1_res_skip, Osig, Osig, stepSum_skip]
    iintro ⟨#HK, HS⟩ Hk
    iapply Hk
    iexact HS

/-- The staged block, seen through the memref the load goes through. -/
theorem p1_xview (m : (ℓ : Loc nD τ sig) → Buf (Elt F) ℓ) (ρ : Dev nD → PrngReg) (c : Dev nD) : iprop((((c : Thread nD τ).loc cc0_stg0_0) ↦{fullShare} xstg m ρ c) : sProp 𝕄)
    ⊢ iprop((xM : Memref sig .tc .vmem S1536x768 .f32).view.loc (c : Thread nD τ) ↦{fullShare} xstg m ρ c) := .rfl

/-! ## The eight conditions: block `N` runs on every device but device `N - 1` -/

theorem p1_cond1_iff : ∀ c : Dev nD, k0_cond1 c = 1#1 ↔ (0 : Dev nD) ≠ c := by decide +kernel
theorem p1_cond2_iff : ∀ c : Dev nD, k0_cond2 c = 1#1 ↔ (1 : Dev nD) ≠ c := by decide +kernel
theorem p1_cond3_iff : ∀ c : Dev nD, k0_cond3 c = 1#1 ↔ (2 : Dev nD) ≠ c := by decide +kernel
theorem p1_cond4_iff : ∀ c : Dev nD, k0_cond4 c = 1#1 ↔ (3 : Dev nD) ≠ c := by decide +kernel
theorem p1_cond5_iff : ∀ c : Dev nD, k0_cond5 c = 1#1 ↔ (4 : Dev nD) ≠ c := by decide +kernel
theorem p1_cond6_iff : ∀ c : Dev nD, k0_cond6 c = 1#1 ↔ (5 : Dev nD) ≠ c := by decide +kernel
theorem p1_cond7_iff : ∀ c : Dev nD, k0_cond7 c = 1#1 ↔ (6 : Dev nD) ≠ c := by decide +kernel
theorem p1_cond8_iff : ∀ c : Dev nD, k0_cond8 c = 1#1 ↔ (7 : Dev nD) ≠ c := by decide +kernel

/-! ## The stretch -/

theorem part1_spec (K : Dev nD × CK → ℕ) (c : Dev nD)
    (Ψ : (Σ' (d0 : Dev nD) (v2 : BitVec 32) (v3 : Sems sig S_), FVec F S1536x768 .f32) → sProp 𝕄) :
    iprop(records m ρ K ∗ pre1 m ρ c)
      ⊢ iprop((mid1 m ρ c -∗ Ψ ⟨c, posWord c, barSems, k0_pay1 (xstg m ρ c)⟩)
          -∗ wp frame (wpE (defs₀ (F := F)) 𝒱₀ c none) Set.univ
              (k0_part1 (F := F) (Memref.whole cc0_stg0_0) (Memref.isWhole_whole _) (Memref.whole cc0_stg1_0) (Memref.isWhole_whole _)
                (Memref.whole cc0_scratch0) (Memref.isWhole_whole _) cc0_scratch1 cc0_scratch2) Ψ) := by
  unfold pre1 mid1
  iintro ⟨#HK, Hat, Htoks, Hcb, Hcr, Hbuf, HO, Hx, Hout⟩ HΨ
  icases Hbuf with ⟨%f, Hbuf⟩
  icases HO with ⟨%W, HO⟩
  icases Hx with ⟨%fx, %hfx, Hx⟩
  subst hfx
  rw [k0_part1_eq_skeleton]
  unfold k0_part1_skel
  rw [Prog.bind_lift, wp_deviceId]
  beta_reduce
  extract_lets v0 v1 v2 v3 kL k8 k7 k6 k5 k4 k3 k2
  ihave HS := (p1_start c W f) $$ [HO Htoks Hbuf]
  · isplitl [HO]; · iexact HO
    isplitl [Htoks]; · iexact Htoks
    iexact Hbuf
  icases HS with ⟨HS, Hrow⟩
  iapply (p1_block m ρ K c (0 : Dev nD) 0 rfl (k0_cond1 c) (p1_cond1_iff c) k0_dev1 k0_dev1_eq (k0_dev1_lt c) W k2 Ψ) $$ [HS]
  · isplitr; · iexact HK
    iexact HS
  iintro HS
  iapply (p1_block m ρ K c (1 : Dev nD) 1 rfl (k0_cond2 c) (p1_cond2_iff c) k0_dev2 k0_dev2_eq (k0_dev2_lt c) W k3 Ψ) $$ [HS]
  · isplitr; · iexact HK
    iexact HS
  iintro HS
  iapply (p1_block m ρ K c (2 : Dev nD) 2 rfl (k0_cond3 c) (p1_cond3_iff c) k0_dev3 k0_dev3_eq (k0_dev3_lt c) W k4 Ψ) $$ [HS]
  · isplitr; · iexact HK
    iexact HS
  iintro HS
  iapply (p1_block m ρ K c (3 : Dev nD) 3 rfl (k0_cond4 c) (p1_cond4_iff c) k0_dev4 k0_dev4_eq (k0_dev4_lt c) W k5 Ψ) $$ [HS]
  · isplitr; · iexact HK
    iexact HS
  iintro HS
  iapply (p1_block m ρ K c (4 : Dev nD) 4 rfl (k0_cond5 c) (p1_cond5_iff c) k0_dev5 k0_dev5_eq (k0_dev5_lt c) W k6 Ψ) $$ [HS]
  · isplitr; · iexact HK
    iexact HS
  iintro HS
  iapply (p1_block m ρ K c (5 : Dev nD) 5 rfl (k0_cond6 c) (p1_cond6_iff c) k0_dev6 k0_dev6_eq (k0_dev6_lt c) W k7 Ψ) $$ [HS]
  · isplitr; · iexact HK
    iexact HS
  iintro HS
  iapply (p1_block m ρ K c (6 : Dev nD) 6 rfl (k0_cond7 c) (p1_cond7_iff c) k0_dev7 k0_dev7_eq (k0_dev7_lt c) W k8 Ψ) $$ [HS]
  · isplitr; · iexact HK
    iexact HS
  iintro HS
  iapply (p1_block m ρ K c (7 : Dev nD) 7 rfl (k0_cond8 c) (p1_cond8_iff c) k0_dev8 k0_dev8_eq (k0_dev8_lt c) W kL Ψ) $$ [HS]
  · isplitr; · iexact HK
    iexact HS
  iintro HS
  ihave HE := (p1_end c W) $$ HS
  icases HE with ⟨HO, Htoks⟩
  simp only [kL]
  ihave Hxv := (p1_xview m ρ c) $$ Hx
  sl_exec
  rw [show View.readAt (Elt F) (xM : Memref sig .tc .vmem S1536x768 .f32).view
        (Rect.unit (s := S1536x768) ![0, 0] ![1536, 768] inb_S1536x768_S1536x768_0_0).toLoadRect (xstg m ρ c) = xstg m ρ c from
      Memref.readAt_unit_zero (Elt F) cc0_stg0_0 (by funext a; fin_cases a <;> rfl) _ _]
  sl_step
  iapply HΨ
  isplitl [Hat]; · iexact Hat
  isplitl [Htoks]; · iexact Htoks
  isplitl [Hcb]; · iexact Hcb
  isplitl [Hcr]; · iexact Hcr
  isplitl [Hrow]; · iexact Hrow
  isplitl [HO]; · iexists W; iexact HO
  isplitl [Hxv]
  · iexists (xstg m ρ c)
    isplitr
    · ipureintro; rfl
    · iexact Hxv
  iexact Hout

/-- info: 'Cert.Kernel.Proto.part1_spec' depends on axioms: [propext, Classical.choice, Quot.sound] -/
#guard_msgs in #print axioms part1_spec

end Cert.Kernel.Proto

end
-- ==== Proof.Bits.Geom.lean ====
/-
  The geometry of the gathered buffer's rows.

  Row `k` of the eight-row buffer is the rectangle of one row at offsets `(k, 0, 0)`. A store through that rectangle
  writes the row and nothing else; what it leaves on the own row is the gathered buffer's contents there. A copy
  between the same rows of two devices' buffers carries the source's contents over, element for element. A row's
  transfer credits a DMA semaphore the row's credit. The slices the program takes at a device's own position are its
  own row and its receive semaphore.
-/
import proofs.«901082_g7700000000001083_dist_sum_ax0_shard0_i_m1536_n768_v7x_i8_f32_1_alg».proof.Proof.Bits.Rows

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The row as a set of elements -/

/-- The elements an access through row `c`'s rectangle reaches are the row's. -/
theorem access_rowR_set (c : Dev nD) :
    ((((rM : Memref sig .tc .vmem S8x1x768 .f32).access (rowR c) : View sig .tc .vmem S1x1x768 .f32).set) : Finset S8x1x768.Idx)
      = ((rowM c).view.set : Finset S8x1x768.Idx) := by
  have e : ((rowM c).view.set : Finset S8x1x768.Idx) = (rowR c).set := by
    show (((View.whole cc0_scratch0 : View sig .tc .vmem _ _).slice (rowR c)).reshape S1x768 _).set = _
    rw [View.set_reshape, View.set_slice_whole]
  have e' : ((((rM : Memref sig .tc .vmem S8x1x768 .f32).access (rowR c) : View sig .tc .vmem S1x1x768 .f32).set) : Finset S8x1x768.Idx) = (rowR c).set := by
    show ((View.whole cc0_scratch0 : View sig .tc .vmem _ _).slice (rowR c)).set = _
    rw [View.set_slice_whole]
  rw [e, e']

/-- The same at offsets that are the row's, however they are spelt. -/
theorem access_row_set (c : Dev nD) (off : Fin 3 → Nat) (hoff : off = ![c.val, 0, 0])
    (inb : ∀ a, off a + S1x1x768.size a ≤ S8x1x768.size a) :
    ((((rM : Memref sig .tc .vmem S8x1x768 .f32).access (Rect.unit (s := S8x1x768) off S1x1x768.size inb) : View sig .tc .vmem S1x1x768 .f32).set) : Finset S8x1x768.Idx)
      = ((rowM c).view.set : Finset S8x1x768.Idx) := by
  subst hoff; exact access_rowR_set c

/-- A store through the own row's rectangle writes inside the row: -/
theorem store_row_setOn (c : Dev nD) :
    ((rM : Memref sig .tc .vmem S8x1x768 .f32).access (Rect.unit (s := S8x1x768) (k0_off1 c) S1x1x768.size (k0_off1_inb c)) : View sig .tc .vmem S1x1x768 .f32).setOn Finset.univ
      ⊆ ((rowM c).view.set : Finset S8x1x768.Idx) := by
  rw [View.setOn_univ, access_row_set c _ (k0_off1_eq c)]

/-- and a load through it reads inside the row. -/
theorem load_row_setOn (c : Dev nD) :
    (rM : Memref sig .tc .vmem S8x1x768 .f32).view.setOn (Rect.unit (s := S8x1x768) (k0_off1 c) S1x1x768.size (k0_off1_inb c)).toLoadRect.set
      ⊆ ((rowM c).view.set : Finset S8x1x768.Idx) := by
  have h := access_row_set c _ (k0_off1_eq c) (k0_off1_inb c)
  rw [View.set_slice] at h
  exact h.le

/-! ## What a store and a copy leave on a row -/

/-- An element of row `c` lies in row `c`, -/
theorem rowOf_eq {c : Dev nD} {i : S8x1x768.Idx} (hi : (i 0).val = c.val) : rowOf i = c := Fin.ext hi

/-- The store of a device's partial sum into its own row leaves, on the row, the gathered buffer's contents. -/
theorem store_row (m : (ℓ : Loc nD τ sig) → Buf (Elt F) ℓ) (ρ : Dev nD → PrngReg) (c : Dev nD)
    (f0 : Buf (Elt F) ((c : Thread nD τ).loc cc0_scratch0)) (i : S8x1x768.Idx) (hi : (i 0).val = c.val) :
    ((rM : Memref sig .tc .vmem S8x1x768 .f32).access (rowR c) : View sig .tc .vmem S1x1x768 .f32).write (Elt F) f0
        (k0_pay2 (k0_pay1 (xstg m ρ c))) Finset.univ i = gathered m ρ c i := by
  have hmem : i ∈ (((rM : Memref sig .tc .vmem S8x1x768 .f32).access (rowR c) : View sig .tc .vmem S1x1x768 .f32).set : Finset S8x1x768.Idx) := by
    rw [access_rowR_set]; exact (mem_row c i).mpr hi
  obtain ⟨y, hy⟩ := View.exists_emb_of_mem_set _ hmem
  subst hy
  rw [View.write_emb_of_mem _ _ (Finset.mem_univ y)]
  show _ = part (xs m ρ (rowOf _)) (inRow _)
  rw [rowOf_eq hi]
  have hin : inRow (((rM : Memref sig .tc .vmem S8x1x768 .f32).access (rowR c) : View sig .tc .vmem S1x1x768 .f32).emb y) = y := by
    funext a
    fin_cases a
    · exact Fin.ext (by have := (y 0).isLt; simp at this; simp [inRow]; omega)
    · exact Fin.ext (by have := (y 1).isLt; simp at this; simp [inRow]; omega)
    · refine Fin.ext ?_
      show ((rowR c).emb y 2 : ℕ) = (y 2 : ℕ)
      rw [Rect.emb_apply]
      show 0 + 1 * (y 2 : ℕ) = (y 2 : ℕ)
      omega
  rw [hin]
  rfl

/-- The same through the rectangle as the program spells it. -/
theorem store_row_off (m : (ℓ : Loc nD τ sig) → Buf (Elt F) ℓ) (ρ : Dev nD → PrngReg) (c : Dev nD)
    (f0 : Buf (Elt F) ((c : Thread nD τ).loc cc0_scratch0)) (i : S8x1x768.Idx) (hi : (i 0).val = c.val) :
    ((rM : Memref sig .tc .vmem S8x1x768 .f32).access (Rect.unit (s := S8x1x768) (k0_off1 c) S1x1x768.size (k0_off1_inb c)) : View sig .tc .vmem S1x1x768 .f32).write (Elt F) f0
        (k0_pay2 (k0_pay1 (xstg m ρ c))) Finset.univ i = gathered m ρ c i := by
  have h : ∀ (off : Fin 3 → Nat) (hoff : off = ![c.val, 0, 0]) (inb : ∀ a, off a + S1x1x768.size a ≤ S8x1x768.size a),
      ((rM : Memref sig .tc .vmem S8x1x768 .f32).access (Rect.unit (s := S8x1x768) off S1x1x768.size inb) : View sig .tc .vmem S1x1x768 .f32).write (Elt F) f0
        (k0_pay2 (k0_pay1 (xstg m ρ c))) Finset.univ i = gathered m ρ c i := by
    intro off hoff inb; subst hoff; exact store_row m ρ c f0 i hi
  exact h _ (k0_off1_eq c) _

/-- A copy between the same rows of two devices' buffers carries the source's contents over. -/
theorem xfer_row (k p : Dev nD) (fd : Buf (Elt F) ((p : Thread nD τ).loc cc0_scratch0)) (fs : Buf (Elt F) ((k : Thread nD τ).loc cc0_scratch0))
    (i : S8x1x768.Idx) (hi : (i 0).val = k.val) :
    (rowM k).view.write (Elt F) fd ((rowM k).view.read (Elt F) fs) Finset.univ i = fs i := by
  obtain ⟨y, hy⟩ := View.exists_emb_of_mem_set (rowM k).view ((mem_row k i).mpr hi)
  subst hy
  rw [View.write_emb_of_mem _ _ (Finset.mem_univ y), View.read_apply, cast_cast, cast_eq]

/-! ## The row's credit; the program's slices -/

/-- A row's transfer credits a DMA semaphore the row's credit. -/
theorem row_dmaCredit (k : Dev nD) : (rowM k).view.dmaCredit = N := by
  show RefSig.tileCredit S1x768 .f32 = 768
  decide +kernel
theorem row_amount (k : Dev nD) (s : DmaSem sig) : (rowM k).view.amount (.dma s) = N := row_dmaCredit k

/-- The program's slice of the buffer at a device's own position is its own row. -/
theorem send_slice_eq (c : Dev nD) (off : Fin 3 → Nat) (hoff : off = ![c.val, 0, 0]) (inb : ∀ a, off a + S1x1x768.size a ≤ S8x1x768.size a) :
    ((rM : Memref sig .tc .vmem S8x1x768 .f32).slice (Rect.unit (s := S8x1x768) off S1x1x768.size inb) (fun _ => rfl)).squeeze S1x768 squeezes_S1x1x768_S1x768
      = rowM c := by
  subst hoff; rfl

/-- The send semaphore towards device `j`, -/
theorem send_sem_eq (j : Dev nD) (off : Fin 1 → Nat) (hoff : off = ![j.val]) (inb : ∀ a, off a + S1.size a ≤ S8.size a) :
    ((cc0_scratch1.slice (Rect.unit (s := S8) off S1.size inb)).squeeze S_ squeezes_S1_S_ : DmaSems sig S_).sem = sendS j := by
  subst hoff
  refine Fin.ext ?_
  revert j; decide +kernel

/-- and the receive semaphore for the copy from device `c`. -/
theorem recv_sem_eq (c : Dev nD) (off : Fin 1 → Nat) (hoff : off = ![c.val]) (inb : ∀ a, off a + S1.size a ≤ S8.size a) :
    ((cc0_scratch2.slice (Rect.unit (s := S8) off S1.size inb)).squeeze S_ squeezes_S1_S_ : DmaSems sig S_).sem = recvS c := by
  subst hoff
  refine Fin.ext ?_
  revert c; decide +kernel

/-- info: 'Cert.Kernel.Proto.store_row' depends on axioms: [propext, Classical.choice, Quot.sound] -/
#guard_msgs in #print axioms store_row

/-- info: 'Cert.Kernel.Proto.store_row_off' depends on axioms: [propext, Classical.choice, Quot.sound] -/
#guard_msgs in #print axioms store_row_off

/-- info: 'Cert.Kernel.Proto.xfer_row' depends on axioms: [propext, Classical.choice, Quot.sound] -/
#guard_msgs in #print axioms xfer_row

/-- info: 'Cert.Kernel.Proto.row_amount' depends on axioms: [propext, Classical.choice, Quot.sound] -/
#guard_msgs in #print axioms row_amount

/-- info: 'Cert.Kernel.Proto.send_slice_eq' depends on axioms: [propext, Classical.choice, Quot.sound] -/
#guard_msgs in #print axioms send_slice_eq

/-- info: 'Cert.Kernel.Proto.send_sem_eq' depends on axioms: [propext, Classical.choice, Quot.sound] -/
#guard_msgs in #print axioms send_sem_eq

/-- info: 'Cert.Kernel.Proto.recv_sem_eq' depends on axioms: [propext, Classical.choice, Quot.sound] -/
#guard_msgs in #print axioms recv_sem_eq

/-- info: 'Cert.Kernel.Proto.store_row_setOn' depends on axioms: [propext, Classical.choice, Quot.sound] -/
#guard_msgs in #print axioms store_row_setOn

/-- info: 'Cert.Kernel.Proto.load_row_setOn' depends on axioms: [propext, Classical.choice, Quot.sound] -/
#guard_msgs in #print axioms load_row_setOn

end Cert.Kernel.Proto

end
-- ==== Proof.Bits.Part2.lean ====
/-
  The second stretch of a device's body: the store of its partial sum, the barrier wait, the copies to the other devices.
-/
import proofs.«901082_g7700000000001083_dist_sum_ax0_shard0_i_m1536_n768_v7x_i8_f32_1_alg».proof.Proof.Bits.Geom

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Geometry of a row -/

/-- The elements of a row, as the copies' memref and as the rectangle see them. -/
theorem rowM_set (k : Dev nD) : (rowM k).view.set = (rM.access (rowR k)).set := by
  simp only [Memref.view_squeeze, Memref.view_slice, View.set_reshape]

/-- A load through the rectangle of row `c`, whatever way its offsets are spelt, from the row's points-to. -/
theorem wp_load_row (c : Dev nD) (off : Fin 3 → Nat) (hoff : off = ![c.val, 0, 0])
    (inb : ∀ a, off a + S1x1x768.size a ≤ S8x1x768.size a)
    {hl : (rM : Memref sig .tc .vmem S8x1x768 .f32).view.LoadsAt (Rect.unit (s := S8x1x768) off S1x1x768.size inb).toLoadRect}
    {α : Type} {k : ((Rect.unit (s := S8x1x768) off S1x1x768.size inb).toLoadRect.shape.Idx → Elt F .f32) → Prog (TpuEff nD τ sig (Elt F) Λ₀ .tc) α}
    {Q : α → sProp 𝕄} (q : PosShare TreeShare) (f : Buf (Elt F) ((c : Thread nD τ).loc cc0_scratch0)) :
    rowPts c c q f
      ⊢ iprop((∀ v, rowPts c c q f -∗ wp frame (wpE (defs₀ (F := F)) 𝒱₀ c none) Set.univ (k v) Q)
        -∗ wp frame (wpE (defs₀ (F := F)) 𝒱₀ c none) Set.univ (.op (.load rM (Rect.unit (s := S8x1x768) off S1x1x768.size inb).toLoadRect hl) k) Q) := by
  subst hoff
  exact (wp_load_rect (defs := defs₀ (F := F)) 𝒱₀ (c : Thread nD τ) none Set.univ (m := rM) (r := rowR c) (S := (rowM c).view.set) (q := q) (f := f)
    (rowM_set c).ge).trans (wand_mono_left (forall_elim (PROP := sProp 𝕄) _))

/-- A store through the rectangle of row `c`, whatever way its offsets are spelt, into the row held whole. -/
theorem wp_store_row (c : Dev nD) (off : Fin 3 → Nat) (hoff : off = ![c.val, 0, 0])
    (inb : ∀ a, off a + S1x1x768.size a ≤ S8x1x768.size a) (w : FVec F S1x1x768 .f32)
    {hx : ((rM : Memref sig .tc .vmem S8x1x768 .f32).access (Rect.unit (s := S8x1x768) off S1x1x768.size inb)).Stores Finset.univ}
    {hm : (Finset.univ : Finset (Rect.unit (s := S8x1x768) off S1x1x768.size inb).shape.Idx) = Finset.univ ∨ ∀ a, (Rect.unit (s := S8x1x768) off S1x1x768.size inb).stride a = 1}
    {α : Type} {k : PUnit → Prog (TpuEff nD τ sig (Elt F) Λ₀ .tc) α}
    {Q : α → sProp 𝕄} (f : Buf (Elt F) ((c : Thread nD τ).loc cc0_scratch0)) :
    rowPts c c fullShare f
      ⊢ iprop((rowPts c c fullShare ((rM.access (rowR c)).write (Elt F) f w Finset.univ) -∗ wp frame (wpE (defs₀ (F := F)) 𝒱₀ c none) Set.univ (k ⟨⟩) Q)
        -∗ wp frame (wpE (defs₀ (F := F)) 𝒱₀ c none) Set.univ (.op (.store rM (Rect.unit (s := S8x1x768) off S1x1x768.size inb) w Finset.univ hx hm) k) Q) := by
  subst hoff
  exact wp_store 𝒱₀ (c : Thread nD τ) none Set.univ (m := rM) (r := rowR c) (S := (rowM c).view.set) (f := f)
    (by rw [View.setOn_univ]; exact (rowM_set c).ge)

/-! ## The positions: the barrier cell's apart from the sixteen others -/

theorem univ_erase_none {α : Type} [Fintype α] [DecidableEq α] :
    (Finset.univ : Finset (Option α)).erase none = Finset.univ.map ⟨some, Option.some_injective α⟩ := by
  ext x
  cases x with
  | none => simp
  | some a => simp

theorem pos_split (c : Dev nD) :
    (bigSep Finset.univ fun k : CK => (atPos ER (kcell (c, k)) 0 ∅ 0 : sProp 𝕄))
      = iprop(atPos ER (barCell c) 0 ∅ 0 ∗ bigSep Finset.univ fun bj : Bool × Dev nD => atPos ER (kcell (c, some bj)) 0 ∅ 0) := by
  rw [bigSep_univ_at _ (none : CK), univ_erase_none, bigSep_map]
  rfl

/-! ## Out of the records -/

theorem univ_elim {I : Type} [Fintype I] [DecidableEq I] (Φ : I → sProp 𝕄) (i : I) : bigSep Finset.univ Φ ⊢ Φ i :=
  bigSep_elim (Finset.mem_univ i)

theorem records_inv (K : Dev nD × CK → ℕ) (ck : Dev nD × CK) : records m ρ K ⊢ cellInv ER (rd m ρ) (K ck) (kcell ck) := by
  unfold records
  iintro ⟨H, _⟩
  iapply (univ_elim (fun ck : Dev nD × CK => cellInv ER (rd m ρ) (K ck) (kcell ck)) ck) $$ H
theorem records_reached (K : Dev nD × CK → ℕ) (ck : Dev nD × CK) : records m ρ K ⊢ reached ER (kcell ck) 0 := by
  unfold records
  iintro ⟨_, H⟩
  iapply (univ_elim (fun ck : Dev nD × CK => (reached ER (kcell ck) 0 : sProp 𝕄)) ck) $$ H

/-! ## What the device holds towards each other device, before and after its copy to it -/

/-- Before the copy to `p`: the tokens of the two duties the copy pays, the credit of the own receive cell for `p`, the
    share of the own row the copy will read through, and what `p`'s signal handed over. -/
def unsent (c p : Dev nD) : sProp 𝕄 :=
  iprop((dutyTok ER (recvCell p c) 0 0 ∗ dutyTok ER (sendCell c p) 0 0) ∗ cred (tallyAt (recvCell c p) () N)
    ∗ rowPts c c (sh p) (gathered m ρ c) ∗ barPay (F := F) c p)
/-- After it: the credit of the send cell beside that of the receive cell. -/
def sent (c p : Dev nD) : sProp 𝕄 := iprop(cred (tallyAt (sendCell c p) () N) ∗ cred (tallyAt (recvCell c p) () N))
/-- When the copies to the devices below `n` are out. -/
def stage (c : Dev nD) (n : ℕ) : sProp 𝕄 :=
  bigSep (Finset.univ.erase c) fun p => if n ≤ p.val then unsent m ρ c p else sent (F := F) c p

theorem stage_congr_succ (c p : Dev nD) (S : Finset (Dev nD)) (hS : ∀ q ∈ S, q ≠ p) :
    bigSep S (fun q => if p.val ≤ q.val then unsent m ρ c q else sent (F := F) c q)
      = bigSep S (fun q => if p.val + 1 ≤ q.val then unsent m ρ c q else sent (F := F) c q) :=
  bigSep_congr fun q hq => by
    have hne : q.val ≠ p.val := fun h => hS q hq (Fin.ext h)
    exact if_congr ⟨fun a => by omega, fun a => by omega⟩ rfl rfl

theorem stage_step (c p : Dev nD) (hp : p ≠ c) :
    stage m ρ c p.val ⊢ iprop(unsent m ρ c p ∗ (sent (F := F) c p -∗ stage m ρ c (p.val + 1))) := by
  unfold stage
  have hm : p ∈ Finset.univ.erase c := Finset.mem_erase.mpr ⟨hp, Finset.mem_univ p⟩
  have e1 : bigSep (Finset.univ.erase c) (fun q => if p.val ≤ q.val then unsent m ρ c q else sent (F := F) c q)
      = iprop(unsent m ρ c p ∗ bigSep ((Finset.univ.erase c).erase p) (fun q => if p.val + 1 ≤ q.val then unsent m ρ c q else sent (F := F) c q)) := by
    rw [bigSep_erase hm, if_pos le_rfl, stage_congr_succ m ρ c p _ fun q hq => Finset.ne_of_mem_erase hq]; rfl
  have e2 : bigSep (Finset.univ.erase c) (fun q => if p.val + 1 ≤ q.val then unsent m ρ c q else sent (F := F) c q)
      = iprop(sent (F := F) c p ∗ bigSep ((Finset.univ.erase c).erase p) (fun q => if p.val + 1 ≤ q.val then unsent m ρ c q else sent (F := F) c q)) := by
    rw [bigSep_erase hm, if_neg (by omega)]; rfl
  rw [e1, e2]
  iintro ⟨H, Hrest⟩
  isplitl [H]; · iexact H
  iintro Hs
  isplitl [Hs]; · iexact Hs
  iexact Hrest

theorem stage_skip (c : Dev nD) : stage m ρ c c.val = stage m ρ c (c.val + 1) := by
  unfold stage
  exact stage_congr_succ m ρ c c _ fun q hq => Finset.ne_of_mem_erase hq

theorem stage_end (c : Dev nD) : stage m ρ c 8 = bigSep (Finset.univ.erase c) (sent (F := F) c) := by
  unfold stage
  exact bigSep_congr fun q _ => if_neg (by have h8 : q.val < 8 := q.isLt; omega)

theorem stage_intro (c : Dev nD) :
    iprop((bigSep (Finset.univ.erase c) fun p => iprop(dutyTok ER (recvCell p c) 0 0 ∗ dutyTok ER (sendCell c p) 0 0))
        ∗ (bigSep (Finset.univ.erase c) fun p => cred (tallyAt (recvCell c p) () N))
        ∗ (bigSep (Finset.univ.erase c) fun p => rowPts c c (sh p) (gathered m ρ c))
        ∗ bigSep (Finset.univ.erase c) (barPay (F := F) c))
      ⊢ stage m ρ c 0 := by
  have e : stage m ρ c 0 = bigSep (Finset.univ.erase c) (unsent m ρ c) := by
    unfold stage
    exact bigSep_congr fun q _ => if_pos (Nat.zero_le _)
  rw [e]
  unfold unsent
  simp only [bigSep_sep']
  iintro H; iexact H

/-- The own row as the store leaves it, as the share no copy reads through and the seven the copies do. -/
theorem own_shares (c : Dev nD) (f0 : Buf (Elt F) ((c : Thread nD τ).loc cc0_scratch0)) :
    rowPts c c fullShare ((rM.access (rowR c)).write (Elt F) f0 (k0_pay2 (k0_pay1 (xstg m ρ c))) Finset.univ)
      ⊢ iprop(rowPts c c (sh c) (gathered m ρ c) ∗ bigSep (Finset.univ.erase c) fun j => rowPts c c (sh j) (gathered m ρ c)) := by
  rw [← bigSep_univ_at (fun j => rowPts c c (sh j) (gathered m ρ c)) c,
    rowPts_congr c c fullShare (g := gathered m ρ c) (fun i hi => store_row m ρ c f0 i hi)]
  exact (row_shares c c (gathered m ρ c)).1

/-! ## One copy -/

/-- The copy of the own row into row `c` of device `p`'s buffer: it pays the send cell's duty with the share it reads
    through and the receive cell's duty on `p` with row `c` there, rewritten to the partial sum. -/
theorem send_core (K : Dev nD × CK → ℕ) (c p : Dev nD) (hp : p ≠ c)
    (src dst : Memref sig .tc .vmem S1x768 .f32) (hsrc : src = rowM c) (hdst : dst = rowM c)
    (sS sR : DmaSem sig) (hS : sS = sendS p) (hR : sR = recvS c) (dv : Dev nD) (hdv : dv = p)
    {hsc : dst.view.ref.isScScratch = false} {we₁ : src.view.WordExact} {we₂ : dst.view.WordExact}
    {ty : DmaTarget.Typed (nD := nD) (τ := τ) .vmem (.dma sR) (.remote (Dev.tc dv) dst (.dma sS) hsc)}
    (rest : Prog (TpuEff nD τ sig (Elt F) Λ₀ .tc) PUnit) (Ψ : PUnit → sProp 𝕄) :
    iprop(records m ρ K ∗ unsent m ρ c p ∗ ∃ W, owes (c : Thread nD τ) (Orcv c p.val) W)
      ⊢ iprop(((sent (F := F) c p ∗ ∃ W, owes (c : Thread nD τ) (Orcv c (p.val + 1)) W)
            -∗ wp frame (wpE (defs₀ (F := F)) 𝒱₀ c none) Set.univ rest Ψ)
          -∗ wp frame (wpE (defs₀ (F := F)) 𝒱₀ c none) Set.univ
              (Prog.op (.enqueueDma src (.remote (Dev.tc dv) dst (.dma sS) hsc) (.dma sR) we₁ we₂ ty) Prog.ret >>= fun _ => rest) Ψ) := by
  subst hsrc hdst hS hR hdv
  unfold unsent barPay
  iintro ⟨#Hrec, ⟨⟨HtR, HtS⟩, HcR, Hsh, ⟨%fd, Hd⟩, Hr2⟩, ⟨%W, HO⟩⟩ Hk
  rw [wp_bind]
  ihave Hi1 := (records_inv m ρ K (c, some (false, dv))) $$ Hrec
  ihave Hi2 := (records_inv m ρ K (dv, some (true, c))) $$ Hrec
  ihave Hr1 := (records_reached m ρ K (c, some (false, dv))) $$ Hrec
  unfold rowPts
  iapply (wp_send_pointsTo 𝒱₀ ER (rd m ρ) (c : Thread nD τ) none (c' := (dv : Thread nD τ)) (src := rowM c) (dst := rowM c)
      (sS := .dma (sendS dv)) (sem := .dma (recvS c)) (q := sh dv) (fs := gathered m ρ c) (fd := fd)
      (κ₁ := K (c, some (false, dv))) (κ₂ := K (dv, some (true, c))) (r₁ := 0) (r₂ := 0) (d₁ := 0) (d₂ := 0)
      (by rw [duties_send m ρ c dv hp]; exact Finset.mem_singleton_self _)
      (by rw [duties_recv m ρ dv c hp.symm]; exact Finset.mem_singleton_self _)
      () () N (row_amount c (recvS c)) (amount_send m ρ c dv 0) (amount_recv m ρ dv c 0)
      (Orcv c (dv.val + 1)) (stepSum_step _ hp)
      (by rw [payload_send]; exact .rfl)
      (by rw [payload_recv]; unfold recvPay rowPts
          rw [pointsTo_congr (g := gathered m ρ dv) fun i hi => (xfer_row c dv fd (gathered m ρ c) i ((mem_row c i).mp hi)).trans rfl])) $$ [Hi1 Hi2 Hsh Hd HO HtS Hr1 HtR Hr2]
  · isplitl [Hi1]; · iexact Hi1
    isplitl [Hi2]; · iexact Hi2
    isplitl [Hsh]; · iexact Hsh
    isplitl [Hd]; · iexact Hd
    isplitl [HO]; · iexact HO
    isplitl [HtS]; · iexact HtS
    isplitl [Hr1]; · iexact Hr1
    isplitl [HtR]; · iexact HtR
    iexact Hr2
  iintro ⟨HcS, HO⟩
  rw [wp_ret]; imodintro
  iapply Hk
  isplitl [HcS HcR]
  · unfold sent
    isplitl [HcS]; · iexact HcS
    iexact HcR
  iexists _; iexact HO

theorem stepSum_skip_Orcv (c : Dev nD) : Orcv c c.val = Orcv c (c.val + 1) := stepSum_skip _ c

/-! ## One block: the copy to device `p`, unless `p` is the device itself -/

theorem send_block (K : Dev nD × CK → ℕ) (c p : Dev nD) (n n' : ℕ) (hn : p.val = n) (hn' : n' = n + 1)
    (cond : BitVec 1) (hcond : cond = 1#1 ↔ p ≠ c)
    (src dst : cond = 1#1 → Memref sig .tc .vmem S1x768 .f32) (hsrc : ∀ h, src h = rowM c) (hdst : ∀ h, dst h = rowM c)
    (sS : DmaSem sig) (hS : sS = sendS p) (sR : cond = 1#1 → DmaSem sig) (hR : ∀ h, sR h = recvS c)
    (dv : cond = 1#1 → Dev nD) (hdv : ∀ h, dv h = p)
    {hsc : ∀ h, (dst h).view.ref.isScScratch = false} {we₁ : ∀ h, (src h).view.WordExact} {we₂ : ∀ h, (dst h).view.WordExact}
    {ty : ∀ h, DmaTarget.Typed (nD := nD) (τ := τ) .vmem (.dma (sR h)) (.remote (Dev.tc (dv h)) (dst h) (.dma sS) (hsc h))}
    (rest : Prog (TpuEff nD τ sig (Elt F) Λ₀ .tc) PUnit) (Ψ : PUnit → sProp 𝕄) :
    iprop(records m ρ K ∗ stage m ρ c n ∗ ∃ W, owes (c : Thread nD τ) (Orcv c n) W)
      ⊢ iprop(((stage m ρ c n' ∗ ∃ W, owes (c : Thread nD τ) (Orcv c n') W)
            -∗ wp frame (wpE (defs₀ (F := F)) 𝒱₀ c none) Set.univ rest Ψ)
          -∗ wp frame (wpE (defs₀ (F := F)) 𝒱₀ c none) Set.univ
              (if h : cond = 1#1 then
                (Prog.op (.enqueueDma (src h) (.remote (Dev.tc (dv h)) (dst h) (.dma sS) (hsc h)) (.dma (sR h)) (we₁ h) (we₂ h) (ty h)) Prog.ret
                  >>= fun _ => rest)
               else rest) Ψ) := by
  subst hn hn'
  by_cases h : cond = 1#1
  · have hp : p ≠ c := hcond.mp h
    rw [dif_pos h]
    iintro ⟨#Hrec, Hst, HO⟩ Hk
    ihave Hst := (stage_step m ρ c p hp) $$ Hst
    icases Hst with ⟨Hun, Hst⟩
    iapply (send_core m ρ K c p hp (src h) (dst h) (hsrc h) (hdst h) sS (sR h) hS (hR h) (dv h) (hdv h) rest Ψ) $$ [Hun HO]
    · isplitr; · iexact Hrec
      isplitl [Hun]; · iexact Hun
      iexact HO
    iintro ⟨Hs, HO⟩
    iapply Hk
    isplitl [Hs Hst]
    · iapply Hst $$ Hs
    iexact HO
  · have hp : p = c := by by_contra hne; exact h (hcond.mpr hne)
    subst hp
    rw [dif_neg h, stage_skip m ρ p, stepSum_skip_Orcv p]
    iintro ⟨_, Hst, HO⟩ Hk
    iapply Hk
    isplitl [Hst]; · iexact Hst
    iexact HO

/-! ## The blocks' conditions -/
theorem cond9_iff : ∀ c : Dev nD, k0_cond9 c = 1#1 ↔ (0 : Dev nD) ≠ c := by decide +kernel
theorem cond10_iff : ∀ c : Dev nD, k0_cond10 c = 1#1 ↔ (1 : Dev nD) ≠ c := by decide +kernel
theorem cond11_iff : ∀ c : Dev nD, k0_cond11 c = 1#1 ↔ (2 : Dev nD) ≠ c := by decide +kernel
theorem cond12_iff : ∀ c : Dev nD, k0_cond12 c = 1#1 ↔ (3 : Dev nD) ≠ c := by decide +kernel
theorem cond13_iff : ∀ c : Dev nD, k0_cond13 c = 1#1 ↔ (4 : Dev nD) ≠ c := by decide +kernel
theorem cond14_iff : ∀ c : Dev nD, k0_cond14 c = 1#1 ↔ (5 : Dev nD) ≠ c := by decide +kernel
theorem cond15_iff : ∀ c : Dev nD, k0_cond15 c = 1#1 ↔ (6 : Dev nD) ≠ c := by decide +kernel
theorem cond16_iff : ∀ c : Dev nD, k0_cond16 c = 1#1 ↔ (7 : Dev nD) ≠ c := by decide +kernel

/-! ## When all the copies are out -/

theorem stage_sent (c : Dev nD) :
    stage m ρ c 8 ⊢ bigSep (Finset.univ.erase c) fun p => iprop(cred (tallyAt (sendCell c p) () N) ∗ cred (tallyAt (recvCell c p) () N)) := by
  rw [stage_end]; unfold sent
  iintro H; iexact H

theorem owes_end (c : Dev nD) (W : Waits sig Unit) : (owes (c : Thread nD τ) (Orcv c 8) W : sProp 𝕄) ⊢ owes (c : Thread nD τ) 0 W := by
  rw [show Orcv c 8 = 0 from stepSum_end _ c]

/-! ## The stretch -/

set_option maxHeartbeats 1000000 in
theorem part2_spec (K : Dev nD × CK → ℕ) (c : Dev nD) (Ψ : PUnit → sProp 𝕄) :
    iprop(records m ρ K ∗ levAts L lv ∗ mid1 m ρ c)
      ⊢ iprop((mid2 m ρ c -∗ Ψ ⟨⟩)
          -∗ wp frame (wpE (defs₀ (F := F)) 𝒱₀ c none) Set.univ
              (k0_part2 (F := F) (Memref.whole cc0_stg0_0) (Memref.isWhole_whole _) (Memref.whole cc0_stg1_0) (Memref.isWhole_whole _)
                (Memref.whole cc0_scratch0) (Memref.isWhole_whole _) cc0_scratch1 cc0_scratch2 c (posWord c) barSems (k0_pay1 (xstg m ρ c))) Ψ) := by
  unfold mid1
  rw [pos_split]
  iintro ⟨#Hrec, #Hlev, ⟨Hat, Hpos⟩, Htok, HcB, HcR, ⟨%f0, Hrow⟩, ⟨%W, HO⟩, Hx, Hout⟩ Hk
  rw [k0_part2_eq_skeleton]; unfold k0_part2_skel
  rw [wp_bind]; unfold Prog.lift
  iapply (wp_load_row c (k0_off1 c) (k0_off1_eq c) (k0_off1_inb c) fullShare f0) $$ Hrow
  iintro %v Hrow
  rw [wp_ret]; imodintro
  rw [wp_bind]
  iapply (wp_store_row c (k0_off1 c) (k0_off1_eq c) (k0_off1_inb c) _ f0) $$ Hrow
  iintro Hrow
  rw [wp_ret]; imodintro
  rw [wp_bind]; unfold semWaitWord
  ihave HinvB := (records_inv m ρ K (c, none)) $$ Hrec
  ihave HW := (mayWait_bar (F := F) c 0) $$ Hlev
  iapply (wp_wait_rest_token 𝒱₀ ER (rd m ρ) (c : Thread nD τ) none (sm := .reg barS) (κ := K (c, none)) (fun _ => rfl) (Set.mem_univ _) ()
    (R := 0) (m := 0) (T := ∅) (expect_bar m ρ c).symm) $$ [HinvB HcB HO HW Hat]
  · isplitl [HinvB]; · iexact HinvB
    isplitl [HcB]; · iexact HcB
    isplitl [HO]; · iexact HO
    isplitl [HW]; · iexact HW
    iexact Hat
  rw [rest_bar]
  iintro ⟨HO, Hat1, Hr1, Hpay⟩
  rw [wp_ret]; imodintro
  ihave Hsh := (own_shares m ρ c f0) $$ Hrow
  icases Hsh with ⟨Hown, Hsh⟩
  ihave Hst := (stage_intro m ρ c) $$ [Htok HcR Hsh Hpay]
  · isplitl [Htok]; · iexact Htok
    isplitl [HcR]; · iexact HcR
    isplitl [Hsh]; · iexact Hsh
    iexact Hpay
  iapply (send_block m ρ K c (0 : Dev nD) 0 1 rfl rfl (k0_cond9 c) (cond9_iff c)
      (hsrc := fun h => send_slice_eq c (k0_off3 c) (k0_off3_eq c) (k0_off3_inb c h))
      (hdst := fun h => send_slice_eq c (k0_off3 c) (k0_off3_eq c) (k0_off3_inb c h))
      (hS := rfl) (hR := fun h => recv_sem_eq c (k0_off2 c) (k0_off2_eq c) (k0_off2_inb c h))
      (dv := fun h => ⟨k0_dev9, k0_dev9_lt c h⟩) (hdv := fun h => Fin.ext k0_dev9_eq)) $$ [Hst HO]
  · isplitr; · iexact Hrec
    isplitl [Hst]; · iexact Hst
    iexists _; iexact HO
  iintro ⟨Hst, ⟨%W0, HO⟩⟩
  iapply (send_block m ρ K c (1 : Dev nD) 1 2 rfl rfl (k0_cond10 c) (cond10_iff c)
      (hsrc := fun h => send_slice_eq c (k0_off5 c) (k0_off5_eq c) (k0_off5_inb c h))
      (hdst := fun h => send_slice_eq c (k0_off5 c) (k0_off5_eq c) (k0_off5_inb c h))
      (hS := rfl) (hR := fun h => recv_sem_eq c (k0_off4 c) (k0_off4_eq c) (k0_off4_inb c h))
      (dv := fun h => ⟨k0_dev10, k0_dev10_lt c h⟩) (hdv := fun h => Fin.ext k0_dev10_eq)) $$ [Hst HO]
  · isplitr; · iexact Hrec
    isplitl [Hst]; · iexact Hst
    iexists _; iexact HO
  iintro ⟨Hst, ⟨%W1, HO⟩⟩
  iapply (send_block m ρ K c (2 : Dev nD) 2 3 rfl rfl (k0_cond11 c) (cond11_iff c)
      (hsrc := fun h => send_slice_eq c (k0_off7 c) (k0_off7_eq c) (k0_off7_inb c h))
      (hdst := fun h => send_slice_eq c (k0_off7 c) (k0_off7_eq c) (k0_off7_inb c h))
      (hS := rfl) (hR := fun h => recv_sem_eq c (k0_off6 c) (k0_off6_eq c) (k0_off6_inb c h))
      (dv := fun h => ⟨k0_dev11, k0_dev11_lt c h⟩) (hdv := fun h => Fin.ext k0_dev11_eq)) $$ [Hst HO]
  · isplitr; · iexact Hrec
    isplitl [Hst]; · iexact Hst
    iexists _; iexact HO
  iintro ⟨Hst, ⟨%W2, HO⟩⟩
  iapply (send_block m ρ K c (3 : Dev nD) 3 4 rfl rfl (k0_cond12 c) (cond12_iff c)
      (hsrc := fun h => send_slice_eq c (k0_off9 c) (k0_off9_eq c) (k0_off9_inb c h))
      (hdst := fun h => send_slice_eq c (k0_off9 c) (k0_off9_eq c) (k0_off9_inb c h))
      (hS := rfl) (hR := fun h => recv_sem_eq c (k0_off8 c) (k0_off8_eq c) (k0_off8_inb c h))
      (dv := fun h => ⟨k0_dev12, k0_dev12_lt c h⟩) (hdv := fun h => Fin.ext k0_dev12_eq)) $$ [Hst HO]
  · isplitr; · iexact Hrec
    isplitl [Hst]; · iexact Hst
    iexists _; iexact HO
  iintro ⟨Hst, ⟨%W3, HO⟩⟩
  iapply (send_block m ρ K c (4 : Dev nD) 4 5 rfl rfl (k0_cond13 c) (cond13_iff c)
      (hsrc := fun h => send_slice_eq c (k0_off11 c) (k0_off11_eq c) (k0_off11_inb c h))
      (hdst := fun h => send_slice_eq c (k0_off11 c) (k0_off11_eq c) (k0_off11_inb c h))
      (hS := rfl) (hR := fun h => recv_sem_eq c (k0_off10 c) (k0_off10_eq c) (k0_off10_inb c h))
      (dv := fun h => ⟨k0_dev13, k0_dev13_lt c h⟩) (hdv := fun h => Fin.ext k0_dev13_eq)) $$ [Hst HO]
  · isplitr; · iexact Hrec
    isplitl [Hst]; · iexact Hst
    iexists _; iexact HO
  iintro ⟨Hst, ⟨%W4, HO⟩⟩
  iapply (send_block m ρ K c (5 : Dev nD) 5 6 rfl rfl (k0_cond14 c) (cond14_iff c)
      (hsrc := fun h => send_slice_eq c (k0_off13 c) (k0_off13_eq c) (k0_off13_inb c h))
      (hdst := fun h => send_slice_eq c (k0_off13 c) (k0_off13_eq c) (k0_off13_inb c h))
      (hS := rfl) (hR := fun h => recv_sem_eq c (k0_off12 c) (k0_off12_eq c) (k0_off12_inb c h))
      (dv := fun h => ⟨k0_dev14, k0_dev14_lt c h⟩) (hdv := fun h => Fin.ext k0_dev14_eq)) $$ [Hst HO]
  · isplitr; · iexact Hrec
    isplitl [Hst]; · iexact Hst
    iexists _; iexact HO
  iintro ⟨Hst, ⟨%W5, HO⟩⟩
  iapply (send_block m ρ K c (6 : Dev nD) 6 7 rfl rfl (k0_cond15 c) (cond15_iff c)
      (hsrc := fun h => send_slice_eq c (k0_off15 c) (k0_off15_eq c) (k0_off15_inb c h))
      (hdst := fun h => send_slice_eq c (k0_off15 c) (k0_off15_eq c) (k0_off15_inb c h))
      (hS := rfl) (hR := fun h => recv_sem_eq c (k0_off14 c) (k0_off14_eq c) (k0_off14_inb c h))
      (dv := fun h => ⟨k0_dev15, k0_dev15_lt c h⟩) (hdv := fun h => Fin.ext k0_dev15_eq)) $$ [Hst HO]
  · isplitr; · iexact Hrec
    isplitl [Hst]; · iexact Hst
    iexists _; iexact HO
  iintro ⟨Hst, ⟨%W6, HO⟩⟩
  iapply (send_block m ρ K c (7 : Dev nD) 7 8 rfl rfl (k0_cond16 c) (cond16_iff c)
      (hsrc := fun h => send_slice_eq c (k0_off17 c) (k0_off17_eq c) (k0_off17_inb c h))
      (hdst := fun h => send_slice_eq c (k0_off17 c) (k0_off17_eq c) (k0_off17_inb c h))
      (hS := rfl) (hR := fun h => recv_sem_eq c (k0_off16 c) (k0_off16_eq c) (k0_off16_inb c h))
      (dv := fun h => ⟨k0_dev16, k0_dev16_lt c h⟩) (hdv := fun h => Fin.ext k0_dev16_eq)) $$ [Hst HO]
  · isplitr; · iexact Hrec
    isplitl [Hst]; · iexact Hst
    iexists _; iexact HO
  iintro ⟨Hst, ⟨%W7, HO⟩⟩
  iapply (le_wp_ret frame (wpE (defs₀ (F := F)) 𝒱₀ (c : Thread nD τ) none) Set.univ PUnit.unit Ψ)
  iapply Hk
  unfold mid2
  isplitl [Hpos]; · iexact Hpos
  isplitl [Hst]; · iapply (stage_sent m ρ c) $$ Hst
  isplitl [Hown]; · iexact Hown
  isplitl [HO]
  · iexists W7
    iapply (owes_end c W7) $$ HO
  isplitl [Hx]; · iexact Hx
  iexact Hout

/-- info: 'Cert.Kernel.Proto.part2_spec' depends on axioms: [propext, Classical.choice, Quot.sound] -/
#guard_msgs in #print axioms part2_spec

end Cert.Kernel.Proto

end
-- ==== Proof.Bits.Part3.lean ====
/-
  The third stretch of a device's body: the waits for the copies, the load of the gathered buffer, the store of the result.

  The stretch is eight blocks, one per device `p` of the mesh, and a tail. Block `p` runs only on the other devices:
  there it waits for `p`'s row to have landed and for the copy to `p` to have been read out of the own row; the first
  wait hands over row `p` holding `p`'s partial sum, the second the share of the own row that copy read through; each
  cell is closed behind its wait, its counter at zero. On device `p` itself the block is empty and the two cells no
  copy uses are closed as they stand. Between the blocks the state is one family over the devices: below the
  position, done; from it on, still to do. After the last block the eight shares of the own row are the row, the
  eight rows are the buffer, and the tail loads it, reduces it over its rows and stores the result.
-/
import proofs.«901082_g7700000000001083_dist_sum_ax0_shard0_i_m1536_n768_v7x_i8_f32_1_alg».proof.Proof.Bits.BodyDefs
import proofs.«901082_g7700000000001083_dist_sum_ax0_shard0_i_m1536_n768_v7x_i8_f32_1_alg».proof.Proof.Bits.Rows

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace P3

/-! ## The state between the waits -/

/-- Before the waits for device `p`'s copies: the positions in the two cells and, for another device, their credit tokens. -/
def todo3 (c p : Dev nD) : sProp 𝕄 :=
  iprop(atPos ER (recvCell c p) 0 ∅ 0 ∗ atPos ER (sendCell c p) 0 ∅ 0
    ∗ (if p = c then iprop(emp) else iprop(cred (tallyAt (sendCell c p) () N) ∗ cred (tallyAt (recvCell c p) () N))))

/-- After them: the two cells closed and, for another device, the share of the own row its copy read through and
    its row, landed. -/
def done3 (c p : Dev nD) : sProp 𝕄 :=
  iprop(semVal (recvCell c p) 0 ∗ semVal (sendCell c p) 0
    ∗ (if p = c then iprop(emp) else iprop(rowPts c c (sh p) (gathered m ρ c) ∗ rowPts c p fullShare (gathered m ρ c))))

/-- When the devices below position `n` are done. -/
def st3 (c : Dev nD) (n : ℕ) : sProp 𝕄 :=
  bigSep Finset.univ fun p : Dev nD => if n ≤ p.val then todo3 (F := F) c p else done3 m ρ c p

-- the schedule's tables: what each cell's round expects, its duties, their amounts and payloads
attribute [local sl_rounds] expect_recv expect_send duties_recv duties_send payload_recv payload_send amount_recv amount_send rest_recv rest_send

/-- One device's two cells out of the state, and the state one position on for them done. -/
theorem st3_step (c p : Dev nD) :
    st3 m ρ c p.val ⊢ iprop(todo3 (F := F) c p ∗ (done3 m ρ c p -∗ st3 m ρ c (p.val + 1))) := by
  have h := bigSep_univ_update (M := 𝕄)
    (Φ := fun q : Dev nD => if p.val ≤ q.val then todo3 (F := F) c q else done3 m ρ c q)
    (Ψ := fun q : Dev nD => if p.val + 1 ≤ q.val then todo3 (F := F) c q else done3 m ρ c q) p
    (fun j hj => by
      have hne : j.val ≠ p.val := fun e => hj (Fin.ext e)
      exact if_congr ⟨fun a => by omega, fun a => by omega⟩ rfl rfl)
  simp only [if_pos (le_refl p.val), if_neg (Nat.not_succ_le_self p.val)] at h
  exact h

theorem todo3_ne {c p : Dev nD} (hp : p ≠ c) :
    todo3 (F := F) c p ⊢ iprop(atPos ER (recvCell c p) 0 ∅ 0 ∗ atPos ER (sendCell c p) 0 ∅ 0
      ∗ cred (tallyAt (sendCell c p) () N) ∗ cred (tallyAt (recvCell c p) () N)) := by
  unfold todo3; rw [if_neg hp]
theorem todo3_self (c : Dev nD) :
    todo3 (F := F) c c ⊢ iprop(atPos ER (recvCell c c) 0 ∅ 0 ∗ atPos ER (sendCell c c) 0 ∅ 0) := by
  unfold todo3; rw [if_pos rfl]
  iintro ⟨H1, H2, -⟩
  isplitl [H1]; · iexact H1
  iexact H2
theorem done3_ne {c p : Dev nD} (hp : p ≠ c) :
    iprop(semVal (recvCell c p) 0 ∗ semVal (sendCell c p) 0
      ∗ rowPts c c (sh p) (gathered m ρ c) ∗ rowPts c p fullShare (gathered m ρ c)) ⊢ done3 m ρ c p := by
  unfold done3; rw [if_neg hp]
theorem done3_self (c : Dev nD) :
    iprop(semVal (recvCell c c) 0 ∗ semVal (sendCell c c) 0) ⊢ done3 m ρ c c := by
  unfold done3; rw [if_pos rfl]
  iintro ⟨H1, H2⟩
  isplitl [H1]; · iexact H1
  isplitl [H2]; · iexact H2
  iempintro

theorem records_recv (K : Dev nD × CK → ℕ) (c p : Dev nD) :
    records m ρ K ⊢ cellInv ER (rd m ρ) (K (c, some (true, p))) (recvCell c p) := by
  unfold records
  have h : bigSep Finset.univ (fun ck : Dev nD × CK => cellInv ER (rd (F := F) m ρ) (K ck) (kcell ck))
      ⊢ cellInv ER (rd (F := F) m ρ) (K (c, some (true, p))) (recvCell c p) :=
    bigSep_elim (Finset.mem_univ ((c, some (true, p)) : Dev nD × CK))
  exact sep_elim_left.trans h

theorem records_send (K : Dev nD × CK → ℕ) (c p : Dev nD) :
    records m ρ K ⊢ cellInv ER (rd m ρ) (K (c, some (false, p))) (sendCell c p) := by
  unfold records
  have h : bigSep Finset.univ (fun ck : Dev nD × CK => cellInv ER (rd (F := F) m ρ) (K ck) (kcell ck))
      ⊢ cellInv ER (rd (F := F) m ρ) (K (c, some (false, p))) (sendCell c p) :=
    bigSep_elim (Finset.mem_univ ((c, some (false, p)) : Dev nD × CK))
  exact sep_elim_left.trans h

theorem rest_recv_e {c j : Dev nD} (h : j ≠ c) :
    bigSep ((rd (F := F) m ρ).duties (recvCell c j) 0 \ ∅) (fun d => (rd (F := F) m ρ).payload (recvCell c j) 0 d)
      ⊢ rowPts c j fullShare (gathered m ρ c) := Entails.of_eq (rest_recv m ρ c j h)
theorem rest_send_e {c j : Dev nD} (h : j ≠ c) :
    bigSep ((rd (F := F) m ρ).duties (sendCell c j) 0 \ ∅) (fun d => (rd (F := F) m ρ).payload (sendCell c j) 0 d)
      ⊢ rowPts c c (sh j) (gathered m ρ c) := Entails.of_eq (rest_send m ρ c j h)

/-- One block of the last stretch, for another device: the wait for its row to land and the wait for the copy to it
    to have been read out, each cell then closed. -/
theorem wait_block_ne {α : Type} (K : Dev nD × CK → ℕ) (c p : Dev nD) (hp : p ≠ c)
    (a1 b1 a2 b2 : Memref sig .tc .vmem S1x768 .f32)
    (ha1 : a1.view.WordExact) (hb1 : b1.view.WordExact) (ha2 : a2.view.WordExact) (hb2 : b2.view.WordExact)
    (hc1 : b1.view.dmaCredit = N) (hc2 : b2.view.dmaCredit = N)
    (rest : Prog (TpuEff nD τ sig (Elt F) Λ₀ .tc) α) (Ψ : α → sProp 𝕄) :
    iprop(records m ρ K ∗ st3 m ρ c p.val ∗ (∃ W, owes (c : Thread nD τ) 0 W))
      ⊢ iprop(((st3 m ρ c (p.val + 1) ∗ (∃ W, owes (c : Thread nD τ) 0 W))
            -∗ wp frame (wpE (defs₀ (F := F)) 𝒱₀ c none) Set.univ rest Ψ)
          -∗ wp frame (wpE (defs₀ (F := F)) 𝒱₀ c none) Set.univ
              (.op (.waitDma2 (recvS p) a1 b1 ha1 hb1) fun _ => .op (.waitDma2 (sendS p) a2 b2 ha2 hb2) fun _ => rest) Ψ) := by
  iintro ⟨#HK, Hst, HO⟩ Hk
  ihave #HIr := (records_recv m ρ K c p) $$ HK
  ihave #HIs := (records_send m ρ K c p) $$ HK
  ihave Hst := (st3_step m ρ c p) $$ Hst
  icases Hst with ⟨Htodo, Hback⟩
  icases HO with ⟨%W, HO⟩
  ihave Htodo := (todo3_ne hp) $$ Htodo
  icases Htodo with ⟨Hatr, Hats, Hcs, Hcr⟩
  sl_exec
  imod (cell_close ER (rd m ρ) (κ := K (c, some (true, p))) (g := recvCell c p) (Set.mem_univ _) (fun h => h) (R := 1)
    (fun r hr => duties_later m ρ _ r hr)) $$ [Hatr] with Hsvr
  · isplitr; · iexact HIr
    iexact Hatr
  imod (cell_close ER (rd m ρ) (κ := K (c, some (false, p))) (g := sendCell c p) (Set.mem_univ _) (fun h => h) (R := 1)
    (fun r hr => duties_later m ρ _ r hr)) $$ [Hats] with Hsvs
  · isplitr; · iexact HIs
    iexact Hats
  unfold sendPay recvPay
  iapply Hk
  isplitr [HO]
  · iapply Hback
    iapply (done3_ne m ρ hp)
    isplitl [Hsvr]; · iexact Hsvr
    isplitl [Hsvs]; · iexact Hsvs
    isplitl [Hats_pay1]; · iexact Hats_pay1
    iexact Hatr_pay1
  · iexists _; iexact HO

/-- The block for the device itself: nothing runs, and its two unused cells are closed. -/
theorem wait_block_self {α : Type} (K : Dev nD × CK → ℕ) (c : Dev nD)
    (rest : Prog (TpuEff nD τ sig (Elt F) Λ₀ .tc) α) (Ψ : α → sProp 𝕄) :
    iprop(records m ρ K ∗ st3 m ρ c c.val ∗ (∃ W, owes (c : Thread nD τ) 0 W))
      ⊢ iprop(((st3 m ρ c (c.val + 1) ∗ (∃ W, owes (c : Thread nD τ) 0 W))
            -∗ wp frame (wpE (defs₀ (F := F)) 𝒱₀ c none) Set.univ rest Ψ)
          -∗ wp frame (wpE (defs₀ (F := F)) 𝒱₀ c none) Set.univ rest Ψ) := by
  iintro ⟨#HK, Hst, HO⟩ Hk
  ihave #HIr := (records_recv m ρ K c c) $$ HK
  ihave #HIs := (records_send m ρ K c c) $$ HK
  ihave Hst := (st3_step m ρ c c) $$ Hst
  icases Hst with ⟨Htodo, Hback⟩
  ihave Htodo := (todo3_self c) $$ Htodo
  icases Htodo with ⟨Hatr, Hats⟩
  imod (cell_close ER (rd m ρ) (κ := K (c, some (true, c))) (g := recvCell c c) (Set.mem_univ _) (fun h => h) (R := 0)
    (fun r hr => by
      rcases Nat.eq_zero_or_pos r with rfl | h1
      · exact duties_recv_self m ρ c
      · exact duties_later m ρ _ r h1)) $$ [Hatr] with Hsvr
  · isplitr; · iexact HIr
    iexact Hatr
  imod (cell_close ER (rd m ρ) (κ := K (c, some (false, c))) (g := sendCell c c) (Set.mem_univ _) (fun h => h) (R := 0)
    (fun r hr => by
      rcases Nat.eq_zero_or_pos r with rfl | h1
      · exact duties_send_self m ρ c
      · exact duties_later m ρ _ r h1)) $$ [Hats] with Hsvs
  · isplitr; · iexact HIs
    iexact Hats
  iapply Hk
  isplitr [HO]
  · iapply Hback
    iapply (done3_self m ρ c)
    isplitl [Hsvr]; · iexact Hsvr
    iexact Hsvs
  · iexact HO

/-- One block of the last stretch at a symbolic device and position, whatever runs after it. -/
theorem wait_block {α : Type} (K : Dev nD × CK → ℕ) (c p : Dev nD) (cond : BitVec 1) (hcond : cond = 1#1 ↔ p ≠ c)
    (sR sS : DmaSem sig) (hsR : sR = recvS p) (hsS : sS = sendS p)
    (a1 b1 a2 b2 : Memref sig .tc .vmem S1x768 .f32)
    (ha1 : a1.view.WordExact) (hb1 : b1.view.WordExact) (ha2 : a2.view.WordExact) (hb2 : b2.view.WordExact)
    (hc1 : b1.view.dmaCredit = N) (hc2 : b2.view.dmaCredit = N)
    (rest : Prog (TpuEff nD τ sig (Elt F) Λ₀ .tc) α) (Ψ : α → sProp 𝕄) :
    iprop(records m ρ K ∗ st3 m ρ c p.val ∗ (∃ W, owes (c : Thread nD τ) 0 W))
      ⊢ iprop(((st3 m ρ c (p.val + 1) ∗ (∃ W, owes (c : Thread nD τ) 0 W))
            -∗ wp frame (wpE (defs₀ (F := F)) 𝒱₀ c none) Set.univ rest Ψ)
          -∗ wp frame (wpE (defs₀ (F := F)) 𝒱₀ c none) Set.univ
              (if h : cond = 1#1 then
                  (Prog.lift (.waitDma2 sR a1 b1 ha1 hb1) >>= fun _ => Prog.lift (.waitDma2 sS a2 b2 ha2 hb2) >>= fun _ => rest)
                else rest) Ψ) := by
  by_cases h : cond = 1#1
  · rw [dif_pos h, Prog.bind_lift]
    simp only [Prog.bind_lift]
    subst hsR hsS
    exact wait_block_ne m ρ K c p (hcond.mp h) a1 b1 a2 b2 ha1 hb1 ha2 hb2 hc1 hc2 rest Ψ
  · rw [dif_neg h]
    have hp : p = c := not_not.mp (fun hne => h (hcond.mpr hne))
    subst hp
    exact wait_block_self m ρ K p rest Ψ

/-! ## Into and out of the state between the waits -/

theorem bigSep_bool (Φ : Bool → sProp 𝕄) : bigSep Finset.univ Φ = iprop(Φ true ∗ Φ false) := by
  rw [show (Finset.univ : Finset Bool) = {true, false} from by decide, bigSep_insert (by decide), bigSep_singleton]
  rfl

/-- A family over the sixteen own cells, as its receive half and its send half. -/
theorem bigSep_cells (Φ : Bool × Dev nD → sProp 𝕄) :
    bigSep Finset.univ Φ
      = iprop(bigSep Finset.univ (fun j : Dev nD => Φ (true, j)) ∗ bigSep Finset.univ (fun j : Dev nD => Φ (false, j))) := by
  rw [bigSep_univ_prod, bigSep_bool]

/-- A family over the devices that is empty at `c`, as the family over the other devices. -/
theorem bigSep_others (c : Dev nD) (Φ : Dev nD → sProp 𝕄) :
    bigSep Finset.univ (fun p : Dev nD => if p = c then iprop(emp) else Φ p) ⊣⊢ bigSep (Finset.univ.erase c) Φ := by
  rw [bigSep_univ_at (fun p : Dev nD => if p = c then iprop(emp) else Φ p) c, if_pos rfl,
    bigSep_congr (s := Finset.univ.erase c) (Φ := fun p : Dev nD => if p = c then iprop(emp) else Φ p) (Ψ := Φ)
      fun p hp => if_neg (Finset.ne_of_mem_erase hp)]
  exact emp_sep

theorem bigSep_others2 (c : Dev nD) (A B : Dev nD → sProp 𝕄) :
    bigSep Finset.univ (fun p : Dev nD => if p = c then iprop(emp) else iprop(A p ∗ B p))
      ⊢ iprop(bigSep (Finset.univ.erase c) A ∗ bigSep (Finset.univ.erase c) B) := by
  refine (bigSep_others c _).1.trans ?_
  rw [bigSep_sep']

/-- A family over the devices, from its member at `c` and the others. -/
theorem bigSep_put (c : Dev nD) (Φ : Dev nD → sProp 𝕄) :
    iprop(Φ c ∗ bigSep (Finset.univ.erase c) Φ) ⊢ bigSep Finset.univ Φ := by
  rw [bigSep_univ_at Φ c]

/-- Before the first wait nothing is done. -/
theorem st3_start (c : Dev nD) :
    iprop((bigSep Finset.univ fun bj : Bool × Dev nD => atPos ER (kcell (c, some bj)) 0 ∅ 0)
        ∗ (bigSep (Finset.univ.erase c) fun p => iprop(cred (tallyAt (sendCell c p) () N) ∗ cred (tallyAt (recvCell c p) () N))))
      ⊢ st3 m ρ c 0 := by
  have e : st3 m ρ c 0 = iprop(bigSep Finset.univ (fun p : Dev nD => atPos ER (recvCell c p) 0 ∅ 0)
      ∗ bigSep Finset.univ (fun p : Dev nD => atPos ER (sendCell c p) 0 ∅ 0)
      ∗ bigSep Finset.univ (fun p : Dev nD => if p = c then iprop(emp)
          else iprop(cred (tallyAt (sendCell c p) () N) ∗ cred (tallyAt (recvCell c p) () N)))) := by
    unfold st3
    rw [bigSep_congr (s := Finset.univ) (Ψ := fun p : Dev nD => todo3 (F := F) c p) fun p _ => if_pos (Nat.zero_le _)]
    unfold todo3
    rw [bigSep_sep', bigSep_sep']
  rw [e, bigSep_cells]
  iintro ⟨⟨Hr, Hs⟩, Hc⟩
  isplitl [Hr]; · iexact Hr
  isplitl [Hs]; · iexact Hs
  iapply (bigSep_others c _).2
  iexact Hc

/-- After the last wait everything is done: the sixteen cells are closed, and the seven rows landed, the seven
    shares come back and the share kept are the whole buffer. -/
theorem st3_end (c : Dev nD) :
    iprop(st3 m ρ c 8 ∗ rowPts c c (sh c) (gathered m ρ c)) ⊢ Φ₁ m ρ c := by
  have e : st3 m ρ c 8 = iprop(bigSep Finset.univ (fun p : Dev nD => semVal (recvCell c p) 0)
      ∗ bigSep Finset.univ (fun p : Dev nD => semVal (sendCell c p) 0)
      ∗ bigSep Finset.univ (fun p : Dev nD => if p = c then iprop(emp)
          else iprop(rowPts c c (sh p) (gathered m ρ c) ∗ rowPts c p fullShare (gathered m ρ c)))) := by
    unfold st3
    rw [bigSep_congr (s := Finset.univ) (Ψ := fun p : Dev nD => done3 m ρ c p)
      fun p _ => if_neg (by have h8 : p.val < 8 := p.isLt; omega)]
    unfold done3
    rw [bigSep_sep', bigSep_sep']
  unfold Φ₁
  rw [e, bigSep_cells]
  iintro ⟨⟨Hr, Hs, Hy⟩, Hown⟩
  ihave Hy := (bigSep_others2 c _ _) $$ Hy
  icases Hy with ⟨Hsh, Hrows⟩
  isplitl [Hsh Hrows Hown]
  · iapply (rows_split c fullShare (gathered m ρ c)).2
    iapply (bigSep_put c (fun k : Dev nD => rowPts c k fullShare (gathered m ρ c)))
    isplitl [Hsh Hown]
    · iapply (row_shares c c (gathered m ρ c)).2
      iapply (bigSep_put c (fun j : Dev nD => rowPts c c (sh j) (gathered m ρ c)))
      isplitl [Hown]; · iexact Hown
      iexact Hsh
    · iexact Hrows
  · isplitl [Hr]; · iexact Hr
    iexact Hs

/-- The gathered buffer held whole, as the memref it is loaded through sees it; -/
theorem buf_view (c : Dev nD) (f : Buf (Elt F) ((c : Thread nD τ).loc cc0_scratch0)) :
    ((((c : Thread nD τ).loc cc0_scratch0) ↦{fullShare} f) : sProp 𝕄)
      ⊢ ((rM : Memref sig .tc .vmem S8x1x768 .f32).view.loc (c : Thread nD τ) ↦[Finset.univ]{fullShare} f) := .rfl
theorem view_buf (c : Dev nD) (f : Buf (Elt F) ((c : Thread nD τ).loc cc0_scratch0)) :
    (((rM : Memref sig .tc .vmem S8x1x768 .f32).view.loc (c : Thread nD τ) ↦[Finset.univ]{fullShare} f) : sProp 𝕄)
      ⊢ (((c : Thread nD τ).loc cc0_scratch0) ↦{fullShare} f) := .rfl
/-- the result's staging buffer likewise. -/
theorem out_view (c : Dev nD) (f : Buf (Elt F) ((c : Thread nD τ).loc cc0_stg1_0)) :
    ((((c : Thread nD τ).loc cc0_stg1_0) ↦{fullShare} f) : sProp 𝕄)
      ⊢ ((oM : Memref sig .tc .vmem S1x768 .f32).view.loc (c : Thread nD τ) ↦[Finset.univ]{fullShare} f) := .rfl
theorem view_out (c : Dev nD) (f : Buf (Elt F) ((c : Thread nD τ).loc cc0_stg1_0)) :
    (((oM : Memref sig .tc .vmem S1x768 .f32).view.loc (c : Thread nD τ) ↦[Finset.univ]{fullShare} f) : sProp 𝕄)
      ⊢ (((c : Thread nD τ).loc cc0_stg1_0) ↦{fullShare} f) := .rfl

/-- What the last store leaves in the result's staging buffer: the gathered buffer reduced over its rows. -/
theorem out_value (c : Dev nD) (fo : Buf (Elt F) ((c : Thread nD τ).loc cc0_stg1_0))
    (inb1 : ∀ a, (![0, 0] : Fin 2 → Nat) a + S1x768.size a ≤ S1x768.size a)
    (inb2 : ∀ a, (![0, 0, 0] : Fin 3 → Nat) a + S8x1x768.size a ≤ S8x1x768.size a) :
    (oM : Memref sig .tc .vmem S1x768 .f32).view.writes (Elt F) fo
        [⟨Rect.unit ![0, 0] S1x768.size inb1,
          k0_pay3 ((rM : Memref sig .tc .vmem S8x1x768 .f32).view.readAt (Elt F)
            (Rect.unit ![0, 0, 0] S8x1x768.size inb2).toLoadRect (gathered m ρ c))⟩]
      = outAt m ρ c := by
  have h2 : (![0, 0] : Fin 2 → Nat) = fun _ => 0 := by funext a; fin_cases a <;> rfl
  have h3 : (![0, 0, 0] : Fin 3 → Nat) = fun _ => 0 := by funext a; fin_cases a <;> rfl
  rw [View.writes_singleton]
  refine (Memref.write_access_unit_zero_univ (Elt F) cc0_stg1_0 h2 inb1 fo _).trans ?_
  exact congrArg k0_pay3 (Memref.readAt_unit_zero (Elt F) cc0_scratch0 h3 inb2 (gathered m ρ c))

/-! ## The stretch -/

/-- The condition of block `p`: the device is not device `p`. -/
theorem cnd_iff (c p : Dev nD) :
    Scalar.cmpi .ne (Scalar.extui (Scalar.cmpi .ne (posWord c) (BitVec.ofNat 32 p.val)) : BitVec 32) 0#32 = 1#1 ↔ p ≠ c := by
  revert c p; decide +kernel

/-- A copy of one row credits its semaphores the row's credit. -/
theorem rowM_credit (k : Dev nD) : (rowM k).view.dmaCredit = N := rfl

end P3

open P3 in
theorem part3_spec (K : Dev nD × CK → ℕ) (c : Dev nD) (Ψ : PUnit → sProp 𝕄) :
    iprop(records m ρ K ∗ mid2 m ρ c)
      ⊢ iprop((post3 m ρ c -∗ Ψ ⟨⟩)
          -∗ wp frame (wpE (defs₀ (F := F)) 𝒱₀ c none) Set.univ
              (k0_part3 (F := F) (Memref.whole cc0_stg0_0) (Memref.isWhole_whole _) (Memref.whole cc0_stg1_0) (Memref.isWhole_whole _)
                (Memref.whole cc0_scratch0) (Memref.isWhole_whole _) cc0_scratch1 cc0_scratch2 (posWord c)) Ψ) := by
  rw [k0_part3_eq_skeleton]
  unfold k0_part3_skel mid2
  iintro ⟨#HK, Hat, Hcr, Hown, HO, Hx, Hout⟩ Hk
  ihave Hst := (st3_start m ρ c) $$ [Hat Hcr]
  · isplitl [Hat]; · iexact Hat
    iexact Hcr
  iapply (wait_block m ρ K c (0 : Dev nD) _ (cnd_iff c 0) _ _ rfl rfl _ _ _ _ _ _ _ _ (rowM_credit 0) (rowM_credit 0) _ _) $$ [Hst HO]
  · isplitr; · iexact HK
    isplitl [Hst]; · iexact Hst
    iexact HO
  iintro ⟨Hst, HO⟩
  iapply (wait_block m ρ K c (1 : Dev nD) _ (cnd_iff c 1) _ _ rfl rfl _ _ _ _ _ _ _ _ (rowM_credit 1) (rowM_credit 1) _ _) $$ [Hst HO]
  · isplitr; · iexact HK
    isplitl [Hst]; · iexact Hst
    iexact HO
  iintro ⟨Hst, HO⟩
  iapply (wait_block m ρ K c (2 : Dev nD) _ (cnd_iff c 2) _ _ rfl rfl _ _ _ _ _ _ _ _ (rowM_credit 2) (rowM_credit 2) _ _) $$ [Hst HO]
  · isplitr; · iexact HK
    isplitl [Hst]; · iexact Hst
    iexact HO
  iintro ⟨Hst, HO⟩
  iapply (wait_block m ρ K c (3 : Dev nD) _ (cnd_iff c 3) _ _ rfl rfl _ _ _ _ _ _ _ _ (rowM_credit 3) (rowM_credit 3) _ _) $$ [Hst HO]
  · isplitr; · iexact HK
    isplitl [Hst]; · iexact Hst
    iexact HO
  iintro ⟨Hst, HO⟩
  iapply (wait_block m ρ K c (4 : Dev nD) _ (cnd_iff c 4) _ _ rfl rfl _ _ _ _ _ _ _ _ (rowM_credit 4) (rowM_credit 4) _ _) $$ [Hst HO]
  · isplitr; · iexact HK
    isplitl [Hst]; · iexact Hst
    iexact HO
  iintro ⟨Hst, HO⟩
  iapply (wait_block m ρ K c (5 : Dev nD) _ (cnd_iff c 5) _ _ rfl rfl _ _ _ _ _ _ _ _ (rowM_credit 5) (rowM_credit 5) _ _) $$ [Hst HO]
  · isplitr; · iexact HK
    isplitl [Hst]; · iexact Hst
    iexact HO
  iintro ⟨Hst, HO⟩
  iapply (wait_block m ρ K c (6 : Dev nD) _ (cnd_iff c 6) _ _ rfl rfl _ _ _ _ _ _ _ _ (rowM_credit 6) (rowM_credit 6) _ _) $$ [Hst HO]
  · isplitr; · iexact HK
    isplitl [Hst]; · iexact Hst
    iexact HO
  iintro ⟨Hst, HO⟩
  iapply (wait_block m ρ K c (7 : Dev nD) _ (cnd_iff c 7) _ _ rfl rfl _ _ _ _ _ _ _ _ (rowM_credit 7) (rowM_credit 7) _ _) $$ [Hst HO]
  · isplitr; · iexact HK
    isplitl [Hst]; · iexact Hst
    iexact HO
  iintro ⟨Hst, HO⟩
  ihave HΦ := (st3_end m ρ c) $$ [Hst Hown]
  · isplitl [Hst]; · iexact Hst
    iexact Hown
  unfold Φ₁
  icases HΦ with ⟨Hbuf, Hsems⟩
  icases Hout with ⟨%g, %fo, -, Hout⟩
  ihave Hbuf := (buf_view c _) $$ Hbuf
  ihave Hout := (out_view c _) $$ Hout
  sl_exec
  rw [wp_ret]
  imodintro
  iapply Hk
  unfold post3 Φ₁
  isplitl [Hbuf Hsems]
  · isplitl [Hbuf]; · iapply (view_buf c _); iexact Hbuf
    iexact Hsems
  isplitl [HO]; · iexact HO
  isplitl [Hx]; · iexact Hx
  iexists _
  isplitr
  rotate_left
  · iapply (view_out c _); iexact Hout
  · ipureintro; exact out_value m ρ c fo _ _

/-- info: 'Cert.Kernel.Proto.part3_spec' depends on axioms: [propext, Classical.choice, Quot.sound] -/
#guard_msgs in #print axioms part3_spec

end Cert.Kernel.Proto

end
-- ==== Proof.Bits.Body.lean ====
/-
  One device's body: its three stretches in a row, as the pipeline's body obligation.
-/
import proofs.«901082_g7700000000001083_dist_sum_ax0_shard0_i_m1536_n768_v7x_i8_f32_1_alg».proof.Proof.Bits.Part1
import proofs.«901082_g7700000000001083_dist_sum_ax0_shard0_i_m1536_n768_v7x_i8_f32_1_alg».proof.Proof.Bits.Part2
import proofs.«901082_g7700000000001083_dist_sum_ax0_shard0_i_m1536_n768_v7x_i8_f32_1_alg».proof.Proof.Bits.Part3

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := fetch0_0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × CK → ℕ)

/-- What the pipeline hands the body at the one point: the ghost state at the names `K`, the credit tokens, the levels,
    the gathered buffer, what the device owes, and the two staging buffers. -/
def bodyPre (c : Dev nD) : sProp 𝕄 :=
  iprop((ghost m ρ K c ∗ cred (tallyAt (barCell c) () 7) ∗ (bigSep (Finset.univ.erase c) fun p => cred (tallyAt (recvCell c p) () N))
      ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxHeartbeats 800000 in
/-- The body from `bodyPre` to `bodyPost`: the three stretches one after the other. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
                (Memref.whole cc0_scratch0) (Memref.isWhole_whole _) cc0_scratch1 cc0_scratch2) Kt := by
  unfold bodyPre ghost linear
  iintro ⟨⟨⟨⟨#Hrec, Hpos, Htok⟩, HcB, HcR, #Hlev, Hscr⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold cc0_body
  rw [wp_bind]
  iapply (part1_spec m ρ K c _) $$ [Hpos Htok HcB HcR Hscr HO Hx Hout]
  · isplitr; · iexact Hrec
    unfold pre1
    isplitl [Hpos]; · iexact Hpos
    isplitl [Htok]; · iexact Htok
    isplitl [HcB]; · iexact HcB
    isplitl [HcR]; · iexact HcR
    isplitl [Hscr]; · iexact Hscr
    isplitl [HO]; · iexists W; iexact HO
    isplitl [Hx]
    · iexists _; isplitr; · (ipureintro; rfl)
      iexact Hx
    · iexists g1; iexists g1; isplitr; · (ipureintro; rfl)
      iexact Hout
  iintro Hm1
  dsimp only
  rw [wp_bind]
  iapply (part2_spec m ρ K c _) $$ [Hm1]
  · isplitr; · iexact Hrec
    isplitr; · iexact Hlev
    iexact Hm1
  iintro Hm2
  rw [wp_bind]
  iapply (part3_spec m ρ K c _) $$ [Hm2]
  · isplitr; · iexact Hrec
    iexact Hm2
  iintro Hp3
  rw [Prog.pure_eq_ret, wp_ret]; imodintro
  iapply Hk
  unfold post3 bodyPost Dat.owesAt Pipeline.owesWithin
  rw [show (dats m ρ 0 c).owed t₀.succ = 0 from rfl]
  icases Hp3 with ⟨HΦ, ⟨%W', HO⟩, Hx, Hout⟩
  isplitl [HΦ]; · iexact HΦ
  isplitl [HO]
  · iexists W'
    isplitr; · ipureintro; exact fun _ _ => Or.inl trivial
    iexact HO
  isplitl [Hx]; · iexact Hx
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
                (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.Proto.sound_body' depends on axioms: [propext, Classical.choice, Quot.sound] -/
#guard_msgs in #print axioms sound_body

/-- info: 'Cert.Kernel.Proto.body_obligation' depends on axioms: [propext, Classical.choice, Quot.sound] -/
#guard_msgs in #print axioms body_obligation

end Cert.Kernel.Proto

end
-- ==== Proof.Bits.Launch.lean ====
/-
  The launch of the all-devices sum: from "every device's body is proved" to the run of the whole program.

  The launch element is the pipeline's staging cells beside the exchange's cells: every device's barrier cell, its
  eight send cells and its eight receive cells, each at round 0, with one duty token per duty of the schedule. The
  global step puts every cell's counter, at zero, with its round state into an invariant, and deals the duty tokens
  to their PAYERS: the token of device `p`'s barrier duty `c` and of `p`'s receive duty for `c`'s row go to device
  `c`, which signals `p` and copies its row to `p`; the token of `c`'s send duty towards `p` stays with `c`. The
  regrouping is the exchange of the two device indices of a sum over the ordered pairs of distinct devices.

  The launch credit: every other device owes a device's barrier cell one unit (seven in all), and device `p` owes
  device `c`'s receive cell for `p` one row's credit.
-/
import proofs.«901082_g7700000000001083_dist_sum_ax0_shard0_i_m1536_n768_v7x_i8_f32_1_alg».proof.Proof.Bits.Proto

noncomputable section

namespace Cert.Kernel.Proto

open Cert.Kernel Cert.Kernel.Gen Cert.Kernel.AllSum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the arrays' shares -/

theorem ownSemFacts : Pipeline.OwnSemFacts cfg0.spec osem := by decide

theorem share_eq (c : Dev nD) (w : Fin cfg0.W) : (dats m ρ 0 c).share w = fullShare := by unfold Dat.share; split <;> rfl

/-! ## The exchange's cells and duty tokens -/

theorem csem_injective : Function.Injective csem := by
  intro a b h
  rcases a with _ | ⟨_ | _, i⟩ <;> rcases b with _ | ⟨_ | _, j⟩
  · rfl
  · exact absurd (show (SemLoc.dma (sendS j) : SemLoc sig) = .reg barS from h.symm) (send_ne_bar j)
  · exact absurd (show (SemLoc.dma (recvS j) : SemLoc sig) = .reg barS from h.symm) (recv_ne_bar j)
  · exact absurd (show (SemLoc.dma (sendS i) : SemLoc sig) = .reg barS from h) (send_ne_bar i)
  · have e := sendS_inj (SemLoc.dma.inj (show (SemLoc.dma (sendS i) : SemLoc sig) = .dma (sendS j) from h)); subst e; rfl
  · exact absurd (SemLoc.dma.inj (show (SemLoc.dma (sendS i) : SemLoc sig) = .dma (recvS j) from h)) (sendS_ne_recvS i j)
  · exact absurd (show (SemLoc.dma (recvS i) : SemLoc sig) = .reg barS from h) (recv_ne_bar i)
  · exact absurd (SemLoc.dma.inj (show (SemLoc.dma (recvS i) : SemLoc sig) = .dma (sendS j) from h)).symm (sendS_ne_recvS j i)
  · have e := recvS_inj (SemLoc.dma.inj (show (SemLoc.dma (recvS i) : SemLoc sig) = .dma (recvS j) from h)); subst e; rfl

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's seventeen cells. -/
def allCells : Finset (GSem nD τ sig) := Finset.univ.map ⟨kcell, kcell_injective⟩

/-- The duty token of device `x.1`'s cell of kind `x.2.2` towards device `x.2.1`: the barrier cell's (`none`) duties are
    named by their payers, a send (`some false`) or receive (`some true`) cell's one duty is `0`. -/
def tokOf (x : Dev nD × Dev nD × Option Bool) : GSem nD τ sig × ℕ × Dev nD :=
  (kcell (x.1, x.2.2.map fun b => (b, x.2.1)), 0, match x.2.2 with | none => x.2.1 | some _ => 0)

theorem tokOf_injective : Function.Injective tokOf := by
  rintro ⟨c, d, κ⟩ ⟨c', d', κ'⟩ h
  have h1 : (c, κ.map fun b => (b, d)) = (c', κ'.map fun b => (b, d')) :=
    kcell_injective (congrArg (fun x : GSem nD τ sig × ℕ × Dev nD => x.1) h)
  have hc : c = c' := congrArg Prod.fst h1
  have hk : (κ.map fun b => (b, d)) = κ'.map fun b => (b, d') := congrArg Prod.snd h1
  subst hc
  rcases κ with _ | b <;> rcases κ' with _ | b'
  · have hd : d = d' := congrArg (fun x : GSem nD τ sig × ℕ × Dev nD => x.2.2) h
    subst hd; rfl
  · cases hk
  · cases hk
  · cases hk; rfl

/-- The schedule's duties: for every ordered pair of distinct devices, one of each kind. -/
def allToks : Finset (GSem nD τ sig × ℕ × Dev nD) :=
  (Finset.univ.filter fun x : Dev nD × Dev nD × Option Bool => x.2.1 ≠ x.1).map ⟨tokOf, tokOf_injective⟩

def u₀ : UU :=
  (initOf (Pipeline.cells cfgs cellOf_inj) (Pipeline.launchToks cfgs cellOf_inj), initOf allCells allToks)

/-- The duty tokens of device `c`'s own cells towards device `d`, as minted. -/
def ownToks (c d : Dev nD) : sProp 𝕄 :=
  iprop(dutyTok ER (barCell c) 0 d ∗ dutyTok ER (sendCell c d) 0 0 ∗ dutyTok ER (recvCell c d) 0 0)
def toks (c : Dev nD) : sProp 𝕄 := bigSep (Finset.univ.erase c) (ownToks (F := F) c)

/-- What the launch element deals device `c`. -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

/-- A sum over an optional index: the summand at no index, and the sum over the indices. -/
theorem bigSep_univ_option {β : Type} [Fintype β] [DecidableEq β] (Φ : Option β → sProp 𝕄) :
    bigSep Finset.univ Φ = iprop(Φ none ∗ bigSep Finset.univ fun b => Φ (some b)) := by
  rw [bigSep_univ_at Φ none,
    show (Finset.univ.erase (none : Option β)) = Finset.univ.map Function.Embedding.some from
      Finset.ext fun o => by cases o <;> simp,
    bigSep_map]
  rfl

theorem bigSep_toks :
    bigSep allToks (fun x => (dutyTok ER x.1 x.2.1 x.2.2 : sProp 𝕄)) = bigSep Finset.univ fun c : Dev nD => toks (F := F) c := by
  unfold allToks
  rw [bigSep_map, bigSep_filter, bigSep_univ_prod]
  refine bigSep_congr fun c _ => ?_
  unfold toks
  rw [← Finset.filter_ne' Finset.univ c, bigSep_filter, bigSep_univ_prod]
  refine bigSep_congr fun d _ => ?_
  show bigSep Finset.univ (fun κ : Option Bool =>
      if d ≠ c then (dutyTok ER (tokOf (c, d, κ)).1 (tokOf (c, d, κ)).2.1 (tokOf (c, d, κ)).2.2 : sProp 𝕄) else BI.emp)
    = if d ≠ c then ownToks (F := F) c d else BI.emp
  by_cases h : d ≠ c
  · simp only [if_pos h]
    rw [bigSep_univ_eq_bigSepL [none, some false, some true] (by decide) (by decide)]
    rfl
  · simp only [if_neg h]
    exact bigSep_emp_const _

theorem fund_cells : BI.own (ER (initOf allCells allToks)) ⊢ (|==> bigSep Finset.univ (G m ρ) : sProp 𝕄) := by
  iintro HX
  imod (Rounds.fund ER (rd m ρ) allCells allToks) $$ HX with ⟨Hst, Hr, Hat, Htok⟩
  imodintro
  ihave Hst' := (Entails.of_eq (bigSep_cells (F := F) fun g => roundState ER (rd m ρ) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq (bigSep_toks (F := F))) $$ Htok
  unfold G; simp only [bigSep_sep']
  isplitl [Hst']; · iexact Hst'
  isplitl [Hat' Hr']
  · isplitl [Hat'] <;> iassumption
  iexact Htok'

/-! ## The global step: every cell's invariant, and the tokens dealt to their payers -/

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of a device's seventeen cells, at zero: its own sixteen and the barrier semaphore's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k : CK => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ linear c) ⊢ G' m ρ c := by
  unfold G' ghost
  iintro H
  iexists K
  iexact H

/-- The tokens dealt: device `p`'s barrier duty `c` and its receive duty for `c`'s row change hands, from `p` to `c`. -/
theorem toks_swap : (bigSep Finset.univ fun c : Dev nD => (toks c : sProp 𝕄))
    ⊢ bigSep Finset.univ fun c : Dev nD => bigSep (Finset.univ.erase c) (payToks (F := F) c) := by
  have hL : (bigSep Finset.univ fun c : Dev nD => (toks c : sProp 𝕄))
      = iprop((bigSep Finset.univ fun c : Dev nD => bigSep (Finset.univ.erase c) fun d => (dutyTok ER (barCell c) 0 d : sProp 𝕄))
        ∗ (bigSep Finset.univ fun c : Dev nD => bigSep (Finset.univ.erase c) fun d => (dutyTok ER (sendCell c d) 0 0 : sProp 𝕄))
        ∗ (bigSep Finset.univ fun c : Dev nD => bigSep (Finset.univ.erase c) fun d => (dutyTok ER (recvCell c d) 0 0 : sProp 𝕄))) := by
    unfold toks ownToks; simp only [bigSep_sep']
  have hR : (bigSep Finset.univ fun c : Dev nD => bigSep (Finset.univ.erase c) (payToks (F := F) c))
      = iprop((bigSep Finset.univ fun c : Dev nD => bigSep (Finset.univ.erase c) fun p => (dutyTok ER (barCell p) 0 c : sProp 𝕄))
        ∗ (bigSep Finset.univ fun c : Dev nD => bigSep (Finset.univ.erase c) fun p => (dutyTok ER (recvCell p c) 0 0 : sProp 𝕄))
        ∗ (bigSep Finset.univ fun c : Dev nD => bigSep (Finset.univ.erase c) fun p => (dutyTok ER (sendCell c p) 0 0 : sProp 𝕄))) := by
    unfold payToks; simp only [bigSep_sep']
  rw [hL, hR,
    bigSep_erase_comm (fun c d : Dev nD => (dutyTok ER (barCell c) 0 d : sProp 𝕄)),
    bigSep_erase_comm (fun c d : Dev nD => (dutyTok ER (recvCell c d) 0 0 : sProp 𝕄))]
  iintro ⟨HB, HS, HR⟩
  isplitl [HB]; · iexact HB
  isplitl [HR]; · iexact HR
  iexact HS

theorem regroup :
    (bigSep Finset.univ fun c : Dev nD => iprop((bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_swap (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄))
        (fun c : Dev nD => bigSep (Finset.univ.erase c) (payToks (F := F) c))).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem barCell_injective : Function.Injective (barCell : Dev nD → GSem nD τ sig) :=
  fun a b h => congrArg (fun g : GSem nD τ sig => g.1.1) h

/-- What device `d` owes device `c`'s barrier cell: a unit, unless it is `c` itself. -/
theorem owed_bar (d c : Dev nD) : O₀ d (barCell c) () = if d ≠ c then 1 else 0 := by
  unfold O₀ Orcv Osig
  rw [Pi.add_apply, Finsupp.add_apply, stepSum_zero, stepSum_zero,
    Pipeline.sum_tallyAt_cells _ (cell := fun p : Dev nD => recvCell p d) (fun a b h => congrArg (fun g : GSem nD τ sig => g.1.1) h) () N,
    Pipeline.sum_tallyAt_cells _ (cell := barCell) barCell_injective () 1,
    if_neg (show ¬ ((∃ p ∈ Finset.univ.erase d, recvCell p d = barCell c) ∧ () = ()) from
      fun h => by obtain ⟨⟨p, -, hp⟩, -⟩ := h; exact recv_ne_bar d (congrArg Prod.snd hp)), Nat.zero_add]
  by_cases h : d ≠ c
  · rw [if_pos h, if_pos ⟨⟨c, Finset.mem_erase.mpr ⟨h.symm, Finset.mem_univ _⟩, rfl⟩, rfl⟩]
  · rw [if_neg h, if_neg]
    rintro ⟨⟨p, hp, e⟩, -⟩
    exact h (fun hdc => Finset.ne_of_mem_erase hp ((barCell_injective e).trans hdc.symm))

/-- What device `d` owes device `c`'s receive cell for device `p`: the row's credit, if it is `p` and not `c`. -/
theorem owed_recv (d c p : Dev nD) : O₀ d (recvCell c p) () = if d = p ∧ p ≠ c then N else 0 := by
  unfold O₀ Orcv Osig
  rw [Pi.add_apply, Finsupp.add_apply, stepSum_zero, stepSum_zero,
    Pipeline.sum_tallyAt_cells _ (cell := fun q : Dev nD => recvCell q d) (fun a b h => congrArg (fun g : GSem nD τ sig => g.1.1) h) () N,
    Pipeline.sum_tallyAt_cells _ (cell := barCell) barCell_injective () 1,
    if_neg (show ¬ ((∃ q ∈ Finset.univ.erase d, barCell q = recvCell c p) ∧ () = ()) from
      fun h => by obtain ⟨⟨q, -, hq⟩, -⟩ := h; exact recv_ne_bar p (congrArg Prod.snd hq).symm), Nat.add_zero]
  by_cases h : d = p ∧ p ≠ c
  · rw [if_pos h]
    obtain ⟨hdp, hpc⟩ := h
    subst hdp
    exact if_pos ⟨⟨c, Finset.mem_erase.mpr ⟨hpc.symm, Finset.mem_univ _⟩, rfl⟩, rfl⟩
  · rw [if_neg h]
    refine if_neg ?_
    rintro ⟨⟨q, hq, e⟩, -⟩
    have hqc : q = c := congrArg (fun g : GSem nD τ sig => g.1.1) e
    have hdp : d = p := recvS_inj (SemLoc.dma.inj (congrArg Prod.snd e))
    subst hqc hdp
    exact h ⟨rfl, (Finset.ne_of_mem_erase hq).symm⟩

theorem sum_others (c : Dev nD) : (∑ d : Dev nD, if d ≠ c then 1 else 0) = 7 := by
  rw [← Finset.sum_filter, Finset.filter_ne', Finset.sum_const, Finset.card_erase_of_mem (Finset.mem_univ c), Finset.card_univ,
    Fintype.card_fin, smul_eq_mul, mul_one]
  rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_congr rfl (fun d _ => show (if d = p ∧ p ≠ c then N else 0) = if d = p then N else 0 from if_congr (and_iff_left h) rfl rfl),
    Finset.sum_ite_eq' Finset.univ p fun _ => N, if_pos (Finset.mem_univ _)]

/-- The credit tokens the launch deals device `c`: seven units on its barrier cell, a row's credit on its receive cell
    for every other device. -/
theorem creds (c : Dev nD) :
    (Pipeline.launchCred O₀ c : sProp 𝕄)
      ⊢ iprop(cred (tallyAt (barCell c) () 7) ∗ bigSep (Finset.univ.erase c) fun p => cred (tallyAt (recvCell c p) () N)) := by
  unfold Pipeline.launchCred
  rw [bigSep_univ_at _ (SemLoc.reg barS), launch_bar]
  refine sep_mono_right ?_
  have hsub : (Finset.univ.erase c).map ⟨fun p : Dev nD => (SemLoc.dma (recvS p) : SemLoc sig), fun a b h => recvS_inj (SemLoc.dma.inj h)⟩
      ⊆ Finset.univ.erase (SemLoc.reg barS) := by
    intro sm hsm
    obtain ⟨p, -, rfl⟩ := Finset.mem_map.mp hsm
    exact Finset.mem_erase.mpr ⟨recv_ne_bar p, Finset.mem_univ _⟩
  refine (bigSep_subset hsub).trans ?_
  rw [bigSep_map]
  exact bigSep_mono fun p hp => Entails.of_eq (congrArg cred (launch_recv c p (Finset.ne_of_mem_erase hp)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G'
  isplitl
  · isplitl [HG]; · iexact HG
    isplitl [H7]; · iexact H7
    isplitl [HN]; · iexact HN
    iexact Hlev
  · iempintro

/-- At the point: what the launch made, and the gathered buffer at whatever it holds. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- After the point: the sixteen own counters back at zero, the gathered buffer at what it holds. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (gathered m ρ c); iexact Hr

/-- The staging cells sit at level 0, below the barrier and receive cells a device owes at launch. -/
theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () = 0 := by fin_cases w <;> fin_cases s <;> rfl
    rcases t with ⟨_ | _, ht⟩
    · exact mayWait_low c _ hlv (O₀ c) fun g u hg => by
        rcases Pipeline.add_pos_cases hg with h | h
        · obtain ⟨p, -, rfl⟩ := Orcv_pos h; exact Or.inr ⟨p, c, rfl⟩
        · obtain ⟨p, -, rfl⟩ := Osig_pos h; exact Or.inl ⟨p, rfl⟩
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters, given every
    device's body: every weakly fair execution of the program — the eight kernels signalling one another's barrier
    semaphore, then exchanging their partial sums — terminates, and every final state has each device's arrays at the
    proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The staged block is the whole argument array: the window is the whole array, read at offsets zero. -/
theorem xstg_eq (c : Dev nD) : xstg m ρ c = m ((c : Thread nD τ).loc main_arg0) := by
  unfold xstg
  exact Memref.read_access_unit_zero (Elt F) main_arg0 (funext fun a => Nat.zero_mul _) _ _

/-- The argument array after the run holds what it held: no point writes it back. -/
theorem finalA_x (c : Dev nD) : finalA m ρ c (0 : Fin 2) = m ((c : Thread nD τ).loc main_arg0) :=
  (dats (F := F) m ρ 0 c).arrAt_in (0 : Fin 2) rfl _

/-- The result array after the run: the one point writes the whole of it back, from what the body left staged. -/
theorem finalA_out (c : Dev nD) : finalA m ρ c (1 : Fin 2) = outv (xs m ρ) := by
  unfold finalA
  rw [show cfg0.N = (t0_0 : Fin cfg0.N).val + 1 from rfl, Dat.arrAt_succ, if_pos (flush0_1 _)]
  exact Memref.write_access_unit_zero_univ (Elt F) main_v1 (funext fun a => Nat.zero_mul _) _ _ _

/-- The run, read at the two arrays: every device's result is the sum of all the blocks' rows, its argument unchanged. -/
theorem run_post (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = AllSum.outv (xs m ρ)
      ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩) (run_main m ρ hbody)

/-- info: 'Cert.Kernel.Proto.run_main' depends on axioms: [propext, Classical.choice, Quot.sound] -/
#guard_msgs in #print axioms run_main

/-- info: 'Cert.Kernel.Proto.xstg_eq' depends on axioms: [propext, Classical.choice, Quot.sound] -/
#guard_msgs in #print axioms xstg_eq

/-- info: 'Cert.Kernel.Proto.run_post' depends on axioms: [propext, Classical.choice, Quot.sound] -/
#guard_msgs in #print axioms run_post

end Cert.Kernel.Proto

end
-- ==== Proof.GatheredSum.lean ====
/-
  The devices' gathered sum read at an index, at the extended reals: every entry of a device's partial sum is the
  sum of its block's entries in that column over the block's 1536 rows, and every entry of the result is the sum
  of the eight partial sums in that column — a double sum over the devices and the rows of their blocks.
-/
import proofs.«901082_g7700000000001083_dist_sum_ax0_shard0_i_m1536_n768_v7x_i8_f32_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AllSumAt

open Cert.KernelIdeal Cert.KernelIdeal.Gen Cert.KernelIdeal.AllSum
open Idealize.ShloMosaic Idealize.ShloMosaic.ValueIdx

/-- The sum over the rows of a [1536, 768] array, read at column `j`. -/
theorem rows1536_apply (x : FVec Ideal S1536x768 .f32) (j : Fin 768) :
    multiReduction (F := Ideal) .add [0] S768 x 0x00000000#32 reduces_S1536x768_S768 (.inl rfl) rfl (ix1 j)
      = ∑ r : Fin 1536, x (ix2 r j) := by
  refine (Ideal.multiReduction_add_single x 0x00000000#32 reduces_S1536x768_S768 (.inl rfl) rfl (ix1 j)).trans ?_
  refine Finset.sum_congr rfl fun r _ => congrArg x ?_
  funext a
  exact Fin.ext (by match a with | ⟨0, _⟩ => rfl | ⟨1, _⟩ => rfl)

/-- The sum over the rows of an [8, 768] array, read at column `j`. -/
theorem rows8_apply (y : FVec Ideal S8x768 .f32) (j : Fin 768) :
    multiReduction (F := Ideal) .add [0] S768 y 0x00000000#32 reduces_S8x768_S768 (.inl rfl) rfl (ix1 j)
      = ∑ k : Fin 8, y (ix2 k j) := by
  refine (Ideal.multiReduction_add_single y 0x00000000#32 reduces_S8x768_S768 (.inl rfl) rfl (ix1 j)).trans ?_
  refine Finset.sum_congr rfl fun k _ => congrArg y ?_
  funext a
  exact Fin.ext (by match a with | ⟨0, _⟩ => rfl | ⟨1, _⟩ => rfl)

/-- An [8, 1, 768] array viewed [8, 768] reads, at `(k, j)`, the operand at `(k, 0, j)`. -/
theorem cast_8x1x768_8x768_apply {α : Type} (v : S8x1x768.Idx → α) (h : S8x1x768.ShapeCasts S8x768)
    (k : Fin 8) (j : Fin 768) :
    shapeCast S8x768 v h (ix2 k j) = v (ix3 k (0 : Fin 1) j) :=
  shapeCast_apply v h _ _ (by
    rw [Shape.rowMajor_val_three, Shape.rowMajor_val_two]
    show (k.val * 1 + 0) * 768 + j.val = k.val * 768 + j.val
    rw [Nat.mul_one, Nat.add_zero])

/-- A device's partial sum at column `j`: the sum of its block's column over the rows. -/
theorem part_apply (x : Vec Ideal S1536x768 .f32) (a b : Fin 1) (j : Fin 768) :
    part (F := Ideal) x (ix3 a b j) = ∑ r : Fin 1536, x (ix2 r j) := by
  unfold part k0_pay2 k0_pay1
  rw [shapeCast_self]
  refine (shapeCast_ab_1ab_apply _ _ a b j).trans ?_
  refine (shapeCast_a_1a_apply _ _ b j).trans ?_
  exact rows1536_apply x j

/-- The row of the gathered buffer the index `(k, b, j)` lies in is `k`. -/
theorem rowOf_ix3 (k : Fin 8) (b : Fin 1) (j : Fin 768) : rowOf (ix3 k b j) = k := rfl

/-- Inside its row the index `(k, b, j)` is `(0, 0, j)`. -/
theorem inRow_ix3 (k : Fin 8) (b : Fin 1) (j : Fin 768) :
    inRow (ix3 k b j) = ix3 (0 : Fin 1) (0 : Fin 1) j := by
  funext a
  exact Fin.ext (by match a with | ⟨0, _⟩ => rfl | ⟨1, _⟩ => rfl | ⟨2, _⟩ => rfl)

/-- The gathered buffer at `(k, b, j)`: device `k`'s column sum. -/
theorem gath_apply (xs : Dev nD → Vec Ideal S1536x768 .f32) (k : Fin 8) (b : Fin 1) (j : Fin 768) :
    gath (F := Ideal) xs (ix3 k b j) = ∑ r : Fin 1536, xs k (ix2 r j) := by
  unfold gath
  rw [rowOf_ix3, inRow_ix3]
  exact part_apply (xs k) 0 0 j

/-- Every device's result at column `j`: the sum over the devices of the sums of their blocks' columns. -/
theorem outv_apply (xs : Dev nD → Vec Ideal S1536x768 .f32) (u : Fin 1) (j : Fin 768) :
    outv (F := Ideal) xs (ix2 u j) = ∑ k : Fin 8, ∑ r : Fin 1536, xs k (ix2 r j) := by
  unfold outv k0_pay3
  refine (shapeCast_a_1a_apply _ _ u j).trans ?_
  refine (rows8_apply _ j).trans ?_
  refine Finset.sum_congr rfl fun k _ => ?_
  refine (cast_8x1x768_8x768_apply _ _ k j).trans ?_
  exact gath_apply xs k 0 j

end Cert.KernelIdeal.AllSumAt

end
-- ==== Proof.RefSide.lean ====
/-
  The reference side of the all-devices sum, at the extended reals.

  The reference sums the whole array `x : [12288, 768]` over its rows, from the initial value zero, and lays the 768
  column sums out as one row. Here: the reference runs, leaving its argument unchanged (`frame_ri`, `ref_run`); its
  result as one function of the argument array (`refOut`); and the equation with the devices' gathered sum
  (`outv_eq_refOut`): device `k` holds rows `1536 k … 1536 k + 1535` of `x`, so the sum over the eight devices of the
  sums over their blocks' rows is the sum over all 12288 rows, regrouped in eight runs of 1536 — addition of extended
  reals is commutative and associative, so no finiteness is asked of the entries.
-/
import proofs.«901082_g7700000000001083_dist_sum_ax0_shard0_i_m1536_n768_v7x_i8_f32_1_alg».proof.Defs
import proofs.«901082_g7700000000001083_dist_sum_ax0_shard0_i_m1536_n768_v7x_i8_f32_1_alg».proof.Proof.Gen.ReferenceIdeal
import proofs.«901082_g7700000000001083_dist_sum_ax0_shard0_i_m1536_n768_v7x_i8_f32_1_alg».proof.Proof.Gen.Pre_finite_inputs_ReferenceIdeal
import proofs.«901082_g7700000000001083_dist_sum_ax0_shard0_i_m1536_n768_v7x_i8_f32_1_alg».proof.Proof.Gen.ReferenceIdeal.Run
import proofs.«901082_g7700000000001083_dist_sum_ax0_shard0_i_m1536_n768_v7x_i8_f32_1_alg».proof.Proof.Gen.ReferenceIdeal.Read
import proofs.«901082_g7700000000001083_dist_sum_ax0_shard0_i_m1536_n768_v7x_i8_f32_1_alg».proof.Proof.Spec
import proofs.«901082_g7700000000001083_dist_sum_ax0_shard0_i_m1536_n768_v7x_i8_f32_1_alg».proof.Proof.GatheredSum
import Idealize.ShloMosaic.Lib.Layout
import Idealize.ShloMosaic.Lib.ValueIdx
import Idealize.ShloMosaic.PureOps.Ideal.Laws
import Mathlib.Logic.Equiv.Fin.Basic

noncomputable section

namespace Cert.Proof.RefSide

open Idealize.ShloMosaic Idealize.ShloMosaic.TcCoe Idealize.SL.Sem Idealize.ShloMosaic.ValueIdx

/-- The reference runs to the end, faulting nowhere, and leaves its argument array unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's result as a function of its argument array: the column sums from zero, as one row. -/
def refOut (X : (⟨Cert.ReferenceIdeal.S12288x768, .f32⟩ : BufTy).Contents (Elt Ideal)) :
    (⟨Cert.ReferenceIdeal.S1x768, .f32⟩ : BufTy).Contents (Elt Ideal) :=
  Cert.ReferenceIdeal.Read.val_main_v1 (F := Ideal) X

/-- The reference's run: its result buffer ends at `refOut` of its argument array, which ends unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq (F := Ideal) _), (h 0).2⟩)
    (Cert.ReferenceIdeal.Value.run (F := Ideal) m' g')

/-- A sum of `a * b` terms, grouped in `a` runs of `b`. -/
theorem sum_runs {M : Type*} [AddCommMonoid M] (a b : ℕ) (g : Fin (a * b) → M) :
    ∑ n : Fin (a * b), g n = ∑ k : Fin a, ∑ r : Fin b, g (finProdFinEquiv (k, r)) := by
  rw [← Equiv.sum_comp finProdFinEquiv g, Fintype.sum_prod_type]

/-- The reference's result at column `j`: the sum of the whole array's column over all its rows. -/
theorem refOut_apply (X : (⟨Cert.ReferenceIdeal.S12288x768, .f32⟩ : BufTy).Contents (Elt Ideal)) (u : Fin 1) (j : Fin 768) :
    refOut X (ix2 u j) = ∑ n : Fin 12288, X (ix2 n j) := by
  unfold refOut
  rw [Cert.ReferenceIdeal.Read.val_main_v1_apply, Cert.ReferenceIdeal.Read.val_main_v0_apply,
    Cert.ReferenceIdeal.Read.val_main_cst_apply]
  refine (congrArg (· + _) (show (FloatOps.ofBits (F := Ideal) .f32 0x00000000#32 : EReal) = 0 from Ideal.ofBits_zero_f32)).trans ?_
  refine (zero_add _).trans ?_
  refine Finset.sum_congr rfl fun n _ => congrArg X ?_
  funext a
  exact Fin.ext (by match a with | ⟨0, _⟩ => rfl | ⟨1, _⟩ => rfl)

/-- Row `r` of block `k` of the whole array, cut along the rows in eight blocks of 1536, is its row `1536 k + r`. -/
theorem block_apply_ix2 (X : (⟨Cert.ReferenceIdeal.S12288x768, .f32⟩ : BufTy).Contents (Elt Ideal)) (k : Fin 8) (r : Fin 1536) (j : Fin 768) :
    (Layout.block ⟨2, ![1536, 768]⟩ ⟨2, ![12288, 768]⟩ 0 8 k X) (ix2 r j)
      = X (ix2 (finProdFinEquiv (k, r) : Fin (8 * 1536)) j) := by
  rw [Layout.block_apply]
  refine congrArg X ?_
  funext a
  exact Fin.ext (by
    match a with
    | ⟨0, _⟩ => show k.val * 1536 + r.val = r.val + 1536 * k.val; omega
    | ⟨1, _⟩ => rfl)

/-- The devices' gathered sum of the eight blocks of the whole array is the reference's result. -/
theorem outv_eq_refOut (X : (⟨Cert.ReferenceIdeal.S12288x768, .f32⟩ : BufTy).Contents (Elt Ideal)) :
    Cert.KernelIdeal.AllSum.outv (F := Ideal) (fun k : Dev Cert.KernelIdeal.nD => Layout.block ⟨2, ![1536, 768]⟩ ⟨2, ![12288, 768]⟩ 0 8 k X) = refOut X := by
  funext i
  obtain ⟨u, j, rfl⟩ : ∃ (u : Fin 1) (j : Fin 768), i = ix2 u j := ⟨i 0, i 1, eq_ix2 i⟩
  rw [Cert.KernelIdeal.AllSumAt.outv_apply, refOut_apply]
  refine Eq.trans ?_ (sum_runs 8 1536 (fun n : Fin 12288 => X (ix2 n j))).symm
  exact Finset.sum_congr rfl fun k _ => Finset.sum_congr rfl fun r _ => block_apply_ix2 X k r j

end Cert.Proof.RefSide

end
-- ==== Proof.lean ====
/-
  The all-devices sum on eight devices against `jnp.sum(x, axis=0, keepdims=True)` on one.

  Every device reduces its block of `x` (1536 rows) over the rows; the eight partial sums travel to every device by
  remote copies, each into its own row of an eight-row buffer, after a handshake on the barrier semaphore that tells a
  device every other device has entered the kernel; every device then reduces the buffer over its eight rows. Over the
  extended reals the result is the sum over the eight blocks of the sums over their rows, which is the sum over all
  12288 rows: addition is commutative and associative there, so no finiteness is used.

  The run of the kernel on the mesh (every fair interleaving terminates, nothing faults, the argument arrays are
  unchanged and every device's result buffer ends at the double sum) is proved once, for any float instance, from the
  protocol's schedule, one device's body in three stretches, and the launch; it is read at the word-level instance for
  the word-level program's frame and at the ideal instance for the idealized program's frame and for the equivalence.
  The reference's run and its value come from its generated run, read at an index.
-/
import proofs.«901082_g7700000000001083_dist_sum_ax0_shard0_i_m1536_n768_v7x_i8_f32_1_alg».proof.Defs
import proofs.«901082_g7700000000001083_dist_sum_ax0_shard0_i_m1536_n768_v7x_i8_f32_1_alg».proof.Proof.Gen.Kernel
import proofs.«901082_g7700000000001083_dist_sum_ax0_shard0_i_m1536_n768_v7x_i8_f32_1_alg».proof.Proof.Gen.KernelIdeal
import proofs.«901082_g7700000000001083_dist_sum_ax0_shard0_i_m1536_n768_v7x_i8_f32_1_alg».proof.Proof.Gen.ReferenceIdeal
import proofs.«901082_g7700000000001083_dist_sum_ax0_shard0_i_m1536_n768_v7x_i8_f32_1_alg».proof.Proof.Gen.Pre_finite_inputs_Kernel
import proofs.«901082_g7700000000001083_dist_sum_ax0_shard0_i_m1536_n768_v7x_i8_f32_1_alg».proof.Proof.Gen.Pre_finite_inputs_ReferenceIdeal
import proofs.«901082_g7700000000001083_dist_sum_ax0_shard0_i_m1536_n768_v7x_i8_f32_1_alg».proof.Proof.Body
import proofs.«901082_g7700000000001083_dist_sum_ax0_shard0_i_m1536_n768_v7x_i8_f32_1_alg».proof.Proof.Launch
import proofs.«901082_g7700000000001083_dist_sum_ax0_shard0_i_m1536_n768_v7x_i8_f32_1_alg».proof.Proof.Bits.Body
import proofs.«901082_g7700000000001083_dist_sum_ax0_shard0_i_m1536_n768_v7x_i8_f32_1_alg».proof.Proof.Bits.Launch
import proofs.«901082_g7700000000001083_dist_sum_ax0_shard0_i_m1536_n768_v7x_i8_f32_1_alg».proof.Proof.RefSide
import Idealize.ShloMosaic.Adequacy
import Idealize.ShloMosaic.Init

noncomputable section

namespace Cert.Proof

open Idealize.ShloMosaic Idealize.SL.Sem

/-- The word-level program runs and leaves its argument arrays unchanged: its run with the result dropped. -/
theorem frame_k : Cert.frame_Kernel := fun m ρ _ =>
  (θ_run (Cert.Kernel.defs (F := Bits)) _ _).mono (fun _ h c => (h c).2)
    (Cert.Kernel.Proto.run_post (F := Bits) m ρ (Cert.Kernel.Proto.body_obligation m ρ))

/-- The idealized program runs and leaves its argument arrays unchanged. -/
theorem frame_ki : Cert.frame_KernelIdeal := fun m ρ _ =>
  (θ_run (Cert.KernelIdeal.defs (F := Ideal)) _ _).mono (fun _ h c => (h c).2)
    (Cert.KernelIdeal.Proto.run_post (F := Ideal) m ρ (Cert.KernelIdeal.Proto.body_obligation m ρ))

/-- Both programs run; every device's result is the sum over the blocks of the sums over their rows, the blocks being
    the reference's array cut along its rows: the reference's sum over all rows. -/
theorem algebraic : Cert.algebraic_KernelIdeal_ReferenceIdeal := by
  intro m ρ m' ρ' _ hagree
  refine ⟨RefSide.refOut (m' (((0 : Dev Cert.ReferenceIdeal.nD).tc : Thread Cert.ReferenceIdeal.nD Cert.ReferenceIdeal.τ).loc Cert.ReferenceIdeal.main_arg0)), ?_, RefSide.ref_run m' ρ'⟩
  refine (θ_run (Cert.KernelIdeal.defs (F := Ideal)) _ _).mono (fun _ h c => ⟨(h c).1.trans ?_, (h c).2⟩)
    (Cert.KernelIdeal.Proto.run_post (F := Ideal) m ρ (Cert.KernelIdeal.Proto.body_obligation m ρ))
  rw [← RefSide.outv_eq_refOut]
  refine congrArg _ (funext fun k => ?_)
  exact (Cert.KernelIdeal.Proto.xstg_eq m ρ k).trans (hagree k)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, RefSide.frame_ri, trivial, algebraic⟩

end Cert.Proof

end
